-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S64x16 .f32) (main_arg9 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S64 .f32) (main_arg6 : FVec F S64x64 .f32) (main_arg7 : FVec F S64 .f32) (main_arg8 : FVec F S64x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 152
  | .vmem => 56
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x16, .f32⟩
  | 9 => ⟨S16, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S100000x1, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1, .i32⟩
  | 42 => ⟨S_, .i32⟩
  | 43 => ⟨S1700000x1, .i32⟩
  | 44 => ⟨S1700000x1, .i1⟩
  | 45 => ⟨S1x1, .i32⟩
  | 46 => ⟨S1700000x1, .i32⟩
  | 47 => ⟨S1700000x1, .i1⟩
  | 48 => ⟨S1700000x1, .i1⟩
  | 49 => ⟨S_, .i1⟩
  | 50 => ⟨S1700000, .i1⟩
  | 51 => ⟨S1700000x64, .f32⟩
  | 52 => ⟨S1700000x64, .i1⟩
  | 53 => ⟨S_, .f32⟩
  | 54 => ⟨S1700000x64, .f32⟩
  | 55 => ⟨S1700000x64, .f32⟩
  | 56 => ⟨S_, .f32⟩
  | 57 => ⟨S100000x64, .f32⟩
  | 58 => ⟨S1700000x1, .i32⟩
  | 59 => ⟨S100000x64, .f32⟩
  | 60 => ⟨S1x64, .f32⟩
  | 61 => ⟨S100000x64, .f32⟩
  | 62 => ⟨S100000x64, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1, .i32⟩
  | 72 => ⟨S_, .i32⟩
  | 73 => ⟨S1700000x1, .i32⟩
  | 74 => ⟨S1700000x1, .i1⟩
  | 75 => ⟨S1x1, .i32⟩
  | 76 => ⟨S1700000x1, .i32⟩
  | 77 => ⟨S1700000x1, .i1⟩
  | 78 => ⟨S1700000x1, .i1⟩
  | 79 => ⟨S_, .i1⟩
  | 80 => ⟨S1700000, .i1⟩
  | 81 => ⟨S1700000x64, .f32⟩
  | 82 => ⟨S1700000x64, .i1⟩
  | 83 => ⟨S_, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1, .i32⟩
  | 102 => ⟨S_, .i32⟩
  | 103 => ⟨S1700000x1, .i32⟩
  | 104 => ⟨S1700000x1, .i1⟩
  | 105 => ⟨S1x1, .i32⟩
  | 106 => ⟨S1700000x1, .i32⟩
  | 107 => ⟨S1700000x1, .i1⟩
  | 108 => ⟨S1700000x1, .i1⟩
  | 109 => ⟨S_, .i1⟩
  | 110 => ⟨S1700000, .i1⟩
  | 111 => ⟨S1700000x64, .f32⟩
  | 112 => ⟨S1700000x64, .i1⟩
  | 113 => ⟨S_, .f32⟩
  | 114 => ⟨S1700000x64, .f32⟩
  | 115 => ⟨S1700000x64, .f32⟩
  | 116 => ⟨S_, .f32⟩
  | 117 => ⟨S100000x64, .f32⟩
  | 118 => ⟨S1700000x1, .i32⟩
  | 119 => ⟨S100000x64, .f32⟩
  | 120 => ⟨S1x64, .f32⟩
  | 121 => ⟨S100000x64, .f32⟩
  | 122 => ⟨S100000x16, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1, .i32⟩
  | 4 => ⟨S_, .i32⟩
  | 5 => ⟨S1700000x1, .i32⟩
  | 6 => ⟨S1700000x1, .i1⟩
  | 7 => ⟨S1x1, .i32⟩
  | 8 => ⟨S1700000x1, .i32⟩
  | 9 => ⟨S1700000x1, .i1⟩
  | 10 => ⟨S1700000x1, .i1⟩
  | 11 => ⟨S_, .i1⟩
  | 12 => ⟨S1700000, .i1⟩
  | 13 => ⟨S1700000x16, .f32⟩
  | 14 => ⟨S1700000x16, .i1⟩
  | 15 => ⟨S_, .f32⟩
  | 16 => ⟨S1700000x16, .f32⟩
  | 17 => ⟨S1700000x16, .f32⟩
  | 18 => ⟨S_, .f32⟩
  | 19 => ⟨S100000x16, .f32⟩
  | 20 => ⟨S1700000x1, .i32⟩
  | 21 => ⟨S100000x16, .f32⟩
  | 22 => ⟨S1x16, .f32⟩
  | 23 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x1, .f32⟩
  | .local _ .vmem, ⟨32, _⟩ => ⟨S5000x1, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x16, .f32⟩
  | .local _ .vmem, ⟨45, _⟩ => ⟨S5000x1, .f32⟩
  | .local _ .vmem, ⟨46, _⟩ => ⟨S5000x1, .f32⟩
  | .local _ .vmem, ⟨47, _⟩ => ⟨S5000x16, .f32⟩
  | .local _ .vmem, ⟨48, _⟩ => ⟨S5000x16, .f32⟩
  | .local _ .vmem, ⟨49, _⟩ => ⟨S5000x16, .f32⟩
  | .local _ .vmem, ⟨50, _⟩ => ⟨S5000x16, .f32⟩
  | .local _ .vmem, ⟨51, _⟩ => ⟨S5000x1, .f32⟩
  | .local _ .vmem, ⟨52, _⟩ => ⟨S5000x1, .f32⟩
  | .local _ .vmem, ⟨53, _⟩ => ⟨S1x16, .f32⟩
  | .local _ .vmem, ⟨54, _⟩ => ⟨S5000x16, .f32⟩
  | .local _ .vmem, ⟨55, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v24 : Ref sig .tc := ⟨.hbm, 85, rfl⟩
abbrev main_cst_4 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v31 : Ref sig .tc := ⟨.hbm, 115, rfl⟩
abbrev main_cst_5 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v38 : Ref sig .tc := ⟨.hbm, 145, rfl⟩
abbrev main_cst_6 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S1700000_S1700000x16_0 : S1700000.BroadcastsInDim S1700000x16 (![0] : Fin 1 → Fin S1700000x16.rank)
  bcast_S_S1700000x16 : S_.BroadcastsInDim S1700000x16 (![] : Fin 0 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S100000x16.size a
  hwx6_3 : ∀ i : grid6.Coords, EltTy.bits .f32 = 32 ∨ (Rect.block (s := S100000x16) S5000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S100000x16.size a
  hwx7_0 : ∀ i : grid7.Coords, EltTy.bits .f32 = 32 ∨ (Rect.block (s := S100000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x16.size a ≤ S100000x16.size a
  hwx7_3 : ∀ i : grid7.Coords, EltTy.bits .f32 = 32 ∨ (Rect.block (s := S100000x16) S5000x16.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v29) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v34) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v36) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v37) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v41) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v42) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v43) S5000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x16, .f32⟩
  | 9 => ⟨S16, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x16, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x16, .f32⟩
  | 1 => ⟨S1700000x1, .f32⟩
  | 2 => ⟨S1700000x16, .f32⟩
  | 3 => ⟨S1700000x16, .f32⟩
  | 4 => ⟨S_, .f32⟩
  | 5 => ⟨S100000x16, .f32⟩
  | 6 => ⟨S1700000x1, .i32⟩
  | 7 => ⟨S100000x16, .f32⟩
  | 8 => ⟨S1x16, .f32⟩
  | 9 => ⟨S100000x16, .f32⟩
  | 10 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Spec.lean ====
/- The vocabulary of this certificate.

   One graph-convolution layer with symmetric normalisation: from node features `H`, a weight matrix `W`, a bias
   `b`, the edge list with a self loop appended at every node (sources `s e`, destinations `d e`) and the
   normaliser `c n = deg(n)^(-1/2)`, the layer's output at node `n`, feature `f` is
   `(∑ over the edges e with d e = n of (H·W)[s e, f] · c (s e) · c n) + b f`, followed by `max · 0` in the first
   three layers. The reference multiplies every message by `c (s e) · c (d e)` before the sum; the kernel
   multiplies the rows of `H·W` by `c` before they are gathered and the summed rows by `c` again afterwards.

   Here are: the whole-array functions of the kernel's two kinds of region (the scaled product, and scale + bias
   + optional `max · 0`); the kernel's host stretch between them (the masked gather of rows and the sum into
   destination rows), written over the source, destination and normaliser arrays that both programs build from
   `edge_index` by the same operations (the reference's first stages name them); the reference's layer with the
   product `H·W` as a parameter; and the hypothesis that every source index names a node. -/
import proofs.«430215_j31516470018049_1_alg».proof.Proof.Gen.KernelIdeal
import proofs.«430215_j31516470018049_1_alg».proof.Proof.Gen.ReferenceIdeal
import proofs.«430215_j31516470018049_1_alg».proof.Proof.RefRead
import Idealize.ShloMosaic.Lib.ValueIdx
import Idealize.ShloMosaic.PureOps.Ideal.Laws

noncomputable section

namespace Cert.GCN

open Idealize.ShloMosaic Idealize.ShloMosaic.ValueIdx

/-! ## The two kinds of kernel region, as functions of whole arrays -/

section Regions
open Cert.KernelIdeal

/-- Rows of `H · W` scaled by the column `c`: entry `(n, f)` is `(∑ k, H[n,k] · W[k,f]) · c[n]`; 128 → 64 features. -/
def mmScale_128_64 (H : FVec Ideal S100000x128 .f32) (W : FVec Ideal S128x64 .f32) (c : FVec Ideal S100000x1 .f32) :
    FVec Ideal S100000x64 .f32 :=
  fun i => (∑ k : Fin 128, H (ix2 (i 0) k) * W (ix2 k (i 1))) * c (ix2 (i 0) 0)

/-- The same, 64 → 64 features. -/
def mmScale_64_64 (H : FVec Ideal S100000x64 .f32) (W : FVec Ideal S64x64 .f32) (c : FVec Ideal S100000x1 .f32) :
    FVec Ideal S100000x64 .f32 :=
  fun i => (∑ k : Fin 64, H (ix2 (i 0) k) * W (ix2 k (i 1))) * c (ix2 (i 0) 0)

/-- The same, 64 → 16 features. -/
def mmScale_64_16 (H : FVec Ideal S100000x64 .f32) (W : FVec Ideal S64x16 .f32) (c : FVec Ideal S100000x1 .f32) :
    FVec Ideal S100000x16 .f32 :=
  fun i => (∑ k : Fin 64, H (ix2 (i 0) k) * W (ix2 k (i 1))) * c (ix2 (i 0) 0)

/-- Summed rows scaled by `c`, the bias row added, negative entries replaced by zero: `max (A[n,f] · c[n] + b[f]) 0`. -/
def scaleBiasRelu_64 (A : FVec Ideal S100000x64 .f32) (c : FVec Ideal S100000x1 .f32) (b : FVec Ideal S1x64 .f32) :
    FVec Ideal S100000x64 .f32 :=
  fun i => max (A i * c (ix2 (i 0) 0) + b (ix2 0 (i 1))) 0

/-- The last layer's: `A[n,f] · c[n] + b[f]`, 16 features, no `max`. -/
def scaleBias_16 (A : FVec Ideal S100000x16 .f32) (c : FVec Ideal S100000x1 .f32) (b : FVec Ideal S1x16 .f32) :
    FVec Ideal S100000x16 .f32 :=
  fun i => A i * c (ix2 (i 0) 0) + b (ix2 0 (i 1))

end Regions

/-! ## The kernel's host stretch between its regions -/

section KernelHost
open Cert.KernelIdeal Cert.KernelIdeal.Facts₀ Cert.KernelIdeal.Facts

/-- The sources `s e`: row 0 of `edge_index` with the node numbers appended. -/
abbrev srcV (ei : IVec S2x1600000 32) : IVec S1700000 32 := Cert.ReferenceIdeal.ReadP.val_main_v3 (F := Ideal) ei
/-- The destinations `d e`: row 1 of `edge_index` with the node numbers appended. -/
abbrev dstV (ei : IVec S2x1600000 32) : IVec S1700000 32 := Cert.ReferenceIdeal.ReadP.val_main_v6 (F := Ideal) ei
/-- The normaliser `c` as a column. -/
def dcol (ei : IVec S2x1600000 32) : FVec Ideal S100000x1 .f32 :=
  shapeCast S100000x1 (Cert.ReferenceIdeal.ReadP.val_main_v14 (F := Ideal) ei) shapeCasts_S100000_S100000x1

/-- The gather's start indices: a negative source has the node count added, then one column. -/
def srcIdx2 (ei : IVec S2x1600000 32) : IVec S1700000x1 32 :=
  broadcastInDim S1700000x1 ![0] bcast_S1700000_S1700000x1_0
    (select (cmpi .slt (srcV ei) (broadcastInDim S1700000 ![] bcast_S_S1700000 (constantI S_ 32 0#32)))
      (addi (srcV ei) (broadcastInDim S1700000 ![] bcast_S_S1700000 (constantI S_ 32 100000#32)))
      (srcV ei))

/-- Per edge: does its start index name a node (`0 ≤ · ≤ 99999`)? -/
def takeMask (ei : IVec S2x1600000 32) : IVec S1700000 1 :=
  Host.reduce IntOp.andi
    (andi (cmpi .sge (srcIdx2 ei) (broadcastInDim S1700000x1 ![] bcast_S_S1700000x1 (constantI S_ 32 0#32)))
      (cmpi .sle (srcIdx2 ei)
        (broadcastInDim S1700000x1 ![0, 1] bcast_S1x1_S1700000x1_0_1
          (broadcastInDim S1x1 ![1] bcast_S1_S1x1_1 (constantI S1 32 99999#32)))))
    (constantI S_ 1 1#1) reducesTo_S1700000x1_S1700000_d1 h_S_

/-- The rows of `hs` the edges' sources name, a fill pattern where the mask is clear; 64 features. -/
def take64 (hs : FVec Ideal S100000x64 .f32) (ei : IVec S2x1600000 32) : FVec Ideal S1700000x64 .f32 :=
  select (broadcastInDim S1700000x64 ![0] bcast_S1700000_S1700000x64_0 (takeMask ei))
    (Host.gather gather_S100000x64_S1700000x1_S1700000x64_1_0_n_n_0_1_164 hs (srcIdx2 ei))
    (broadcastInDim S1700000x64 ![] bcast_S_S1700000x64 (constant (F := Ideal) S_ .f32 0x7FC00000#32))

/-- The same, 16 features. -/
def take16 (hs : FVec Ideal S100000x16 .f32) (ei : IVec S2x1600000 32) : FVec Ideal S1700000x16 .f32 :=
  select (broadcastInDim S1700000x16 ![0] bcast_S1700000_S1700000x16_0 (takeMask ei))
    (Host.gather gather_S100000x16_S1700000x1_S1700000x16_1_0_n_n_0_1_116 hs (srcIdx2 ei))
    (broadcastInDim S1700000x16 ![] bcast_S_S1700000x16 (constant (F := Ideal) S_ .f32 0x7FC00000#32))

/-- From the scaled product `hs` to the layer's output, the kernel's way: gather the source rows, sum them into
    the destination rows, then scale by `c`, add the bias, `max · 0`; 64 features. -/
def kAgg64 (ei : IVec S2x1600000 32) (hs : FVec Ideal S100000x64 .f32) (b : FVec Ideal S64 .f32) : FVec Ideal S100000x64 .f32 :=
  scaleBiasRelu_64
    (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 (dstV ei))
      (take64 hs ei))
    (dcol ei) (shapeCast S1x64 b shapeCasts_S64_S1x64)

/-- The last layer's: 16 features, no `max`. -/
def kAgg16 (ei : IVec S2x1600000 32) (hs : FVec Ideal S100000x16 .f32) (b : FVec Ideal S16 .f32) : FVec Ideal S100000x16 .f32 :=
  scaleBias_16
    (Host.scatterAdd scatter_S100000x16_S1700000x1_S1700000x16_1_0_0_1
      (broadcastInDim S100000x16 ![] bcast_S_S100000x16 (constant (F := Ideal) S_ .f32 0x00000000#32))
      (broadcastInDim S1700000x1 ![0] bcast_S1700000_S1700000x1_0 (dstV ei))
      (take16 hs ei))
    (dcol ei) (shapeCast S1x16 b shapeCasts_S16_S1x16)

end KernelHost

/-! ## The reference's layer, the product `M = H · W` a parameter -/

section RefHost
open Cert.ReferenceIdeal Cert.ReferenceIdeal.Facts₀ Cert.ReferenceIdeal.Facts Cert.ReferenceIdeal.ReadP

/-- Gather the source rows of `M`, multiply each message by `c (s e) · c (d e)`, sum into the destination rows,
    add the bias, `max · 0`; 64 features. -/
def rAgg64 (ei : IVec S2x1600000 32) (M : FVec Ideal S100000x64 .f32) (b : FVec Ideal S64 .f32) : FVec Ideal S100000x64 .f32 :=
  maximumf
    (addf
      (Host.scatterAdd scatter_S100000x64_S1700000x1_S1700000x64_1_0_0_1 (val_main_v41 (F := Ideal)) (val_main_v42 (F := Ideal) ei)
        (mulf (Host.gather gather_S100000x64_S1700000x1_S1700000x64_1_0_n_n_0_1_164 M (val_main_v36 (F := Ideal) ei))
          (val_main_v39 (F := Ideal) ei)))
      (val_main_v45 (F := Ideal) b))
    (val_main_call1_v0 (F := Ideal))

/-- The last layer's: 16 features, no `max`. -/
def rAgg16 (ei : IVec S2x1600000 32) (M : FVec Ideal S100000x16 .f32) (b : FVec Ideal S16 .f32) : FVec Ideal S100000x16 .f32 :=
  addf
    (Host.scatterAdd scatter_S100000x16_S1700000x1_S1700000x16_1_0_0_1 (val_main_v95 (F := Ideal)) (val_main_v96 (F := Ideal) ei)
      (mulf (Host.gather gather_S100000x16_S1700000x1_S1700000x16_1_0_n_n_0_1_116 M (val_main_v90 (F := Ideal) ei))
        (val_main_v93 (F := Ideal) ei)))
    (val_main_v99 (F := Ideal) b)

/-- Every source index names a node. -/
def SrcInRange (ei : IVec S2x1600000 32) : Prop :=
  ∀ e : S1700000.Idx, 0 ≤ BitVec.toInt (val_main_v3 (F := Ideal) ei e) ∧ BitVec.toInt (val_main_v3 (F := Ideal) ei e) < 100000

end RefHost

end Cert.GCN

end
-- ==== Proof.KBase.lean ====
/- What the kernel's host stretches and regions leave alone. The sources, the destinations, the normaliser column and
   the weight and bias arguments are written once (or never) and only read afterwards, so at every later boundary of
   @main their buffers still hold what they held when written: each is read back through the stretches and regions
   between, none of which writes it. -/
import proofs.«430215_j31516470018049_1_alg».proof.Proof.Spec
import proofs.«430215_j31516470018049_1_alg».proof.Proof.Gen.KernelIdeal.Frame

noncomputable section

namespace Cert.GCN

open Idealize.ShloMosaic Idealize.ShloMosaic.TcCoe Idealize.ShloMosaic.ValueIdx Idealize.SL.Sem
open Cert.KernelIdeal Cert.KernelIdeal.Gen

/-- The launch contents of argument `k` on core `c`. -/
abbrev arg0 (m : (ℓ : Loc nD τ sig) → Buf (Elt Ideal) ℓ) (c : Dev nD) := m ((c.tc : Thread nD τ).loc main_arg0)
abbrev arg1 (m : (ℓ : Loc nD τ sig) → Buf (Elt Ideal) ℓ) (c : Dev nD) := m ((c.tc : Thread nD τ).loc main_arg1)
abbrev arg2 (m : (ℓ : Loc nD τ sig) → Buf (Elt Ideal) ℓ) (c : Dev nD) := m ((c.tc : Thread nD τ).loc main_arg2)
abbrev arg3 (m : (ℓ : Loc nD τ sig) → Buf (Elt Ideal) ℓ) (c : Dev nD) := m ((c.tc : Thread nD τ).loc main_arg3)
abbrev arg4 (m : (ℓ : Loc nD τ sig) → Buf (Elt Ideal) ℓ) (c : Dev nD) := m ((c.tc : Thread nD τ).loc main_arg4)
abbrev arg5 (m : (ℓ : Loc nD τ sig) → Buf (Elt Ideal) ℓ) (c : Dev nD) := m ((c.tc : Thread nD τ).loc main_arg5)
abbrev arg6 (m : (ℓ : Loc nD τ sig) → Buf (Elt Ideal) ℓ) (c : Dev nD) := m ((c.tc : Thread nD τ).loc main_arg6)
abbrev arg7 (m : (ℓ : Loc nD τ sig) → Buf (Elt Ideal) ℓ) (c : Dev nD) := m ((c.tc : Thread nD τ).loc main_arg7)
abbrev arg8 (m : (ℓ : Loc nD τ sig) → Buf (Elt Ideal) ℓ) (c : Dev nD) := m ((c.tc : Thread nD τ).loc main_arg8)
abbrev arg9 (m : (ℓ : Loc nD τ sig) → Buf (Elt Ideal) ℓ) (c : Dev nD) := m ((c.tc : Thread nD τ).loc main_arg9)

variable (m : (ℓ : Loc nD τ sig) → Buf (Elt Ideal) ℓ) (ρ : Dev nD → PrngReg) (c : Dev nD)

/-! ## The two kinds of step

Between two boundaries of @main lies either a stretch of host operations or a kernel region. A stretch changes only
the buffers its operations write: a buffer that is the result of none of them is unchanged, and whether it is one is
decided operation by operation on the references. A region changes only its output array: any buffer that is not one
of its four arrays is unchanged, and so is an array it only reads. -/

/-- Closes `(after the stretch) b = (before it) b` for a buffer `b` that no operation of the stretch writes. -/
local macro "host_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! An input array of a region holds at the region's exit what it held at its entry: the pipeline never writes an
    input back, so its contents after every grid point are the entry contents. One statement per region. -/
private theorem in_at4 (w : Fin cfg0.W) (hin : (cfg0.win w).isOut = false) :
    W4 (F := Ideal) m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
private theorem in_at7 (w : Fin cfg1.W) (hin : (cfg1.win w).isOut = false) :
    W7 (F := Ideal) m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))
private theorem in_at8 (w : Fin cfg2.W) (hin : (cfg2.win w).isOut = false) :
    W8 (F := Ideal) m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
private theorem in_at11 (w : Fin cfg3.W) (hin : (cfg3.win w).isOut = false) :
    W11 (F := Ideal) m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))
private theorem in_at12 (w : Fin cfg4.W) (hin : (cfg4.win w).isOut = false) :
    W12 (F := Ideal) m ρ c (Proc.devRef .tc (Pipeline.arrRef spec4 w)) = W11 m ρ c (Proc.devRef .tc (Pipeline.arrRef spec4 w)) :=
  (W12_arr m ρ c w).trans (((dat4 (V11 m ρ) c).arrAt_in w hin _).trans (A_eq4 (V11 m ρ) c w))
private theorem in_at15 (w : Fin cfg5.W) (hin : (cfg5.win w).isOut = false) :
    W15 (F := Ideal) m ρ c (Proc.devRef .tc (Pipeline.arrRef spec5 w)) = W14 m ρ c (Proc.devRef .tc (Pipeline.arrRef spec5 w)) :=
  (W15_arr m ρ c w).trans (((dat5 (V14 m ρ) c).arrAt_in w hin _).trans (A_eq5 (V14 m ρ) c w))
private theorem in_at16 (w : Fin cfg6.W) (hin : (cfg6.win w).isOut = false) :
    W16 (F := Ideal) m ρ c (Proc.devRef .tc (Pipeline.arrRef spec6 w)) = W15 m ρ c (Proc.devRef .tc (Pipeline.arrRef spec6 w)) :=
  (W16_arr m ρ c w).trans (((dat6 (V15 m ρ) c).arrAt_in w hin _).trans (A_eq6 (V15 m ρ) c w))

/-! ## What the first stretch writes

The first stretch builds, from `edge_index` alone, the sources, the destinations, and the three ingredients of the
normaliser (is the degree positive; the degree's inverse square root; a zero). They are the same operations, in the
same order, as the reference's first stages, so each buffer holds that stage's value. -/

private theorem src_at1 : W1 (F := Ideal) m ρ c (Proc.devRef .tc main_v3) = srcV (arg1 m c) := by
  dsimp only [W1, hostOps0]; after_results; rfl
private theorem dst_at1 : W1 (F := Ideal) m ρ c (Proc.devRef .tc main_v6) = dstV (arg1 m c) := by
  dsimp only [W1, hostOps0]; after_results; rfl
private theorem pos_at1 : W1 (F := Ideal) m ρ c (Proc.devRef .tc main_v12) =
    Cert.ReferenceIdeal.ReadP.val_main_v12 (F := Ideal) (arg1 m c) := by
  dsimp only [W1, hostOps0]; after_results; rfl
private theorem rsqrt_at1 : W1 (F := Ideal) m ρ c (Proc.devRef .tc main_v13) =
    Cert.ReferenceIdeal.ReadP.val_main_v13 (F := Ideal) (arg1 m c) := by
  dsimp only [W1, hostOps0]; after_results; rfl
private theorem zero_at1 : W1 (F := Ideal) m ρ c (Proc.devRef .tc main_cst_2) =
    Cert.ReferenceIdeal.ReadP.val_main_cst_2 (F := Ideal) := by
  dsimp only [W1, hostOps0]; after_results; rfl

/-! ## The normaliser: the second and third stretches

The second stretch selects, node by node, the inverse square root where the degree is positive and zero elsewhere; the
third only reshapes that vector into a column. Each is read from ANY entry contents, given what the entry holds in
the buffers the stretch reads. -/

private theorem select_of (V : Valuation τ sig (Elt Ideal)) (p : IVec S100000 1) (r : FVec Ideal S100000 .f32)
    (z : FVec Ideal S_ .f32) (hp : V (Proc.devRef .tc main_v12) = p) (hr : V (Proc.devRef .tc main_v13) = r)
    (hz : V (Proc.devRef .tc main_cst_2) = z) :
    StableHlo.after (hostOps0_1 (F := Ideal)) V (Proc.devRef .tc main_v14) =
      select p r (broadcastInDim S100000 ![] bcast_S_S100000 (id z)) := by
  subst hp hr hz
  dsimp only [hostOps0_1]; after_results; rfl

private theorem column_of (V : Valuation τ sig (Elt Ideal)) (v : FVec Ideal S100000 .f32)
    (hv : V (Proc.devRef .tc main_v14) = v) :
    StableHlo.after (hostOps0_2 (F := Ideal)) V (Proc.devRef .tc main_v15) =
      shapeCast S100000x1 v shapeCasts_S100000_S100000x1 := by
  subst hv
  dsimp only [hostOps0_2]; after_results; rfl

private theorem norm_at2 : W2 (F := Ideal) m ρ c (Proc.devRef .tc main_v14) =
    Cert.ReferenceIdeal.ReadP.val_main_v14 (F := Ideal) (arg1 m c) :=
  select_of (W1 m ρ c) _ _ _ (pos_at1 m ρ c) (rsqrt_at1 m ρ c) (zero_at1 m ρ c)

/-! ## The sources, where each gather reads them -/
theorem src_at4 : W4 (F := Ideal) m ρ c (Proc.devRef .tc main_v3) = srcV (arg1 m c) :=
  calc W4 (F := Ideal) m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = srcV (arg1 m c) := src_at1 m ρ c
theorem src_at8 : W8 (F := Ideal) m ρ c (Proc.devRef .tc main_v3) = srcV (arg1 m c) :=
  calc W8 (F := Ideal) m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by host_keeps hostOps1_1
    _ = W4 m ρ c (Proc.devRef .tc main_v3) := by host_keeps hostOps1
    _ = srcV (arg1 m c) := src_at4 m ρ c
theorem src_at12 : W12 (F := Ideal) m ρ c (Proc.devRef .tc main_v3) = srcV (arg1 m c) :=
  calc W12 (F := Ideal) m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by host_keeps hostOps3_1
    _ = W8 m ρ c (Proc.devRef .tc main_v3) := by host_keeps hostOps3
    _ = srcV (arg1 m c) := src_at8 m ρ c
theorem src_at16 : W16 (F := Ideal) m ρ c (Proc.devRef .tc main_v3) = srcV (arg1 m c) :=
  calc W16 (F := Ideal) m ρ c (Proc.devRef .tc main_v3)
    _ = W15 m ρ c (Proc.devRef .tc main_v3) := W16_of_ne m ρ c main_v3 (by decide)
    _ = W14 m ρ c (Proc.devRef .tc main_v3) := W15_of_ne m ρ c main_v3 (by decide)
    _ = W13 m ρ c (Proc.devRef .tc main_v3) := by host_keeps hostOps5_1
    _ = W12 m ρ c (Proc.devRef .tc main_v3) := by host_keeps hostOps5
    _ = srcV (arg1 m c) := src_at12 m ρ c

/-! ## The destinations, where each sum into rows reads them -/
theorem dst_at5 : W5 (F := Ideal) m ρ c (Proc.devRef .tc main_v6) = dstV (arg1 m c) :=
  calc W5 (F := Ideal) m ρ c (Proc.devRef .tc main_v6)
    _ = W4 m ρ c (Proc.devRef .tc main_v6) := by host_keeps hostOps1
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
    _ = dstV (arg1 m c) := dst_at1 m ρ c
theorem dst_at9 : W9 (F := Ideal) m ρ c (Proc.devRef .tc main_v6) = dstV (arg1 m c) :=
  calc W9 (F := Ideal) m ρ c (Proc.devRef .tc main_v6)
    _ = W8 m ρ c (Proc.devRef .tc main_v6) := by host_keeps hostOps3
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := by host_keeps hostOps1_1
    _ = dstV (arg1 m c) := dst_at5 m ρ c
theorem dst_at13 : W13 (F := Ideal) m ρ c (Proc.devRef .tc main_v6) = dstV (arg1 m c) :=
  calc W13 (F := Ideal) m ρ c (Proc.devRef .tc main_v6)
    _ = W12 m ρ c (Proc.devRef .tc main_v6) := by host_keeps hostOps5
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := by host_keeps hostOps3_1
    _ = dstV (arg1 m c) := dst_at9 m ρ c
theorem dst_at17 : W17 (F := Ideal) m ρ c (Proc.devRef .tc main_v6) = dstV (arg1 m c) :=
  calc W17 (F := Ideal) m ρ c (Proc.devRef .tc main_v6)
    _ = W16 m ρ c (Proc.devRef .tc main_v6) := by host_keeps hostOps7
    _ = W15 m ρ c (Proc.devRef .tc main_v6) := W16_of_ne m ρ c main_v6 (by decide)
    _ = W14 m ρ c (Proc.devRef .tc main_v6) := W15_of_ne m ρ c main_v6 (by decide)
    _ = W13 m ρ c (Proc.devRef .tc main_v6) := by host_keeps hostOps5_1
    _ = dstV (arg1 m c) := dst_at13 m ρ c

/-! ## The normaliser column, where each region reads it -/
theorem dcol_at3 : W3 (F := Ideal) m ρ c (Proc.devRef .tc main_v15) = dcol (arg1 m c) :=
  column_of (W2 m ρ c) _ (norm_at2 m ρ c)
theorem dcol_at6 : W6 (F := Ideal) m ρ c (Proc.devRef .tc main_v15) = dcol (arg1 m c) :=
  calc W6 (F := Ideal) m ρ c (Proc.devRef .tc main_v15)
    _ = W5 m ρ c (Proc.devRef .tc main_v15) := by host_keeps hostOps1_1
    _ = W4 m ρ c (Proc.devRef .tc main_v15) := by host_keeps hostOps1
    _ = W3 m ρ c (Proc.devRef .tc main_v15) := in_at4 m ρ c 2 rfl
    _ = dcol (arg1 m c) := dcol_at3 m ρ c
theorem dcol_at7 : W7 (F := Ideal) m ρ c (Proc.devRef .tc main_v15) = dcol (arg1 m c) :=
  calc W7 (F := Ideal) m ρ c (Proc.devRef .tc main_v15)
    _ = W6 m ρ c (Proc.devRef .tc main_v15) := in_at7 m ρ c 1 rfl
    _ = dcol (arg1 m c) := dcol_at6 m ρ c
theorem dcol_at10 : W10 (F := Ideal) m ρ c (Proc.devRef .tc main_v15) = dcol (arg1 m c) :=
  calc W10 (F := Ideal) m ρ c (Proc.devRef .tc main_v15)
    _ = W9 m ρ c (Proc.devRef .tc main_v15) := by host_keeps hostOps3_1
    _ = W8 m ρ c (Proc.devRef .tc main_v15) := by host_keeps hostOps3
    _ = W7 m ρ c (Proc.devRef .tc main_v15) := in_at8 m ρ c 2 rfl
    _ = dcol (arg1 m c) := dcol_at7 m ρ c
theorem dcol_at11 : W11 (F := Ideal) m ρ c (Proc.devRef .tc main_v15) = dcol (arg1 m c) :=
  calc W11 (F := Ideal) m ρ c (Proc.devRef .tc main_v15)
    _ = W10 m ρ c (Proc.devRef .tc main_v15) := in_at11 m ρ c 1 rfl
    _ = dcol (arg1 m c) := dcol_at10 m ρ c
theorem dcol_at14 : W14 (F := Ideal) m ρ c (Proc.devRef .tc main_v15) = dcol (arg1 m c) :=
  calc W14 (F := Ideal) m ρ c (Proc.devRef .tc main_v15)
    _ = W13 m ρ c (Proc.devRef .tc main_v15) := by host_keeps hostOps5_1
    _ = W12 m ρ c (Proc.devRef .tc main_v15) := by host_keeps hostOps5
    _ = W11 m ρ c (Proc.devRef .tc main_v15) := in_at12 m ρ c 2 rfl
    _ = dcol (arg1 m c) := dcol_at11 m ρ c
theorem dcol_at15 : W15 (F := Ideal) m ρ c (Proc.devRef .tc main_v15) = dcol (arg1 m c) :=
  calc W15 (F := Ideal) m ρ c (Proc.devRef .tc main_v15)
    _ = W14 m ρ c (Proc.devRef .tc main_v15) := in_at15 m ρ c 1 rfl
    _ = dcol (arg1 m c) := dcol_at14 m ρ c
theorem dcol_at18 : W18 (F := Ideal) m ρ c (Proc.devRef .tc main_v15) = dcol (arg1 m c) :=
  calc W18 (F := Ideal) m ρ c (Proc.devRef .tc main_v15)
    _ = W17 m ρ c (Proc.devRef .tc main_v15) := by host_keeps hostOps7_1
    _ = W16 m ρ c (Proc.devRef .tc main_v15) := by host_keeps hostOps7
    _ = W15 m ρ c (Proc.devRef .tc main_v15) := in_at16 m ρ c 2 rfl
    _ = dcol (arg1 m c) := dcol_at15 m ρ c

/-! ## The feature, weight and bias arguments, where they are read

Nothing writes an argument, so each still holds its launch contents. -/
theorem arg0_at3 : W3 (F := Ideal) m ρ c (Proc.devRef .tc main_arg0) = arg0 m c :=
  calc W3 (F := Ideal) m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = arg0 m c := rfl
theorem arg2_at3 : W3 (F := Ideal) m ρ c (Proc.devRef .tc main_arg2) = arg2 m c :=
  calc W3 (F := Ideal) m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = arg2 m c := rfl
theorem arg3_at5 : W5 (F := Ideal) m ρ c (Proc.devRef .tc main_arg3) = arg3 m c :=
  calc W5 (F := Ideal) m ρ c (Proc.devRef .tc main_arg3)
    _ = W4 m ρ c (Proc.devRef .tc main_arg3) := by host_keeps hostOps1
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = arg3 m c := rfl
theorem arg4_at7 : W7 (F := Ideal) m ρ c (Proc.devRef .tc main_arg4) = arg4 m c :=
  calc W7 (F := Ideal) m ρ c (Proc.devRef .tc main_arg4)
    _ = W6 m ρ c (Proc.devRef .tc main_arg4) := W7_of_ne m ρ c main_arg4 (by decide)
    _ = W5 m ρ c (Proc.devRef .tc main_arg4) := by host_keeps hostOps1_1
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = arg4 m c := rfl
theorem arg5_at9 : W9 (F := Ideal) m ρ c (Proc.devRef .tc main_arg5) = arg5 m c :=
  calc W9 (F := Ideal) m ρ c (Proc.devRef .tc main_arg5)
    _ = W8 m ρ c (Proc.devRef .tc main_arg5) := by host_keeps hostOps3
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := by host_keeps hostOps1_1
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = arg5 m c := rfl
theorem arg6_at11 : W11 (F := Ideal) m ρ c (Proc.devRef .tc main_arg6) = arg6 m c :=
  calc W11 (F := Ideal) m ρ c (Proc.devRef .tc main_arg6)
    _ = W10 m ρ c (Proc.devRef .tc main_arg6) := W11_of_ne m ρ c main_arg6 (by decide)
    _ = W9 m ρ c (Proc.devRef .tc main_arg6) := by host_keeps hostOps3_1
    _ = W8 m ρ c (Proc.devRef .tc main_arg6) := by host_keeps hostOps3
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := by host_keeps hostOps1_1
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = arg6 m c := rfl
theorem arg7_at13 : W13 (F := Ideal) m ρ c (Proc.devRef .tc main_arg7) = arg7 m c :=
  calc W13 (F := Ideal) m ρ c (Proc.devRef .tc main_arg7)
    _ = W12 m ρ c (Proc.devRef .tc main_arg7) := by host_keeps hostOps5
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := by host_keeps hostOps3_1
    _ = W8 m ρ c (Proc.devRef .tc main_arg7) := by host_keeps hostOps3
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by host_keeps hostOps1_1
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = arg7 m c := rfl
theorem arg8_at15 : W15 (F := Ideal) m ρ c (Proc.devRef .tc main_arg8) = arg8 m c :=
  calc W15 (F := Ideal) m ρ c (Proc.devRef .tc main_arg8)
    _ = W14 m ρ c (Proc.devRef .tc main_arg8) := W15_of_ne m ρ c main_arg8 (by decide)
    _ = W13 m ρ c (Proc.devRef .tc main_arg8) := by host_keeps hostOps5_1
    _ = W12 m ρ c (Proc.devRef .tc main_arg8) := by host_keeps hostOps5
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := by host_keeps hostOps3_1
    _ = W8 m ρ c (Proc.devRef .tc main_arg8) := by host_keeps hostOps3
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := by host_keeps hostOps1_1
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = arg8 m c := rfl
theorem arg9_at17 : W17 (F := Ideal) m ρ c (Proc.devRef .tc main_arg9) = arg9 m c :=
  calc W17 (F := Ideal) m ρ c (Proc.devRef .tc main_arg9)
    _ = W16 m ρ c (Proc.devRef .tc main_arg9) := by host_keeps hostOps7
    _ = W15 m ρ c (Proc.devRef .tc main_arg9) := W16_of_ne m ρ c main_arg9 (by decide)
    _ = W14 m ρ c (Proc.devRef .tc main_arg9) := W15_of_ne m ρ c main_arg9 (by decide)
    _ = W13 m ρ c (Proc.devRef .tc main_arg9) := by host_keeps hostOps5_1
    _ = W12 m ρ c (Proc.devRef .tc main_arg9) := by host_keeps hostOps5
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := by host_keeps hostOps3_1
    _ = W8 m ρ c (Proc.devRef .tc main_arg9) := by host_keeps hostOps3
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by host_keeps hostOps1_1
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = arg9 m c := rfl

end Cert.GCN

end
-- ==== Proof.Region0.lean ====
/- Region 0: the scaled product of the node features with the first weight matrix. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

/-! ## One entry of a block's product

The body multiplies a block of 5000 rows of the features (128 columns) with the whole weight matrix (128 by 64) and
then scales row `p` of the product by the `p`-th entry of a column of 5000 numbers. Entry `(p, q)` of what it stores is
therefore `(∑ k, x0[p,k] · x1[k,q]) · x2[p,0]`: the change of number format before the product is the identity on the
extended reals, and the accumulator the product starts from is zero. -/

/-- A whole-block access starts at offset zero on both axes. -/
theorem region0_off_zero : (![0, 0] : Fin 2 → Nat) = fun _ => 0 := funext fun a => by fin_cases a <;> rfl

/-- The product's left operand is read at the output's row … -/
theorem region0_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and at the summation index as its column; -/
theorem region0_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the summation index as its row … -/
theorem region0_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and at the output's column. -/
theorem region0_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at entry `(p, q)`: the sum over the 128 shared indices. -/
theorem region0_matmul_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact region0_lhs_0 _ _
    | ⟨1, _⟩ => exact (region0_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (region0_rhs_0 _ _).trans hk
    | ⟨1, _⟩ => exact region0_rhs_1 _ _)
  rw [el, er]

/-- A column of 5000 numbers spread over 64 columns reads, at `(p, q)`, the column's `p`-th entry. -/
theorem region0_col_apply (x : FVec Ideal S5000x1 .f32) (p : Fin 5000) (q : Fin 64) :
    broadcastTo S5000x64 x broadcasts_S5000x1_S5000x64 (ix2 p q) = x (ix2 p 0) := by
  refine broadcastTo_apply x broadcasts_S5000x1_S5000x64 (ix2 p q) (ix2 p 0) fun a => ?_
  match a with
  | ⟨0, _⟩ => rfl
  | ⟨1, _⟩ => rfl

/-- What the body stores, at entry `(p, q)`. -/
theorem region0_pay_apply (x0 : Vec Ideal S5000x128 .f32) (x1 : Vec Ideal S128x64 .f32) (x2 : Vec Ideal S5000x1 .f32) (p : Fin 5000) (q : Fin 64) :
    k0_pay1 (F := Ideal) x0 x1 x2 (ix2 p q) = (∑ k : Fin 128, x0 (ix2 p k) * x1 (ix2 k q)) * x2 (ix2 p 0) := by
  unfold k0_pay1
  refine (mulf_apply _ _ (ix2 p q)).trans ?_
  refine congrArg₂ (· * ·) ?_ ?_
  · exact region0_matmul_apply _ _ p q
  · rw [shapeCast_self]
    exact region0_col_apply x2 p q

/-! ## From the blocks to the array

Grid point `t` (of twenty) works on rows `5000·t … 5000·t + 4999`: its block of the features and of the column are
those rows, its block of the weights is the whole matrix, and the block it writes back is those rows of the result. -/

/-- The scaled product of whole arrays at entry `(n, q)`, written out. -/
theorem region0_spec_apply (H : FVec Ideal S100000x128 .f32) (W : FVec Ideal S128x64 .f32) (cc : FVec Ideal S100000x1 .f32)
    (n : Fin 100000) (q : Fin 64) :
    mmScale_128_64 H W cc (ix2 n q) = (∑ k : Fin 128, H (ix2 n k) * W (ix2 k q)) * cc (ix2 n 0) := rfl

section Blocks
variable (V : (c : Dev nD) → (b : Ref sig .tc) → Buf (Elt Ideal) ((c : Thread nD τ).loc b))

/-- Row `p` of point `t`'s block is row `5000·t + p` of the array. -/
def region0_row (t : Fin cfg0.N) (p : Fin 5000) : Fin 100000 :=
  ⟨t.val * 5000 + p.val, by have h : t.val < grid0.N := t.isLt; rw [N_0] at h; have := p.isLt; omega⟩

/-- The block numbers of the four windows at a point: the point's number on the row axis of the three row-blocked
    windows, zero everywhere else. -/
theorem region0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t`, entry `(p, k)`: the array's entry `(5000·t + p, k)`. -/
theorem region0_read0 (c : Dev nD) (t : Fin cfg0.N) (p : Fin 5000) (k : Fin 128) :
    (iblk0 V c 0 t : Vec Ideal S5000x128 .f32) (ix2 p k) = (V c main_arg0 : S100000x128.Idx → EReal) (ix2 (region0_row t p) k) := by
  obtain ⟨e0, e1, -⟩ := region0_idx t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights' block at every point is the whole matrix. -/
theorem region0_read1 (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -⟩ := region0_idx t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The column's block at point `t`, entry `p`: the array's entry `5000·t + p`. -/
theorem region0_read2 (c : Dev nD) (t : Fin cfg0.N) (p : Fin 5000) :
    (iblk0 V c 2 t : Vec Ideal S5000x1 .f32) (ix2 p 0) = (V c main_v15 : S100000x1.Idx → EReal) (ix2 (region0_row t p) 0) := by
  obtain ⟨-, -, -, -, e0, e1, -⟩ := region0_idx t
  unfold iblk0
  rw [View.read_apply]
  show V c main_v15 _ = V c main_v15 _
  congr 1
  funext a
  apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- Entry `(p, q)` of the block point `t` writes back lies at `(5000·t + p, q)` of the result. -/
theorem region0_emb3 (t : Fin cfg0.N) (p : Fin 5000) (q : Fin 64) :
    ((cfg0.win 3).blk t).view.emb (ix2 p q) = (ix2 (region0_row t p) q : S100000x64.Idx) := by
  obtain ⟨-, -, -, -, -, -, e0, e1⟩ := region0_idx t
  funext a
  apply Fin.ext
  match a with
  | ⟨0, _⟩ => show win0_3.index t (0 : Fin 2) * 5000 + 1 * p.val = t.val * 5000 + p.val; rw [e0]; omega
  | ⟨1, _⟩ => show win0_3.index t (1 : Fin 2) * 64 + 1 * q.val = q.val; rw [e1]; omega

/-- What point `t` writes back is its block of the scaled product of the whole arrays. -/
theorem region0_flushed (c : Dev nD) (t : Fin cfg0.N) :
    (dat0 (F := Ideal) V c).flushed 3 t
      = ((cfg0.win 3).blk t).view.read (Elt Ideal) (mmScale_128_64 (V c main_arg0) (V c main_arg2) (V c main_v15)) := by
  show (cfg0.win 3).cut (grid0.coords t) ((dat0 (F := Ideal) V c).after 3 t) = _
  rw [after0_3]
  unfold out0_3
  rw [View.canon_unit_zero region0_off_zero]
  simp only [View.ld_unit_zero (S := S5000x128) region0_off_zero, View.ld_unit_zero (S := S128x64) region0_off_zero,
    View.ld_unit_zero (S := S5000x1) region0_off_zero]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = mmScale_128_64 (V c main_arg0) (V c main_arg2) (V c main_v15) (((cfg0.win 3).blk t).view.emb (ix2 p q))
  rw [region0_emb3 t p q]
  refine (region0_pay_apply (iblk0 V c 0 t) (iblk0 V c 1 t) (iblk0 V c 2 t) p q).trans ?_
  refine Eq.trans ?_ (region0_spec_apply (V c main_arg0) (V c main_arg2) (V c main_v15) (region0_row t p) q).symm
  refine congrArg₂ (· * ·) (Finset.sum_congr rfl fun k _ => congrArg₂ (· * ·) ?_ ?_) ?_
  · exact region0_read0 V c t p k
  · exact region0_read1 V c t k q
  · exact region0_read2 V c t p

/-- An index of the result lies in point `t`'s block iff each coordinate lies in the block's range on its axis. -/
theorem region0_mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Row `r` of the result is written by point `r / 5000`. -/
theorem region0_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; rw [hN]; omega⟩
  have ht : t.val = (i 0).val / 5000 := rfl
  obtain ⟨-, -, -, -, -, -, e0, e1⟩ := region0_idx t
  refine ⟨t, flush0_3 t, ?_⟩
  rw [region0_mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

end Blocks

/-- The result array after the region: the scaled product of the whole argument arrays. -/
theorem region0_value (V : (c : Dev nD) → (b : Ref sig .tc) → Buf (Elt Ideal) ((c : Thread nD τ).loc b)) (c : Dev nD) :
    (dat0 (F := Ideal) V c).arrAt 3 cfg0.N = mmScale_128_64 (V c main_arg0) (V c main_arg2) (V c main_v15) :=
  (dat0 (F := Ideal) V c).arrAt_eq_of_cover 3 (mmScale_128_64 (V c main_arg0) (V c main_arg2) (V c main_v15))
    (fun t _ => region0_flushed V c t) region0_cover

end Cert.GCN

end
-- ==== Proof.Region1.lean ====
/- Region 1: the first layer's summed rows scaled, the bias added, negatives replaced by zero. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

/-- The zero offsets of a whole-block load or store, as the constant function. -/
theorem region1_zero_off : (![0, 0] : Fin 2 → Nat) = fun _ => 0 := funext fun a => by fin_cases a <;> rfl

/-- A column `[a, 1]` broadcast to `[a, b]` reads, at `(p, q)`, the column's entry of row `p`. -/
theorem region1_col_bcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at entry `(p, q)` of its block: the row's entry times the column's entry of that row,
    plus the bias row's entry of that feature, and the larger of that and zero. -/
theorem region1_pay_apply (x0 : Vec Ideal S5000x64 .f32) (x1 : Vec Ideal S5000x1 .f32) (x2 : Vec Ideal S1x64 .f32)
    (p : Fin 5000) (q : Fin 64) :
    k1_pay1 (F := Ideal) x0 x1 x2 (ix2 p q)
      = max (x0 (ix2 p q) * x1 (ix2 p (0 : Fin 1)) + x2 (ix2 (0 : Fin 1) q)) 0 := by
  unfold k1_pay1
  rw [maximumf_apply, addf_apply, mulf_apply, broadcast_apply, shapeCast_self, shapeCast_self, shapeCast_self]
  rw [region1_col_bcast x1 broadcasts_S5000x1_S5000x64 p q, broadcastTo_1b_ab_apply x2 broadcasts_S1x64_S5000x64 p q]
  show max _ (Ideal.ofBits .f32 0x00000000#32) = _
  rw [Ideal.ofBits_zero_f32]

/-- The body's result at entry `y` of its block is the layer's function of the whole arrays at entry `i`, once the three
    loaded blocks are known to be those arrays' rows: block `n` of the summed rows and of the column (row `n * 5000 + p` of
    the array is row `p` of the block), and the bias row whole. -/
theorem region1_point (A : FVec Ideal S100000x64 .f32) (cc : FVec Ideal S100000x1 .f32) (b : FVec Ideal S1x64 .f32)
    (x0 : Vec Ideal S5000x64 .f32) (x1 : Vec Ideal S5000x1 .f32) (x2 : Vec Ideal S1x64 .f32) (n : ℕ)
    (h0 : ∀ (y : S5000x64.Idx) (i : S100000x64.Idx), (i 0).val = n * 5000 + (y 0).val → (i 1).val = (y 1).val → x0 y = A i)
    (h1 : ∀ (y : S5000x1.Idx) (i : S100000x1.Idx), (i 0).val = n * 5000 + (y 0).val → x1 y = cc i)
    (h2 : ∀ y : S1x64.Idx, x2 y = b y)
    (y : S5000x64.Idx) (i : S100000x64.Idx) (hi0 : (i 0).val = n * 5000 + (y 0).val) (hi1 : (i 1).val = (y 1).val) :
    k1_pay1 (F := Ideal) x0 x1 x2 y = scaleBiasRelu_64 A cc b i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q = q' := (Fin.ext hi1).symm
  rw [region1_pay_apply, h0 (ix2 p q) (ix2 r q) hi0 rfl, h1 (ix2 p (0 : Fin 1)) (ix2 r (0 : Fin 1)) hi0, h2]
  rfl

/-- The printed index maps over the twenty grid points: the row windows sit at block `t`, the bias row's window at its
    one block. -/
theorem region1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Window 0's block at point `t` is rows `5000 t … 5000 t + 4999` of the summed rows. -/
theorem region1_read0 (t : Fin cfg1.N) (y : S5000x64.Idx) (i : S100000x64.Idx)
    (hi0 : (i 0).val = t.val * 5000 + (y 0).val) (hi1 : (i 1).val = (y 1).val) :
    (iblk1 V c 0 t : Vec Ideal S5000x64 .f32) y = (V c main_v20 : S100000x64.Idx → Elt Ideal .f32) i := by
  obtain ⟨e0, e1, -⟩ := region1_idx t
  unfold iblk1
  rw [View.read_apply]
  show V c main_v20 _ = V c main_v20 _
  congr 1
  funext a
  apply Fin.ext
  match a with
  | ⟨0, _⟩ => show win1_0.index t (0 : Fin 2) * 5000 + 1 * (y 0).val = (i 0).val; rw [e0, hi0]; omega
  | ⟨1, _⟩ => show win1_0.index t (1 : Fin 2) * 64 + 1 * (y 1).val = (i 1).val; rw [e1, hi1]; omega

/-- Window 1's block at point `t` is the same rows of the column. -/
theorem region1_read1 (t : Fin cfg1.N) (y : S5000x1.Idx) (i : S100000x1.Idx)
    (hi0 : (i 0).val = t.val * 5000 + (y 0).val) :
    (iblk1 V c 1 t : Vec Ideal S5000x1 .f32) y = (V c main_v15 : S100000x1.Idx → Elt Ideal .f32) i := by
  obtain ⟨-, -, e0, e1, -⟩ := region1_idx t
  unfold iblk1
  rw [View.read_apply]
  show V c main_v15 _ = V c main_v15 _
  congr 1
  funext a
  apply Fin.ext
  match a with
  | ⟨0, _⟩ => show win1_1.index t (0 : Fin 2) * 5000 + 1 * (y 0).val = (i 0).val; rw [e0, hi0]; omega
  | ⟨1, _⟩ =>
    show win1_1.index t (1 : Fin 2) * 1 + 1 * (y 1).val = (i 1).val
    have hy : (y 1).val < 1 := (y 1).isLt
    have hi : (i 1).val < 1 := (i 1).isLt
    rw [e1]; omega

/-- Window 2's block at every point is the bias row. -/
theorem region1_read2 (t : Fin cfg1.N) (y : S1x64.Idx) :
    (iblk1 V c 2 t : Vec Ideal S1x64 .f32) y = (V c main_v21 : S1x64.Idx → Elt Ideal .f32) y := by
  obtain ⟨-, -, -, -, e0, e1, -⟩ := region1_idx t
  unfold iblk1
  rw [View.read_apply]
  show V c main_v21 _ = V c main_v21 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- What point `t` writes back is block `t` of the layer's function of the whole arrays. -/
theorem region1_flushed (t : Fin cfg1.N) :
    (dat1 (F := Ideal) V c).flushed 3 t
      = ((cfg1.win 3).blk t).view.read (Elt Ideal) (scaleBiasRelu_64 (V c main_v20) (V c main_v15) (V c main_v21)) := by
  show (cfg1.win 3).cut (grid1.coords t) ((dat1 V c).after 3 t) = _
  rw [after1_3]
  unfold out1_3
  rw [View.canon_unit_zero region1_zero_off]
  simp only [View.ld_unit_zero (S := S5000x64) region1_zero_off, View.ld_unit_zero (S := S5000x1) region1_zero_off,
    View.ld_unit_zero (S := S1x64) region1_zero_off]
  obtain ⟨-, -, -, -, -, -, e0, e1⟩ := region1_idx t
  funext j
  show k1_pay1 (F := Ideal) (iblk1 V c 0 t) (iblk1 V c 1 t) (iblk1 V c 2 t) (win1_3.xinj (grid1.coords t) j)
    = scaleBiasRelu_64 (V c main_v20) (V c main_v15) (V c main_v21) (((cfg1.win 3).blk t).view.emb j)
  refine region1_point (V c main_v20) (V c main_v15) (V c main_v21) (iblk1 V c 0 t) (iblk1 V c 1 t) (iblk1 V c 2 t) t.val
    (region1_read0 V c t) (region1_read1 V c t) (region1_read2 V c t)
    (win1_3.xinj (grid1.coords t) j) (((cfg1.win 3).blk t).view.emb j) ?_ ?_
  · show win1_3.index t (0 : Fin 2) * 5000 + 1 * (j 0).val = t.val * 5000 + (j 0).val
    rw [e0]; omega
  · show win1_3.index t (1 : Fin 2) * 64 + 1 * (j 1).val = (j 1).val
    rw [e1]; omega

end Blocks

/-- An entry of the output array is in point `t`'s block iff each coordinate is in the block's range on its axis. -/
theorem region1_mem_blk (t : Fin cfg1.N) (i : S100000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v22).slice (win1_3.rect t)).set ↔ _
  rw [View.set_slice_whole, Rect.mem_set_unit]
  exact Iff.rfl

/-- Row `r` of the output array is written by point `r / 5000`: the twenty blocks tile the array. -/
theorem region1_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; rw [hN]; omega
  obtain ⟨-, -, -, -, -, -, e0, e1⟩ := region1_idx ⟨(i 0).val / 5000, ht⟩
  refine ⟨⟨(i 0).val / 5000, ht⟩, flush1_3 _, ?_⟩
  rw [region1_mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [e1]; omega

theorem region1_value (V : (c : Dev nD) → (b : Ref sig .tc) → Buf (Elt Ideal) ((c : Thread nD τ).loc b)) (c : Dev nD) :
    (dat1 (F := Ideal) V c).arrAt 3 cfg1.N = scaleBiasRelu_64 (V c main_v20) (V c main_v15) (V c main_v21) :=
  (dat1 (F := Ideal) V c).arrAt_eq_of_cover 3 (scaleBiasRelu_64 (V c main_v20) (V c main_v15) (V c main_v21))
    (fun t _ => region1_flushed V c t) region1_cover

end Cert.GCN

end
-- ==== Proof.KLayer1.lean ====
/- Layer 1 of the kernel's program, from the buffers as layer 1 finds them to the buffer it leaves: the product
   region's output array, the gather of its rows and their sum into destination rows on the host, and the second
   region's output array, each read off the boundary contents of @main. -/
import proofs.«430215_j31516470018049_1_alg».proof.Proof.KBase
import proofs.«430215_j31516470018049_1_alg».proof.Proof.Region0
import proofs.«430215_j31516470018049_1_alg».proof.Proof.Region1
import Idealize.ShloMosaic.Lib.StableHlo.Run

noncomputable section

namespace Cert.GCN

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The product region -/

/-- The product region leaves its output array at the scaled product of the features with the first weight
    matrix: the region's whole-array value, its three inputs being the launch's features and weights and the
    normaliser column, none of which anything before the region has overwritten. -/
theorem layer1_product :
    W4 (F := Ideal) m ρ c (Proc.devRef .tc main_v16)
      = mmScale_128_64 (arg0 m c) (arg2 m c) (dcol (arg1 m c)) := by
  refine (W4_arr (F := Ideal) m ρ c 3).trans ?_
  rw [region0_value (V3 m ρ) c]
  have e0 : V3 (F := Ideal) m ρ c main_arg0 = arg0 m c := arg0_at3 m ρ c
  have e2 : V3 (F := Ideal) m ρ c main_arg2 = arg2 m c := arg2_at3 m ρ c
  have e15 : V3 (F := Ideal) m ρ c main_v15 = dcol (arg1 m c) := dcol_at3 m ρ c
  rw [e0, e2, e15]

/-! ## The gather of rows

The gather's host function names each buffer together with the tensor type it holds, and moves contents between the
buffer's own type and that type. The two types are the same by computation, so every such move is the identity:
the first three lemmas say so at the three buffers the stretch shares with the rest of the program, the fourth for
a value stored at any buffer and read back. -/

/-- The sources' buffer read at its tensor type. -/
private theorem layer1_ofBuf_src (h1 h2 h3) (v : IVec S1700000 32) :
    (StableHlo.TRef.of main_v3 h1 h2 h3 : StableHlo.TRef sig ⟨S1700000, .i32⟩).ofBuf (Val := Elt Ideal) v = v := rfl

/-- The product region's output buffer read at its tensor type. -/
private theorem layer1_ofBuf_prod (h1 h2 h3) (v : FVec Ideal S100000x64 .f32) :
    (StableHlo.TRef.of main_v16 h1 h2 h3 : StableHlo.TRef sig ⟨S100000x64, .f32⟩).ofBuf (Val := Elt Ideal) v = v := rfl

/-- The gathered rows stored at their buffer. -/
private theorem layer1_toBuf_rows (h1 h2 h3) (v : FVec Ideal S1700000x64 .f32) :
    (StableHlo.TRef.of main_v17 h1 h2 h3 : StableHlo.TRef sig ⟨S1700000x64, .f32⟩).toBuf (Val := Elt Ideal) v = v := rfl

/-- A value stored at a buffer and read back at the same tensor type is the value itself. -/
private theorem layer1_ofBuf_toBuf {T : BufTy} (x : StableHlo.TRef sig T) (v : T.Contents (Elt Ideal)) :
    x.ofBuf (x.toBuf v) = v := by
  simp only [StableHlo.TRef.ofBuf, StableHlo.TRef.toBuf, cast_cast, cast_eq]

/-- The twenty-three operations of the gather, run from any contents `V` whose sources' buffer holds the sources of
    `ei`: the rows buffer ends at the masked gather of the vocabulary, taken from what `V` holds in the product
    region's output buffer. Operation by operation the stretch is that definition: a negative source gets the node
    count added, the start indices are one column, the mask asks `0 ≤ · ≤ 99999` of each, and the gathered rows are
    kept where the mask is set and the fill pattern put where it is clear. -/
private theorem layer1_gather_over (V : Valuation τ sig (Elt Ideal)) (ei : IVec S2x1600000 32)
    (hs : V (Proc.devRef .tc main_v3) = srcV ei) :
    StableHlo.after hostOps1 V (Proc.devRef .tc main_v17) = take64 (V (Proc.devRef .tc main_v16)) ei := by
  after_results_simp
  rw [hs]
  simp only [layer1_ofBuf_src, layer1_ofBuf_prod, layer1_toBuf_rows]
  repeat rw [layer1_ofBuf_toBuf]
  rfl

/-- After the gather the rows buffer holds, for every edge, the row of the product region's output that the edge's
    source names (the fill pattern where the source names no node): the sources are still what they were when built. -/
theorem layer1_take :
    W5 (F := Ideal) m ρ c (Proc.devRef .tc main_v17)
      = take64 (W4 (F := Ideal) m ρ c (Proc.devRef .tc main_v16)) (arg1 m c) :=
  layer1_gather_over (W4 (F := Ideal) m ρ c) (arg1 m c) (src_at4 m ρ c)

/-! ## The sum into destination rows, and the bias as a row -/

/-- The five operations after the gather, run from any contents `V`: the sums' buffer ends at the rows `V` holds
    summed, from zero, into the rows that `V`'s destinations name as one column. -/
private theorem layer1_sum_over (V : Valuation τ sig (Elt Ideal)) :
    StableHlo.after hostOps1_1 V (Proc.devRef .tc main_v20)
      = Host.scatterAdd scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (V (Proc.devRef .tc main_v6)))
          (V (Proc.devRef .tc main_v17)) := by
  after_results

/-- The same five operations leave the bias argument, as one row, in the bias row's buffer. -/
private theorem layer1_bias_over (V : Valuation τ sig (Elt Ideal)) :
    StableHlo.after hostOps1_1 V (Proc.devRef .tc main_v21)
      = shapeCast S1x64 (V (Proc.devRef .tc main_arg3)) shapeCasts_S64_S1x64 := by
  after_results
  rfl

/-- At the second region's entry the sums' buffer holds the gathered rows summed into their destination rows. -/
theorem layer1_sum :
    W6 (F := Ideal) m ρ c (Proc.devRef .tc main_v20)
      = Host.scatterAdd scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (dstV (arg1 m c)))
          (W5 (F := Ideal) m ρ c (Proc.devRef .tc main_v17)) := by
  refine (layer1_sum_over (W5 (F := Ideal) m ρ c)).trans ?_
  rw [dst_at5]

/-- At the second region's entry the bias row's buffer holds the layer's bias as one row. -/
theorem layer1_bias :
    W6 (F := Ideal) m ρ c (Proc.devRef .tc main_v21) = shapeCast S1x64 (arg3 m c) shapeCasts_S64_S1x64 := by
  refine (layer1_bias_over (W5 (F := Ideal) m ρ c)).trans ?_
  rw [arg3_at5]

/-! ## The layer -/

/-- The second region scales the summed rows by the normaliser, adds the bias row and replaces negatives by zero;
    its three inputs are the sums, the normaliser column and the bias row just read, so its output array is the
    layer's output the kernel's way, from the scaled product of the launch's features and weights. -/
theorem kernel_layer1 :
    W7 (F := Ideal) m ρ c (Proc.devRef .tc main_v22) = kAgg64 (arg1 m c) (mmScale_128_64 (arg0 m c) (arg2 m c) (dcol (arg1 m c))) (arg3 m c) := by
  unfold kAgg64
  refine (W7_arr (F := Ideal) m ρ c 3).trans ?_
  rw [region1_value (V6 m ρ) c]
  have e20 : V6 (F := Ideal) m ρ c main_v20 = _ := layer1_sum m ρ c
  have e15 : V6 (F := Ideal) m ρ c main_v15 = dcol (arg1 m c) := dcol_at6 m ρ c
  have e21 : V6 (F := Ideal) m ρ c main_v21 = _ := layer1_bias m ρ c
  rw [e20, e15, e21, layer1_take, layer1_product]

end Cert.GCN

end
-- ==== Proof.Region2.lean ====
/- Region 2: the scaled product of the first layer's output with the second weight matrix. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

namespace Region2

/-! ## The block product at an index

The body multiplies a block of 5000 rows (64 features each) by the whole 64 × 64 weight matrix, contracting the
block's second axis with the matrix's first, into a zero accumulator. The four lemmas below say where the product's
operand indices sit: at output index `(p, q)` and contraction index `k` the left operand is read at `(p, k)`, the
right one at `(k, q)`. -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, entry `(p, q)`: the sum over `k` of `a[p,k] · b[k,q]`. -/
theorem mm_apply (a : FVec Ideal S5000x64 .bf16) (b : FVec Ideal S64x64 .bf16) (p : Fin 5000) (q : Fin 64) :
    FloatOps.matmul dot_S5000x64_S64x64_S5000x64_1_0_0_1_n_n none a b (constant (F := Ideal) S5000x64 .f32 0x00000000#32) (ix2 p q)
      = ∑ k : Fin 64, a (ix2 p k) * b (ix2 k q) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- A column of 5000 entries spread over 64 features: entry `(p, q)` is the column's entry `p`. -/
theorem col_apply (v : FVec Ideal S5000x1 .f32) (h : S5000x1.Broadcasts S5000x64) (p : Fin 5000) (q : Fin 64) :
    broadcastTo S5000x64 v h (ix2 p q) = v (ix2 p 0) := by
  refine broadcastTo_apply v h (ix2 p q) (ix2 p 0) fun ax => ?_
  match ax with
  | ⟨0, _⟩ => rfl
  | ⟨1, _⟩ => rfl

/-- The body's arithmetic at entry `(p, q)` of its block: the change of float format is the identity on the ideal
    values, so it is the row `p` of the left block times the column `q` of the matrix, times the scale of row `p`. -/
theorem pay_apply (x0 : Vec Ideal S5000x64 .f32) (x1 : Vec Ideal S64x64 .f32) (x2 : Vec Ideal S5000x1 .f32) (p : Fin 5000) (q : Fin 64) :
    k2_pay1 (F := Ideal) x0 x1 x2 (ix2 p q) = (∑ k : Fin 64, x0 (ix2 p k) * x1 (ix2 k q)) * x2 (ix2 p 0) := by
  unfold k2_pay1
  rw [mulf_apply, shapeCast_self, shapeCast_self, col_apply]
  refine congrArg (· * x2 (ix2 p 0)) ?_
  exact mm_apply _ _ p q

/-! ## From blocks to the array -/

theorem hz : (![0, 0] : Fin 2 → Nat) = fun _ => 0 := funext fun a => by fin_cases a <;> rfl

/-- What one grid point stores, at entry `(p, q)` of its block, when row `p` of its left block is row `r` of the
    array `H`, its matrix block is `W` and entry `p` of its scale block is entry `r` of the column `cc`: the scaled
    product of the whole arrays at `(r, q)`. -/
theorem out_at (x0 : Vec Ideal S5000x64 .f32) (x1 : Vec Ideal S64x64 .f32) (x2 : Vec Ideal S5000x1 .f32)
    (H : FVec Ideal S100000x64 .f32) (W : FVec Ideal S64x64 .f32) (cc : FVec Ideal S100000x1 .f32)
    (p : Fin 5000) (q : Fin 64) (r : Fin 100000)
    (h0 : ∀ k : Fin 64, x0 (ix2 p k) = H (ix2 r k))
    (h1 : ∀ k : Fin 64, x1 (ix2 k q) = W (ix2 k q))
    (h2 : x2 (ix2 p 0) = cc (ix2 r 0)) :
    out2_3 (F := Ideal) x0 x1 x2 (ix2 p q) = mmScale_64_64 H W cc (ix2 r q) := by
  unfold out2_3
  rw [View.canon_unit_zero hz]
  simp only [View.ld_unit_zero (S := S5000x64) hz, View.ld_unit_zero (S := S64x64) hz, View.ld_unit_zero (S := S5000x1) hz]
  rw [pay_apply]
  unfold mmScale_64_64
  show _ = (∑ k : Fin 64, H (ix2 r k) * W (ix2 k q)) * cc (ix2 r 0)
  rw [h2]
  refine congrArg (· * cc (ix2 r 0)) ?_
  exact Finset.sum_congr rfl fun k _ => by rw [h0 k, h1 k]

/-- The printed index maps over the grid's twenty points: the row blocks of the left operand, of the scale column
    and of the output are block `t` at point `t`; the matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Point `t`'s block of the output, at the block's index `y`, is the scaled product of the whole arrays at the
    array index that `y` has in the block. -/
theorem block_at (V : (c : Dev nD) → (b : Ref sig .tc) → Buf (Elt Ideal) ((c : Thread nD τ).loc b)) (c : Dev nD)
    (t : Fin cfg2.N) (y : S5000x64.Idx) :
    out2_3 (F := Ideal) (iblk2 V c 0 t) (iblk2 V c 1 t) (iblk2 V c 2 t) y
      = mmScale_64_64 (V c main_v22) (V c main_arg4) (V c main_v15) (((cfg2.win 3).blk t).view.emb y) := by
  obtain ⟨p, q, rfl⟩ : ∃ (p : Fin 5000) (q : Fin 64), y = ix2 p q := ⟨y 0, y 1, eq_ix2 y⟩
  obtain ⟨e00, e01, e10, e11, e20, e21, e30, e31⟩ := idx_facts t
  have ht : t.val < 20 := lt_of_lt_of_eq t.isLt N_2
  have hp : p.val < 5000 := p.isLt
  have hq : q.val < 64 := q.isLt
  refine (out_at (iblk2 V c 0 t) (iblk2 V c 1 t) (iblk2 V c 2 t) (V c main_v22) (V c main_arg4) (V c main_v15) p q
    ⟨t.val * 5000 + p.val, by omega⟩ (fun k => ?_) (fun k => ?_) ?_).trans ?_
  · unfold iblk2
    rw [View.read_apply]
    show V c main_v22 (((cfg2.win 0).blk t).view.emb (ix2 p k)) = V c main_v22 _
    refine congrArg (V c main_v22) (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 64 + 1 * k.val = k.val; rw [e01]; omega
  · unfold iblk2
    rw [View.read_apply]
    show V c main_arg4 (((cfg2.win 1).blk t).view.emb (ix2 k q)) = V c main_arg4 _
    refine congrArg (V c main_arg4) (funext fun a => Fin.ext ?_)
    match a with
    | ⟨0, _⟩ => show win2_1.index t (0 : Fin 2) * 64 + 1 * k.val = k.val; rw [e10]; omega
    | ⟨1, _⟩ => show win2_1.index t (1 : Fin 2) * 64 + 1 * q.val = q.val; rw [e11]; omega
  · unfold iblk2
    rw [View.read_apply]
    show V c main_v15 (((cfg2.win 2).blk t).view.emb (ix2 p 0)) = V c main_v15 _
    refine congrArg (V c main_v15) (funext fun a => Fin.ext ?_)
    match a with
    | ⟨0, _⟩ => show win2_2.index t (0 : Fin 2) * 5000 + 1 * p.val = t.val * 5000 + p.val; rw [e20]; omega
    | ⟨1, _⟩ => show win2_2.index t (1 : Fin 2) * 1 + 1 * 0 = 0; rw [e21]
  · refine congrArg (mmScale_64_64 (V c main_v22) (V c main_arg4) (V c main_v15)) (funext fun a => Fin.ext ?_)
    match a with
    | ⟨0, _⟩ => show t.val * 5000 + p.val = win2_3.index t (0 : Fin 2) * 5000 + 1 * p.val; rw [e30]; omega
    | ⟨1, _⟩ => show q.val = win2_3.index t (1 : Fin 2) * 64 + 1 * q.val; rw [e31]; omega

/-- What point `t` writes back is block `t` of the scaled product of the whole arrays. -/
theorem flushed_eq (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (mmScale_64_64 (V c main_v22) (V c main_arg4) (V c main_v15)) := by
  show (cfg2.win 3).cut (grid2.coords t) ((dat2 (F := Ideal) V c).after 3 t) = _
  rw [after2_3]
  funext j
  exact block_at V c t j

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v23).slice (win2_3.rect t)).set ↔ _
  rw [View.set_slice_whole, Rect.mem_set_unit]
  exact Iff.rfl

/-- Row `r` of the output array lies in the block of point `r / 5000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk]
  obtain ⟨-, -, -, -, -, -, e30, e31⟩ := idx_facts ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 64 ≤ (i 1).val ∧ (i 1).val < win2_3.index _ (1 : Fin 2) * 64 + 64
    rw [e31]; omega

end Region2

theorem region2_value (V : (c : Dev nD) → (b : Ref sig .tc) → Buf (Elt Ideal) ((c : Thread nD τ).loc b)) (c : Dev nD) :
    (dat2 (F := Ideal) V c).arrAt 3 cfg2.N = mmScale_64_64 (V c main_v22) (V c main_arg4) (V c main_v15) :=
  (dat2 (F := Ideal) V c).arrAt_eq_of_cover 3 (mmScale_64_64 (V c main_v22) (V c main_arg4) (V c main_v15))
    (fun t _ => Region2.flushed_eq V c t) Region2.cover

end Cert.GCN

end
-- ==== Proof.Region3.lean ====
/- Region 3: the second layer's summed rows scaled, the bias added, negatives replaced by zero. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

/-- The body's loads and its store start at row 0, column 0 of their blocks: the offsets, as the constant zero. -/
theorem region3_zero_off : (![0, 0] : Fin 2 → Nat) = fun _ => 0 := funext fun a => by fin_cases a <;> rfl

/-- One column repeated along the rows' second axis: a `[a, 1]` array broadcast to `[a, b]` reads, at `(p, q)`,
    the column's entry of row `p`. -/
theorem region3_bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body stores at row `p`, feature `q` of its block: the summed row's entry times the row's normaliser,
    plus the feature's bias, and zero where that is negative. -/
theorem region3_payload (x0 : Vec Ideal S5000x64 .f32) (x1 : Vec Ideal S5000x1 .f32) (x2 : Vec Ideal S1x64 .f32)
    (p : Fin 5000) (q : Fin 64) :
    k3_pay1 (F := Ideal) x0 x1 x2 (ix2 p q)
      = max (x0 (ix2 p q) * x1 (ix2 p (0 : Fin 1)) + x2 (ix2 (0 : Fin 1) q)) 0 := by
  unfold k3_pay1
  rw [maximumf_apply, addf_apply, mulf_apply, broadcast_apply, shapeCast_self, shapeCast_self, shapeCast_self,
    region3_bcast_col, broadcastTo_1b_ab_apply]
  show max _ (Ideal.ofBits .f32 0x00000000#32) = _
  rw [Ideal.ofBits_zero_f32]

/-- Where each window's block sits at grid point `t`: the three row-blocked windows (summed rows, normaliser
    column, result) at block row `t`, block column 0; the bias row always at its one block. Decided point by point. -/
theorem region3_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of a block of the result. If the three loaded blocks hold, at block row `p` and feature `q`, the
    arrays' entries of array row `r` (the summed rows' entry `(r, q)`, the normaliser of row `r`, the bias of
    feature `q`), then what the body stores there is the whole-array function's entry `(r, q)`. -/
theorem region3_entry (A : FVec Ideal S100000x64 .f32) (cn : FVec Ideal S100000x1 .f32) (b : FVec Ideal S1x64 .f32)
    (x0 : Vec Ideal S5000x64 .f32) (x1 : Vec Ideal S5000x1 .f32) (x2 : Vec Ideal S1x64 .f32)
    (p : Fin 5000) (q : Fin 64) (r : Fin 100000)
    (h0 : x0 (ix2 p q) = A (ix2 r q)) (h1 : x1 (ix2 p (0 : Fin 1)) = cn (ix2 r (0 : Fin 1)))
    (h2 : x2 (ix2 (0 : Fin 1) q) = b (ix2 (0 : Fin 1) q)) :
    k3_pay1 (F := Ideal) x0 x1 x2 (ix2 p q) = scaleBiasRelu_64 A cn b (ix2 r q) := by
  rw [region3_payload, h0, h1, h2]
  rfl

/-- What grid point `t` writes back is block `t` of the whole-array function of the three argument arrays: block
    row `p` of point `t` is array row `5000 t + p` in the summed rows, in the normaliser column and in the result
    alike, and the bias row is read whole at every point. -/
theorem region3_flushed (V : (c : Dev nD) → (b : Ref sig .tc) → Buf (Elt Ideal) ((c : Thread nD τ).loc b)) (c : Dev nD)
    (t : Fin cfg3.N) :
    (dat3 (F := Ideal) V c).flushed 3 t
      = ((cfg3.win 3).blk t).view.read (Elt Ideal)
          (scaleBiasRelu_64 (V c main_v27) (V c main_v15) (V c main_v28)) := by
  show (cfg3.win 3).cut (grid3.coords t) ((dat3 (F := Ideal) V c).after 3 t) = _
  rw [after3_3]
  unfold out3_3
  rw [View.canon_unit_zero region3_zero_off]
  simp only [View.ld_unit_zero (S := S5000x64) region3_zero_off, View.ld_unit_zero (S := S5000x1) region3_zero_off,
    View.ld_unit_zero (S := S1x64) region3_zero_off]
  funext j
  obtain ⟨e00, e01, e10, e11, e20, e21, e30, e31⟩ := region3_index t
  have ht : t.val < 20 := lt_of_lt_of_eq t.isLt N_3
  obtain ⟨p, hp⟩ : ∃ p : Fin 5000, p.val = (j 0).val := ⟨⟨(j 0).val, (j 0).isLt⟩, rfl⟩
  obtain ⟨q, hq⟩ : ∃ q : Fin 64, q.val = (j 1).val := ⟨⟨(j 1).val, (j 1).isLt⟩, rfl⟩
  obtain ⟨r, hr⟩ : ∃ r : Fin 100000, r.val = t.val * 5000 + p.val := ⟨⟨t.val * 5000 + p.val, by have := p.isLt; omega⟩, rfl⟩
  have hj : (win3 3).xinj (grid3.coords t) j = ix2 p q := by
    funext a
    match a with
    | ⟨0, _⟩ => exact Fin.ext hp.symm
    | ⟨1, _⟩ => exact Fin.ext hq.symm
  show k3_pay1 (F := Ideal) (iblk3 V c 0 t) (iblk3 V c 1 t) (iblk3 V c 2 t) ((win3 3).xinj (grid3.coords t) j) = _
  rw [hj]
  refine (region3_entry (V c main_v27) (V c main_v15) (V c main_v28) (iblk3 V c 0 t) (iblk3 V c 1 t) (iblk3 V c 2 t)
    p q r ?_ ?_ ?_).trans ?_
  · show V c main_v27 (((cfg3.win 0).blk t).view.emb (ix2 p q)) = V c main_v27 (ix2 r q)
    refine congrArg (V c main_v27) (funext fun a => Fin.ext ?_)
    match a with
    | ⟨0, _⟩ => show win3_0.index t (0 : Fin 2) * 5000 + 1 * p.val = r.val; omega
    | ⟨1, _⟩ => show win3_0.index t (1 : Fin 2) * 64 + 1 * q.val = q.val; omega
  · show V c main_v15 (((cfg3.win 1).blk t).view.emb (ix2 p (0 : Fin 1))) = V c main_v15 (ix2 r (0 : Fin 1))
    refine congrArg (V c main_v15) (funext fun a => Fin.ext ?_)
    match a with
    | ⟨0, _⟩ => show win3_1.index t (0 : Fin 2) * 5000 + 1 * p.val = r.val; omega
    | ⟨1, _⟩ => show win3_1.index t (1 : Fin 2) * 1 + 1 * 0 = 0; omega
  · show V c main_v28 (((cfg3.win 2).blk t).view.emb (ix2 (0 : Fin 1) q)) = V c main_v28 (ix2 (0 : Fin 1) q)
    refine congrArg (V c main_v28) (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  · show scaleBiasRelu_64 (V c main_v27) (V c main_v15) (V c main_v28) (ix2 r q)
      = scaleBiasRelu_64 (V c main_v27) (V c main_v15) (V c main_v28) (((cfg3.win 3).blk t).view.emb j)
    refine congrArg (scaleBiasRelu_64 (V c main_v27) (V c main_v15) (V c main_v28)) (funext fun a => Fin.ext ?_)
    match a with
    | ⟨0, _⟩ => show r.val = win3_3.index t (0 : Fin 2) * 5000 + 1 * (j 0).val; omega
    | ⟨1, _⟩ => show q.val = win3_3.index t (1 : Fin 2) * 64 + 1 * (j 1).val; omega

/-- An index of the result array lies in grid point `t`'s block exactly when each coordinate is at or past the
    block's start on its axis and short of the start plus the block's extent there. -/
theorem region3_mem_blk (t : Fin cfg3.N) (i : S100000x64.Idx) :
    i ∈ ((cfg3.win 3).blk t).view.set
      ↔ ∀ a : Fin 2, win3_3.index t a * S5000x64.size a ≤ (i a).val
          ∧ (i a).val < win3_3.index t a * S5000x64.size a + S5000x64.size a := by
  show i ∈ ((View.whole main_v29).slice (win3_3.rect t)).set ↔ _
  rw [View.set_slice_whole, Rect.mem_set_unit]
  exact Iff.rfl

/-- The twenty blocks tile the result array: row `n` lies in the block of grid point `n / 5000`, whose rows are
    `5000 (n / 5000) … 5000 (n / 5000) + 4999`, and every block spans all 64 features; every point writes back. -/
theorem region3_cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hlt : (i 0).val / 5000 < cfg3.N := lt_of_lt_of_eq (show (i 0).val / 5000 < 20 by omega) N_3.symm
  obtain ⟨t, ht⟩ : ∃ t : Fin cfg3.N, t.val = (i 0).val / 5000 := ⟨⟨(i 0).val / 5000, hlt⟩, rfl⟩
  obtain ⟨-, -, -, -, -, -, e30, e31⟩ := region3_index t
  refine ⟨t, flush3_3 t, ?_⟩
  rw [region3_mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

theorem region3_value (V : (c : Dev nD) → (b : Ref sig .tc) → Buf (Elt Ideal) ((c : Thread nD τ).loc b)) (c : Dev nD) :
    (dat3 (F := Ideal) V c).arrAt 3 cfg3.N = scaleBiasRelu_64 (V c main_v27) (V c main_v15) (V c main_v28) := by
  exact (dat3 (F := Ideal) V c).arrAt_eq_of_cover 3 (scaleBiasRelu_64 (V c main_v27) (V c main_v15) (V c main_v28))
    (fun t _ => region3_flushed V c t) region3_cover

end Cert.GCN

end
-- ==== Proof.KLayer2.lean ====
/- Layer 2 of the kernel's program, from the buffers as layer 2 finds them to the buffer it leaves: the product
   region's output array, the gather of its rows and their sum into destination rows on the host, and the second
   region's output array, each read off the boundary contents of @main. -/
import proofs.«430215_j31516470018049_1_alg».proof.Proof.KBase
import proofs.«430215_j31516470018049_1_alg».proof.Proof.Region2
import proofs.«430215_j31516470018049_1_alg».proof.Proof.Region3
import Idealize.ShloMosaic.Lib.StableHlo.Run

noncomputable section

namespace Cert.GCN

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The product region -/

/-- The second layer's product region is entered where the first layer ends, with no host operation between: it
    leaves its output array at the scaled product of the first layer's output with the second weight matrix, the
    weights being the launch's and the normaliser column what it was when built. -/
theorem layer2_product :
    W8 (F := Ideal) m ρ c (Proc.devRef .tc main_v23)
      = mmScale_64_64 (W7 (F := Ideal) m ρ c (Proc.devRef .tc main_v22)) (arg4 m c) (dcol (arg1 m c)) := by
  refine (W8_arr (F := Ideal) m ρ c 3).trans ?_
  rw [region2_value (V7 m ρ) c]
  have e4 : V7 (F := Ideal) m ρ c main_arg4 = arg4 m c := arg4_at7 m ρ c
  have e15 : V7 (F := Ideal) m ρ c main_v15 = dcol (arg1 m c) := dcol_at7 m ρ c
  rw [e4, e15]

/-! ## The gather of rows

The gather's host function names each buffer together with the tensor type it holds, and moves contents between the
buffer's own type and that type. The two types are the same by computation, so every such move is the identity:
the first three lemmas say so at the three buffers the stretch shares with the rest of the program, the fourth for
a value stored at any buffer and read back. -/

/-- The sources' buffer read at its tensor type. -/
private theorem layer2_ofBuf_src (h1 h2 h3) (v : IVec S1700000 32) :
    (StableHlo.TRef.of main_v3 h1 h2 h3 : StableHlo.TRef sig ⟨S1700000, .i32⟩).ofBuf (Val := Elt Ideal) v = v := rfl

/-- The product region's output buffer read at its tensor type. -/
private theorem layer2_ofBuf_prod (h1 h2 h3) (v : FVec Ideal S100000x64 .f32) :
    (StableHlo.TRef.of main_v23 h1 h2 h3 : StableHlo.TRef sig ⟨S100000x64, .f32⟩).ofBuf (Val := Elt Ideal) v = v := rfl

/-- The gathered rows stored at their buffer. -/
private theorem layer2_toBuf_rows (h1 h2 h3) (v : FVec Ideal S1700000x64 .f32) :
    (StableHlo.TRef.of main_v24 h1 h2 h3 : StableHlo.TRef sig ⟨S1700000x64, .f32⟩).toBuf (Val := Elt Ideal) v = v := rfl

/-- A value stored at a buffer and read back at the same tensor type is the value itself. -/
private theorem layer2_ofBuf_toBuf {T : BufTy} (x : StableHlo.TRef sig T) (v : T.Contents (Elt Ideal)) :
    x.ofBuf (x.toBuf v) = v := by
  simp only [StableHlo.TRef.ofBuf, StableHlo.TRef.toBuf, cast_cast, cast_eq]

/-- The twenty-three operations of the second layer's gather, run from any contents `V` whose sources' buffer
    holds the sources of `ei`: the rows buffer ends at the masked gather of the vocabulary, taken from what `V`
    holds in the product region's output buffer. The stretch is that definition operation by operation: the node
    count added to a negative source, the start indices as one column, the mask `0 ≤ · ≤ 99999`, and the gathered
    rows kept under the mask with the fill pattern elsewhere. -/
private theorem layer2_gather_over (V : Valuation τ sig (Elt Ideal)) (ei : IVec S2x1600000 32)
    (hs : V (Proc.devRef .tc main_v3) = srcV ei) :
    StableHlo.after hostOps3 V (Proc.devRef .tc main_v24) = take64 (V (Proc.devRef .tc main_v23)) ei := by
  after_results_simp
  rw [hs]
  simp only [layer2_ofBuf_src, layer2_ofBuf_prod, layer2_toBuf_rows]
  repeat rw [layer2_ofBuf_toBuf]
  rfl

/-- After the gather the rows buffer holds, for every edge, the row of the product region's output that the edge's
    source names (the fill pattern where the source names no node): two regions later the sources are still what
    they were when built. -/
theorem layer2_take :
    W9 (F := Ideal) m ρ c (Proc.devRef .tc main_v24)
      = take64 (W8 (F := Ideal) m ρ c (Proc.devRef .tc main_v23)) (arg1 m c) :=
  layer2_gather_over (W8 (F := Ideal) m ρ c) (arg1 m c) (src_at8 m ρ c)

/-! ## The sum into destination rows, and the bias as a row -/

/-- The five operations after the gather, run from any contents `V`: the sums' buffer ends at the rows `V` holds
    summed, from zero, into the rows that `V`'s destinations name as one column. -/
private theorem layer2_sum_over (V : Valuation τ sig (Elt Ideal)) :
    StableHlo.after hostOps3_1 V (Proc.devRef .tc main_v27)
      = Host.scatterAdd scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (V (Proc.devRef .tc main_v6)))
          (V (Proc.devRef .tc main_v24)) := by
  after_results

/-- The same five operations leave the second bias argument, as one row, in the bias row's buffer. -/
private theorem layer2_bias_over (V : Valuation τ sig (Elt Ideal)) :
    StableHlo.after hostOps3_1 V (Proc.devRef .tc main_v28)
      = shapeCast S1x64 (V (Proc.devRef .tc main_arg5)) shapeCasts_S64_S1x64 := by
  after_results
  rfl

/-- At the fourth region's entry the sums' buffer holds the gathered rows summed into their destination rows. -/
theorem layer2_sum :
    W10 (F := Ideal) m ρ c (Proc.devRef .tc main_v27)
      = Host.scatterAdd scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (dstV (arg1 m c)))
          (W9 (F := Ideal) m ρ c (Proc.devRef .tc main_v24)) := by
  refine (layer2_sum_over (W9 (F := Ideal) m ρ c)).trans ?_
  rw [dst_at9]

/-- At the fourth region's entry the bias row's buffer holds the second layer's bias as one row. -/
theorem layer2_bias :
    W10 (F := Ideal) m ρ c (Proc.devRef .tc main_v28) = shapeCast S1x64 (arg5 m c) shapeCasts_S64_S1x64 := by
  refine (layer2_bias_over (W9 (F := Ideal) m ρ c)).trans ?_
  rw [arg5_at9]

/-! ## The layer -/

/-- The fourth region scales the summed rows by the normaliser, adds the bias row and replaces negatives by zero;
    its three inputs are the sums, the normaliser column and the bias row just read, so its output array is the
    second layer's output the kernel's way, from the scaled product of the first layer's output with the second
    weight matrix. -/
theorem kernel_layer2 :
    W11 (F := Ideal) m ρ c (Proc.devRef .tc main_v29) = kAgg64 (arg1 m c) (mmScale_64_64 (W7 (F := Ideal) m ρ c (Proc.devRef .tc main_v22)) (arg4 m c) (dcol (arg1 m c))) (arg5 m c) := by
  unfold kAgg64
  refine (W11_arr (F := Ideal) m ρ c 3).trans ?_
  rw [region3_value (V10 m ρ) c]
  have e27 : V10 (F := Ideal) m ρ c main_v27 = _ := layer2_sum m ρ c
  have e15 : V10 (F := Ideal) m ρ c main_v15 = dcol (arg1 m c) := dcol_at10 m ρ c
  have e28 : V10 (F := Ideal) m ρ c main_v28 = _ := layer2_bias m ρ c
  rw [e27, e15, e28, layer2_take, layer2_product]

end Cert.GCN

end
-- ==== Proof.Region4.lean ====
/- Region 4: the scaled product of the second layer's output with the third weight matrix. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

namespace Region4

/-! ## The block product at an index

The body multiplies a block of 5000 rows (64 features each) by the whole 64 × 64 weight matrix, contracting the
block's second axis with the matrix's first, into a zero accumulator. The four lemmas below say where the product's
operand indices sit: at output index `(p, q)` and contraction index `k` the left operand is read at `(p, k)`, the
right one at `(k, q)`. -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, entry `(p, q)`: the sum over `k` of `a[p,k] · b[k,q]`. -/
theorem mm_apply (a : FVec Ideal S5000x64 .bf16) (b : FVec Ideal S64x64 .bf16) (p : Fin 5000) (q : Fin 64) :
    FloatOps.matmul dot_S5000x64_S64x64_S5000x64_1_0_0_1_n_n none a b (constant (F := Ideal) S5000x64 .f32 0x00000000#32) (ix2 p q)
      = ∑ k : Fin 64, a (ix2 p k) * b (ix2 k q) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- A column of 5000 entries spread over 64 features: entry `(p, q)` is the column's entry `p`. -/
theorem col_apply (v : FVec Ideal S5000x1 .f32) (h : S5000x1.Broadcasts S5000x64) (p : Fin 5000) (q : Fin 64) :
    broadcastTo S5000x64 v h (ix2 p q) = v (ix2 p 0) := by
  refine broadcastTo_apply v h (ix2 p q) (ix2 p 0) fun ax => ?_
  match ax with
  | ⟨0, _⟩ => rfl
  | ⟨1, _⟩ => rfl

/-- The body's arithmetic at entry `(p, q)` of its block: the change of float format is the identity on the ideal
    values, so it is the row `p` of the left block times the column `q` of the matrix, times the scale of row `p`. -/
theorem pay_apply (x0 : Vec Ideal S5000x64 .f32) (x1 : Vec Ideal S64x64 .f32) (x2 : Vec Ideal S5000x1 .f32) (p : Fin 5000) (q : Fin 64) :
    k4_pay1 (F := Ideal) x0 x1 x2 (ix2 p q) = (∑ k : Fin 64, x0 (ix2 p k) * x1 (ix2 k q)) * x2 (ix2 p 0) := by
  unfold k4_pay1
  rw [mulf_apply, shapeCast_self, shapeCast_self, col_apply]
  refine congrArg (· * x2 (ix2 p 0)) ?_
  exact mm_apply _ _ p q

/-! ## From blocks to the array -/

theorem hz : (![0, 0] : Fin 2 → Nat) = fun _ => 0 := funext fun a => by fin_cases a <;> rfl

/-- What one grid point stores, at entry `(p, q)` of its block, when row `p` of its left block is row `r` of the
    array `H`, its matrix block is `W` and entry `p` of its scale block is entry `r` of the column `cc`: the scaled
    product of the whole arrays at `(r, q)`. -/
theorem out_at (x0 : Vec Ideal S5000x64 .f32) (x1 : Vec Ideal S64x64 .f32) (x2 : Vec Ideal S5000x1 .f32)
    (H : FVec Ideal S100000x64 .f32) (W : FVec Ideal S64x64 .f32) (cc : FVec Ideal S100000x1 .f32)
    (p : Fin 5000) (q : Fin 64) (r : Fin 100000)
    (h0 : ∀ k : Fin 64, x0 (ix2 p k) = H (ix2 r k))
    (h1 : ∀ k : Fin 64, x1 (ix2 k q) = W (ix2 k q))
    (h2 : x2 (ix2 p 0) = cc (ix2 r 0)) :
    out4_3 (F := Ideal) x0 x1 x2 (ix2 p q) = mmScale_64_64 H W cc (ix2 r q) := by
  unfold out4_3
  rw [View.canon_unit_zero hz]
  simp only [View.ld_unit_zero (S := S5000x64) hz, View.ld_unit_zero (S := S64x64) hz, View.ld_unit_zero (S := S5000x1) hz]
  rw [pay_apply]
  unfold mmScale_64_64
  show _ = (∑ k : Fin 64, H (ix2 r k) * W (ix2 k q)) * cc (ix2 r 0)
  rw [h2]
  refine congrArg (· * cc (ix2 r 0)) ?_
  exact Finset.sum_congr rfl fun k _ => by rw [h0 k, h1 k]

/-- The printed index maps over the grid's twenty points: the row blocks of the left operand, of the scale column
    and of the output are block `t` at point `t`; the matrix is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Point `t`'s block of the output, at the block's index `y`, is the scaled product of the whole arrays at the
    array index that `y` has in the block. -/
theorem block_at (V : (c : Dev nD) → (b : Ref sig .tc) → Buf (Elt Ideal) ((c : Thread nD τ).loc b)) (c : Dev nD)
    (t : Fin cfg4.N) (y : S5000x64.Idx) :
    out4_3 (F := Ideal) (iblk4 V c 0 t) (iblk4 V c 1 t) (iblk4 V c 2 t) y
      = mmScale_64_64 (V c main_v29) (V c main_arg6) (V c main_v15) (((cfg4.win 3).blk t).view.emb y) := by
  obtain ⟨p, q, rfl⟩ : ∃ (p : Fin 5000) (q : Fin 64), y = ix2 p q := ⟨y 0, y 1, eq_ix2 y⟩
  obtain ⟨e00, e01, e10, e11, e20, e21, e30, e31⟩ := idx_facts t
  have ht : t.val < 20 := lt_of_lt_of_eq t.isLt N_4
  have hp : p.val < 5000 := p.isLt
  have hq : q.val < 64 := q.isLt
  refine (out_at (iblk4 V c 0 t) (iblk4 V c 1 t) (iblk4 V c 2 t) (V c main_v29) (V c main_arg6) (V c main_v15) p q
    ⟨t.val * 5000 + p.val, by omega⟩ (fun k => ?_) (fun k => ?_) ?_).trans ?_
  · unfold iblk4
    rw [View.read_apply]
    show V c main_v29 (((cfg4.win 0).blk t).view.emb (ix2 p k)) = V c main_v29 _
    refine congrArg (V c main_v29) (funext fun a => Fin.ext ?_)
    match a with
    | ⟨0, _⟩ => show win4_0.index t (0 : Fin 2) * 5000 + 1 * p.val = t.val * 5000 + p.val; rw [e00]; omega
    | ⟨1, _⟩ => show win4_0.index t (1 : Fin 2) * 64 + 1 * k.val = k.val; rw [e01]; omega
  · unfold iblk4
    rw [View.read_apply]
    show V c main_arg6 (((cfg4.win 1).blk t).view.emb (ix2 k q)) = V c main_arg6 _
    refine congrArg (V c main_arg6) (funext fun a => Fin.ext ?_)
    match a with
    | ⟨0, _⟩ => show win4_1.index t (0 : Fin 2) * 64 + 1 * k.val = k.val; rw [e10]; omega
    | ⟨1, _⟩ => show win4_1.index t (1 : Fin 2) * 64 + 1 * q.val = q.val; rw [e11]; omega
  · unfold iblk4
    rw [View.read_apply]
    show V c main_v15 (((cfg4.win 2).blk t).view.emb (ix2 p 0)) = V c main_v15 _
    refine congrArg (V c main_v15) (funext fun a => Fin.ext ?_)
    match a with
    | ⟨0, _⟩ => show win4_2.index t (0 : Fin 2) * 5000 + 1 * p.val = t.val * 5000 + p.val; rw [e20]; omega
    | ⟨1, _⟩ => show win4_2.index t (1 : Fin 2) * 1 + 1 * 0 = 0; rw [e21]
  · refine congrArg (mmScale_64_64 (V c main_v29) (V c main_arg6) (V c main_v15)) (funext fun a => Fin.ext ?_)
    match a with
    | ⟨0, _⟩ => show t.val * 5000 + p.val = win4_3.index t (0 : Fin 2) * 5000 + 1 * p.val; rw [e30]; omega
    | ⟨1, _⟩ => show q.val = win4_3.index t (1 : Fin 2) * 64 + 1 * q.val; rw [e31]; omega

/-- What point `t` writes back is block `t` of the scaled product of the whole arrays. -/
theorem flushed_eq (V : (c : Dev nD) → (b : Ref sig .tc) → Buf (Elt Ideal) ((c : Thread nD τ).loc b)) (c : Dev nD)
    (t : Fin cfg4.N) :
    (dat4 (F := Ideal) V c).flushed 3 t
      = ((cfg4.win 3).blk t).view.read (Elt Ideal) (mmScale_64_64 (V c main_v29) (V c main_arg6) (V c main_v15)) := by
  show (cfg4.win 3).cut (grid4.coords t) ((dat4 (F := Ideal) V c).after 3 t) = _
  rw [after4_3]
  funext j
  exact block_at V c t j

/-- An index of the output array is in point `t`'s block iff each coordinate is in the block's range on its axis. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v30).slice (win4_3.rect t)).set ↔ _
  rw [View.set_slice_whole, Rect.mem_set_unit]
  exact Iff.rfl

/-- Row `r` of the output array lies in the block of point `r / 5000`. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_3 _, ?_⟩
  rw [mem_blk]
  obtain ⟨-, -, -, -, -, -, e30, e31⟩ := idx_facts ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 64 ≤ (i 1).val ∧ (i 1).val < win4_3.index _ (1 : Fin 2) * 64 + 64
    rw [e31]; omega

end Region4

theorem region4_value (V : (c : Dev nD) → (b : Ref sig .tc) → Buf (Elt Ideal) ((c : Thread nD τ).loc b)) (c : Dev nD) :
    (dat4 (F := Ideal) V c).arrAt 3 cfg4.N = mmScale_64_64 (V c main_v29) (V c main_arg6) (V c main_v15) :=
  (dat4 (F := Ideal) V c).arrAt_eq_of_cover 3 (mmScale_64_64 (V c main_v29) (V c main_arg6) (V c main_v15))
    (fun t _ => Region4.flushed_eq V c t) Region4.cover

end Cert.GCN

end
-- ==== Proof.Region5.lean ====
/- Region 5: the third layer's summed rows scaled, the bias added, negatives replaced by zero. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

/-- The body's loads and its store start at row 0, column 0 of their blocks: the offsets, as the constant zero. -/
theorem region5_zero_off : (![0, 0] : Fin 2 → Nat) = fun _ => 0 := funext fun a => by fin_cases a <;> rfl

/-- One column repeated along the rows' second axis: a `[a, 1]` array broadcast to `[a, b]` reads, at `(p, q)`,
    the column's entry of row `p`. -/
theorem region5_bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body stores at row `p`, feature `q` of its block: the summed row's entry times the row's normaliser,
    plus the feature's bias, and zero where that is negative. -/
theorem region5_payload (x0 : Vec Ideal S5000x64 .f32) (x1 : Vec Ideal S5000x1 .f32) (x2 : Vec Ideal S1x64 .f32)
    (p : Fin 5000) (q : Fin 64) :
    k5_pay1 (F := Ideal) x0 x1 x2 (ix2 p q)
      = max (x0 (ix2 p q) * x1 (ix2 p (0 : Fin 1)) + x2 (ix2 (0 : Fin 1) q)) 0 := by
  unfold k5_pay1
  rw [maximumf_apply, addf_apply, mulf_apply, broadcast_apply, shapeCast_self, shapeCast_self, shapeCast_self,
    region5_bcast_col, broadcastTo_1b_ab_apply]
  show max _ (Ideal.ofBits .f32 0x00000000#32) = _
  rw [Ideal.ofBits_zero_f32]

/-- Where each window's block sits at grid point `t`: the three row-blocked windows (summed rows, normaliser
    column, result) at block row `t`, block column 0; the bias row always at its one block. Decided point by point. -/
theorem region5_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One entry of a block of the result. If the three loaded blocks hold, at block row `p` and feature `q`, the
    arrays' entries of array row `r` (the summed rows' entry `(r, q)`, the normaliser of row `r`, the bias of
    feature `q`), then what the body stores there is the whole-array function's entry `(r, q)`. -/
theorem region5_entry (A : FVec Ideal S100000x64 .f32) (cn : FVec Ideal S100000x1 .f32) (b : FVec Ideal S1x64 .f32)
    (x0 : Vec Ideal S5000x64 .f32) (x1 : Vec Ideal S5000x1 .f32) (x2 : Vec Ideal S1x64 .f32)
    (p : Fin 5000) (q : Fin 64) (r : Fin 100000)
    (h0 : x0 (ix2 p q) = A (ix2 r q)) (h1 : x1 (ix2 p (0 : Fin 1)) = cn (ix2 r (0 : Fin 1)))
    (h2 : x2 (ix2 (0 : Fin 1) q) = b (ix2 (0 : Fin 1) q)) :
    k5_pay1 (F := Ideal) x0 x1 x2 (ix2 p q) = scaleBiasRelu_64 A cn b (ix2 r q) := by
  rw [region5_payload, h0, h1, h2]
  rfl

/-- What grid point `t` writes back is block `t` of the whole-array function of the three argument arrays: block
    row `p` of point `t` is array row `5000 t + p` in the summed rows, in the normaliser column and in the result
    alike, and the bias row is read whole at every point. -/
theorem region5_flushed (V : (c : Dev nD) → (b : Ref sig .tc) → Buf (Elt Ideal) ((c : Thread nD τ).loc b)) (c : Dev nD)
    (t : Fin cfg5.N) :
    (dat5 (F := Ideal) V c).flushed 3 t
      = ((cfg5.win 3).blk t).view.read (Elt Ideal)
          (scaleBiasRelu_64 (V c main_v34) (V c main_v15) (V c main_v35)) := by
  show (cfg5.win 3).cut (grid5.coords t) ((dat5 (F := Ideal) V c).after 3 t) = _
  rw [after5_3]
  unfold out5_3
  rw [View.canon_unit_zero region5_zero_off]
  simp only [View.ld_unit_zero (S := S5000x64) region5_zero_off, View.ld_unit_zero (S := S5000x1) region5_zero_off,
    View.ld_unit_zero (S := S1x64) region5_zero_off]
  funext j
  obtain ⟨e00, e01, e10, e11, e20, e21, e30, e31⟩ := region5_index t
  have ht : t.val < 20 := lt_of_lt_of_eq t.isLt N_5
  obtain ⟨p, hp⟩ : ∃ p : Fin 5000, p.val = (j 0).val := ⟨⟨(j 0).val, (j 0).isLt⟩, rfl⟩
  obtain ⟨q, hq⟩ : ∃ q : Fin 64, q.val = (j 1).val := ⟨⟨(j 1).val, (j 1).isLt⟩, rfl⟩
  obtain ⟨r, hr⟩ : ∃ r : Fin 100000, r.val = t.val * 5000 + p.val := ⟨⟨t.val * 5000 + p.val, by have := p.isLt; omega⟩, rfl⟩
  have hj : (win5 3).xinj (grid5.coords t) j = ix2 p q := by
    funext a
    match a with
    | ⟨0, _⟩ => exact Fin.ext hp.symm
    | ⟨1, _⟩ => exact Fin.ext hq.symm
  show k5_pay1 (F := Ideal) (iblk5 V c 0 t) (iblk5 V c 1 t) (iblk5 V c 2 t) ((win5 3).xinj (grid5.coords t) j) = _
  rw [hj]
  refine (region5_entry (V c main_v34) (V c main_v15) (V c main_v35) (iblk5 V c 0 t) (iblk5 V c 1 t) (iblk5 V c 2 t)
    p q r ?_ ?_ ?_).trans ?_
  · show V c main_v34 (((cfg5.win 0).blk t).view.emb (ix2 p q)) = V c main_v34 (ix2 r q)
    refine congrArg (V c main_v34) (funext fun a => Fin.ext ?_)
    match a with
    | ⟨0, _⟩ => show win5_0.index t (0 : Fin 2) * 5000 + 1 * p.val = r.val; omega
    | ⟨1, _⟩ => show win5_0.index t (1 : Fin 2) * 64 + 1 * q.val = q.val; omega
  · show V c main_v15 (((cfg5.win 1).blk t).view.emb (ix2 p (0 : Fin 1))) = V c main_v15 (ix2 r (0 : Fin 1))
    refine congrArg (V c main_v15) (funext fun a => Fin.ext ?_)
    match a with
    | ⟨0, _⟩ => show win5_1.index t (0 : Fin 2) * 5000 + 1 * p.val = r.val; omega
    | ⟨1, _⟩ => show win5_1.index t (1 : Fin 2) * 1 + 1 * 0 = 0; omega
  · show V c main_v35 (((cfg5.win 2).blk t).view.emb (ix2 (0 : Fin 1) q)) = V c main_v35 (ix2 (0 : Fin 1) q)
    refine congrArg (V c main_v35) (funext fun a => Fin.ext ?_)
    match a with
    | ⟨0, _⟩ => show win5_2.index t (0 : Fin 2) * 1 + 1 * 0 = 0; omega
    | ⟨1, _⟩ => show win5_2.index t (1 : Fin 2) * 64 + 1 * q.val = q.val; omega
  · show scaleBiasRelu_64 (V c main_v34) (V c main_v15) (V c main_v35) (ix2 r q)
      = scaleBiasRelu_64 (V c main_v34) (V c main_v15) (V c main_v35) (((cfg5.win 3).blk t).view.emb j)
    refine congrArg (scaleBiasRelu_64 (V c main_v34) (V c main_v15) (V c main_v35)) (funext fun a => Fin.ext ?_)
    match a with
    | ⟨0, _⟩ => show r.val = win5_3.index t (0 : Fin 2) * 5000 + 1 * (j 0).val; omega
    | ⟨1, _⟩ => show q.val = win5_3.index t (1 : Fin 2) * 64 + 1 * (j 1).val; omega

/-- An index of the result array lies in grid point `t`'s block exactly when each coordinate is at or past the
    block's start on its axis and short of the start plus the block's extent there. -/
theorem region5_mem_blk (t : Fin cfg5.N) (i : S100000x64.Idx) :
    i ∈ ((cfg5.win 3).blk t).view.set
      ↔ ∀ a : Fin 2, win5_3.index t a * S5000x64.size a ≤ (i a).val
          ∧ (i a).val < win5_3.index t a * S5000x64.size a + S5000x64.size a := by
  show i ∈ ((View.whole main_v36).slice (win5_3.rect t)).set ↔ _
  rw [View.set_slice_whole, Rect.mem_set_unit]
  exact Iff.rfl

/-- The twenty blocks tile the result array: row `n` lies in the block of grid point `n / 5000`, whose rows are
    `5000 (n / 5000) … 5000 (n / 5000) + 4999`, and every block spans all 64 features; every point writes back. -/
theorem region5_cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hlt : (i 0).val / 5000 < cfg5.N := lt_of_lt_of_eq (show (i 0).val / 5000 < 20 by omega) N_5.symm
  obtain ⟨t, ht⟩ : ∃ t : Fin cfg5.N, t.val = (i 0).val / 5000 := ⟨⟨(i 0).val / 5000, hlt⟩, rfl⟩
  obtain ⟨-, -, -, -, -, -, e30, e31⟩ := region5_index t
  refine ⟨t, flush5_3 t, ?_⟩
  rw [region5_mem_blk]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 64 ≤ (i 1).val ∧ (i 1).val < win5_3.index t (1 : Fin 2) * 64 + 64
    omega

theorem region5_value (V : (c : Dev nD) → (b : Ref sig .tc) → Buf (Elt Ideal) ((c : Thread nD τ).loc b)) (c : Dev nD) :
    (dat5 (F := Ideal) V c).arrAt 3 cfg5.N = scaleBiasRelu_64 (V c main_v34) (V c main_v15) (V c main_v35) := by
  exact (dat5 (F := Ideal) V c).arrAt_eq_of_cover 3 (scaleBiasRelu_64 (V c main_v34) (V c main_v15) (V c main_v35))
    (fun t _ => region5_flushed V c t) region5_cover

end Cert.GCN

end
-- ==== Proof.KLayer3.lean ====
/- Layer 3 of the kernel's program, from the buffers as layer 3 finds them to the buffer it leaves: the product
   region's output array, the gather of its rows and their sum into destination rows on the host, and the second
   region's output array, each read off the boundary contents of @main. -/
import proofs.«430215_j31516470018049_1_alg».proof.Proof.KBase
import proofs.«430215_j31516470018049_1_alg».proof.Proof.Region4
import proofs.«430215_j31516470018049_1_alg».proof.Proof.Region5
import Idealize.ShloMosaic.Lib.StableHlo.Run

noncomputable section

namespace Cert.GCN

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The product region leaves its output array at the scaled product of the previous layer's output (as the
    region finds it) with the third weight matrix, the rows scaled by the normaliser column. -/
theorem layer3_product :
    W12 (F := Ideal) m ρ c (Proc.devRef .tc main_v30)
      = mmScale_64_64 (W11 (F := Ideal) m ρ c (Proc.devRef .tc main_v29)) (arg6 m c) (dcol (arg1 m c)) := by
  refine (W12_arr (F := Ideal) m ρ c 3).trans ?_
  refine (region4_value (V11 (F := Ideal) m ρ) c).trans ?_
  show mmScale_64_64 (W11 (F := Ideal) m ρ c (Proc.devRef .tc main_v29)) (W11 (F := Ideal) m ρ c (Proc.devRef .tc main_arg6))
      (W11 (F := Ideal) m ρ c (Proc.devRef .tc main_v15)) = _
  rw [arg6_at11, dcol_at11]

/-- Storing a value at a typed reference and reading it back is the identity (the two transports along the
    reference's type equation cancel). -/
private theorem ofBuf_toBuf {T : BufTy} (x : StableHlo.TRef sig T) (v : T.Contents (Elt Ideal)) :
    x.ofBuf (x.toBuf v) = v := by
  obtain ⟨r, h, h2, h3⟩ := x
  subst h
  rfl

/-- At a reference typed by its own buffer type the transport is the identity. -/
private theorem ofBuf_self (r : Ref sig .tc) (h2 : r.space ≠ .host) (h3 : r.isScoped = false) (v : r.ty.Contents (Elt Ideal)) :
    (StableHlo.TRef.of r rfl h2 h3).ofBuf v = v := rfl

private theorem toBuf_self (r : Ref sig .tc) (h2 : r.space ≠ .host) (h3 : r.isScoped = false) (v : r.ty.Contents (Elt Ideal)) :
    (StableHlo.TRef.of r rfl h2 h3).toBuf v = v := rfl

/-- The host's gather: the rows of the product array that the edges' sources name, the fill pattern where a
    source names no node. The stretch's operations are, one for one, those of the three definitions `srcIdx2`,
    `takeMask` and `take64` over the source array. -/
theorem layer3_take :
    W13 (F := Ideal) m ρ c (Proc.devRef .tc main_v31)
      = take64 (W12 (F := Ideal) m ρ c (Proc.devRef .tc main_v30)) (arg1 m c) := by
  have hs := src_at12 m ρ c
  dsimp only [W13, hostOps5]
  after_results_simp
  simp only [ofBuf_toBuf]
  rw [toBuf_self main_v31, ofBuf_self main_v3, ofBuf_self main_v30, hs]
  generalize W12 (F := Ideal) m ρ c (Proc.devRef .tc main_v30) = hs64
  generalize arg1 m c = ei
  unfold take64 takeMask srcIdx2
  rfl

/-- The gathered rows summed into their destination rows, from an array of zeros. -/
theorem layer3_sum :
    W14 (F := Ideal) m ρ c (Proc.devRef .tc main_v34)
      = Host.scatterAdd scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 (dstV (arg1 m c)))
          (W13 (F := Ideal) m ρ c (Proc.devRef .tc main_v31)) := by
  have hd := dst_at13 m ρ c
  show StableHlo.after hostOps5_1 (W13 (F := Ideal) m ρ c) (Proc.devRef .tc main_v34) = _
  generalize W13 (F := Ideal) m ρ c = V at hd ⊢
  dsimp only [hostOps5_1]
  after_results
  rw [hd]

/-- The bias as a row. -/
theorem layer3_bias :
    W14 (F := Ideal) m ρ c (Proc.devRef .tc main_v35) = shapeCast S1x64 (arg7 m c) shapeCasts_S64_S1x64 := by
  have h7 := arg7_at13 m ρ c
  show StableHlo.after hostOps5_1 (W13 (F := Ideal) m ρ c) (Proc.devRef .tc main_v35) = _
  generalize W13 (F := Ideal) m ρ c = V at h7 ⊢
  dsimp only [hostOps5_1]
  after_results
  rw [h7]
  rfl

theorem kernel_layer3 :
    W15 (F := Ideal) m ρ c (Proc.devRef .tc main_v36) = kAgg64 (arg1 m c) (mmScale_64_64 (W11 (F := Ideal) m ρ c (Proc.devRef .tc main_v29)) (arg6 m c) (dcol (arg1 m c))) (arg7 m c) := by
  refine (W15_arr (F := Ideal) m ρ c 3).trans ?_
  refine (region5_value (V14 (F := Ideal) m ρ) c).trans ?_
  show scaleBiasRelu_64 (W14 (F := Ideal) m ρ c (Proc.devRef .tc main_v34)) (W14 (F := Ideal) m ρ c (Proc.devRef .tc main_v15))
      (W14 (F := Ideal) m ρ c (Proc.devRef .tc main_v35)) = _
  rw [layer3_sum, layer3_bias, dcol_at14, layer3_take, layer3_product]
  generalize mmScale_64_64 (W11 (F := Ideal) m ρ c (Proc.devRef .tc main_v29)) (arg6 m c) (dcol (arg1 m c)) = hs
  generalize arg7 m c = b
  generalize arg1 m c = ei
  unfold kAgg64
  rfl

end Cert.GCN

end
-- ==== Proof.Region6.lean ====
/- Region 6: the scaled product of the third layer's output with the last weight matrix. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

/-! ## One entry of a block's product

The body multiplies a block of 5000 rows of the third layer's output (64 columns) with the whole last weight matrix
(64 by 16) and then scales row `p` of the product by the `p`-th entry of a column of 5000 numbers. Entry `(p, q)` of
what it stores is therefore `(∑ k, x0[p,k] · x1[k,q]) · x2[p,0]`: the change of number format before the product is the
identity on the extended reals, the reshapes keep the shape, and the accumulator the product starts from is zero. -/

/-- A whole-block access starts at offset zero on both axes. -/
theorem region6_off_zero : (![0, 0] : Fin 2 → Nat) = fun _ => 0 := funext fun a => by fin_cases a <;> rfl

/-- The product's left operand is read at the output's row … -/
theorem region6_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
/-- … and at the summation index as its column; -/
theorem region6_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
/-- the right operand at the summation index as its row … -/
theorem region6_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
/-- … and at the output's column. -/
theorem region6_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The product into a zero accumulator, at entry `(p, q)`: the sum over the 64 shared indices. -/
theorem region6_matmul_apply (l : FVec Ideal S5000x64 .bf16) (r : FVec Ideal S64x16 .bf16) (p : Fin 5000) (q : Fin 16) :
    matmul dot_S5000x64_S64x16_S5000x16_1_0_0_1_n_n none l r (constant (F := Ideal) S5000x16 .f32 0x00000000#32) (ix2 p q)
      = ∑ k : Fin 64, l (ix2 p k) * r (ix2 k q) := by
  refine (Ideal.matmul_constant_zero_apply dot_S5000x64_S64x16_S5000x16_1_0_0_1_n_n none l r (ix2 p q)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p q) ((contrEquiv1 dot_S5000x64_S64x16_S5000x16_1_0_0_1_n_n 64 rfl rfl).symm k) = ix2 p k := funext fun a => Fin.ext (by
    match a with
    | ⟨0, _⟩ => exact region6_lhs_0 _ _
    | ⟨1, _⟩ => exact (region6_lhs_1 _ _).trans hk)
  have er : dot_S5000x64_S64x16_S5000x16_1_0_0_1_n_n.rhsIdx (ix2 p q) ((contrEquiv1 dot_S5000x64_S64x16_S5000x16_1_0_0_1_n_n 64 rfl rfl).symm k) = ix2 k q := funext fun a => Fin.ext (by
    match a with
    | ⟨0, _⟩ => exact (region6_rhs_0 _ _).trans hk
    | ⟨1, _⟩ => exact region6_rhs_1 _ _)
  rw [el, er]

/-- A column of 5000 numbers spread over 16 columns reads, at `(p, q)`, the column's `p`-th entry. -/
theorem region6_col_apply (x : FVec Ideal S5000x1 .f32) (p : Fin 5000) (q : Fin 16) :
    broadcastTo S5000x16 x broadcasts_S5000x1_S5000x16 (ix2 p q) = x (ix2 p 0) := by
  refine broadcastTo_apply x broadcasts_S5000x1_S5000x16 (ix2 p q) (ix2 p 0) fun a => ?_
  match a with
  | ⟨0, _⟩ => rfl
  | ⟨1, _⟩ => rfl

/-- What the body stores, at entry `(p, q)`. -/
theorem region6_pay_apply (x0 : Vec Ideal S5000x64 .f32) (x1 : Vec Ideal S64x16 .f32) (x2 : Vec Ideal S5000x1 .f32) (p : Fin 5000) (q : Fin 16) :
    k6_pay1 (F := Ideal) x0 x1 x2 (ix2 p q) = (∑ k : Fin 64, x0 (ix2 p k) * x1 (ix2 k q)) * x2 (ix2 p 0) := by
  unfold k6_pay1
  refine (mulf_apply _ _ (ix2 p q)).trans ?_
  refine congrArg₂ (· * ·) ?_ ?_
  · rw [shapeCast_self]
    exact region6_matmul_apply _ _ p q
  · rw [shapeCast_self]
    exact region6_col_apply x2 p q

/-! ## From the blocks to the array

Grid point `t` (of twenty) works on rows `5000·t … 5000·t + 4999`: its block of the layer's output and of the column are
those rows, its block of the weights is the whole matrix, and the block it writes back is those rows of the result. -/

/-- The scaled product of whole arrays at entry `(n, q)`, written out. -/
theorem region6_spec_apply (H : FVec Ideal S100000x64 .f32) (W : FVec Ideal S64x16 .f32) (cc : FVec Ideal S100000x1 .f32)
    (n : Fin 100000) (q : Fin 16) :
    mmScale_64_16 H W cc (ix2 n q) = (∑ k : Fin 64, H (ix2 n k) * W (ix2 k q)) * cc (ix2 n 0) := rfl

section Blocks
variable (V : (c : Dev nD) → (b : Ref sig .tc) → Buf (Elt Ideal) ((c : Thread nD τ).loc b))

/-- Row `p` of point `t`'s block is row `5000·t + p` of the array. -/
def region6_row (t : Fin cfg6.N) (p : Fin 5000) : Fin 100000 :=
  ⟨t.val * 5000 + p.val, by have h : t.val < grid6.N := t.isLt; rw [N_6] at h; have := p.isLt; omega⟩

/-- The block numbers of the four windows at a point: the point's number on the row axis of the three row-blocked
    windows, zero everywhere else. -/
theorem region6_idx : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The layer output's block at point `t`, entry `(p, k)`: the array's entry `(5000·t + p, k)`. -/
theorem region6_read0 (c : Dev nD) (t : Fin cfg6.N) (p : Fin 5000) (k : Fin 64) :
    (iblk6 V c 0 t : Vec Ideal S5000x64 .f32) (ix2 p k) = (V c main_v36 : S100000x64.Idx → EReal) (ix2 (region6_row t p) k) := by
  obtain ⟨e0, e1, -⟩ := region6_idx t
  unfold iblk6
  rw [View.read_apply]
  show V c main_v36 _ = V c main_v36 _
  congr 1
  funext a
  apply Fin.ext
  match a with
  | ⟨0, _⟩ => show win6_0.index t (0 : Fin 2) * 5000 + 1 * p.val = t.val * 5000 + p.val; rw [e0]; omega
  | ⟨1, _⟩ => show win6_0.index t (1 : Fin 2) * 64 + 1 * k.val = k.val; rw [e1]; omega

/-- The weights' block at every point is the whole matrix. -/
theorem region6_read1 (c : Dev nD) (t : Fin cfg6.N) (k : Fin 64) (q : Fin 16) :
    (iblk6 V c 1 t : Vec Ideal S64x16 .f32) (ix2 k q) = (V c main_arg8 : S64x16.Idx → EReal) (ix2 k q) := by
  obtain ⟨-, -, e0, e1, -⟩ := region6_idx t
  unfold iblk6
  rw [View.read_apply]
  show V c main_arg8 _ = V c main_arg8 _
  congr 1
  funext a
  apply Fin.ext
  match a with
  | ⟨0, _⟩ => show win6_1.index t (0 : Fin 2) * 64 + 1 * k.val = k.val; rw [e0]; omega
  | ⟨1, _⟩ => show win6_1.index t (1 : Fin 2) * 16 + 1 * q.val = q.val; rw [e1]; omega

/-- The column's block at point `t`, entry `p`: the array's entry `5000·t + p`. -/
theorem region6_read2 (c : Dev nD) (t : Fin cfg6.N) (p : Fin 5000) :
    (iblk6 V c 2 t : Vec Ideal S5000x1 .f32) (ix2 p 0) = (V c main_v15 : S100000x1.Idx → EReal) (ix2 (region6_row t p) 0) := by
  obtain ⟨-, -, -, -, e0, e1, -⟩ := region6_idx t
  unfold iblk6
  rw [View.read_apply]
  show V c main_v15 _ = V c main_v15 _
  congr 1
  funext a
  apply Fin.ext
  match a with
  | ⟨0, _⟩ => show win6_2.index t (0 : Fin 2) * 5000 + 1 * p.val = t.val * 5000 + p.val; rw [e0]; omega
  | ⟨1, _⟩ => show win6_2.index t (1 : Fin 2) * 1 + 1 * 0 = 0; rw [e1]

/-- Entry `(p, q)` of the block point `t` writes back lies at `(5000·t + p, q)` of the result. -/
theorem region6_emb3 (t : Fin cfg6.N) (p : Fin 5000) (q : Fin 16) :
    ((cfg6.win 3).blk t).view.emb (ix2 p q) = (ix2 (region6_row t p) q : S100000x16.Idx) := by
  obtain ⟨-, -, -, -, -, -, e0, e1⟩ := region6_idx t
  funext a
  apply Fin.ext
  match a with
  | ⟨0, _⟩ => show win6_3.index t (0 : Fin 2) * 5000 + 1 * p.val = t.val * 5000 + p.val; rw [e0]; omega
  | ⟨1, _⟩ => show win6_3.index t (1 : Fin 2) * 16 + 1 * q.val = q.val; rw [e1]; omega

/-- What point `t` writes back is its block of the scaled product of the whole arrays. -/
theorem region6_flushed (c : Dev nD) (t : Fin cfg6.N) :
    (dat6 (F := Ideal) V c).flushed 3 t
      = ((cfg6.win 3).blk t).view.read (Elt Ideal) (mmScale_64_16 (V c main_v36) (V c main_arg8) (V c main_v15)) := by
  show (cfg6.win 3).cut (grid6.coords t) ((dat6 (F := Ideal) V c).after 3 t) = _
  rw [after6_3]
  unfold out6_3
  rw [View.canon_unit_zero region6_off_zero]
  simp only [View.ld_unit_zero (S := S5000x64) region6_off_zero, View.ld_unit_zero (S := S64x16) region6_off_zero,
    View.ld_unit_zero (S := S5000x1) region6_off_zero]
  funext j
  obtain ⟨p, q, rfl⟩ : ∃ (p : Fin 5000) (q : Fin 16), j = ix2 p q := ⟨j 0, j 1, eq_ix2 j⟩
  show k6_pay1 (F := Ideal) (iblk6 V c 0 t) (iblk6 V c 1 t) (iblk6 V c 2 t) (ix2 p q)
    = mmScale_64_16 (V c main_v36) (V c main_arg8) (V c main_v15) (((cfg6.win 3).blk t).view.emb (ix2 p q))
  rw [region6_emb3 t p q]
  refine (region6_pay_apply (iblk6 V c 0 t) (iblk6 V c 1 t) (iblk6 V c 2 t) p q).trans ?_
  refine Eq.trans ?_ (region6_spec_apply (V c main_v36) (V c main_arg8) (V c main_v15) (region6_row t p) q).symm
  refine congrArg₂ (· * ·) (Finset.sum_congr rfl fun k _ => congrArg₂ (· * ·) ?_ ?_) ?_
  · exact region6_read0 V c t p k
  · exact region6_read1 V c t k q
  · exact region6_read2 V c t p

/-- An index of the result lies in point `t`'s block iff each coordinate lies in the block's range on its axis. -/
theorem region6_mem_blk (t : Fin cfg6.N) (i : S100000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v37).slice (win6_3.rect t)).set ↔ _
  rw [View.set_slice_whole, Rect.mem_set_unit]
  exact Iff.rfl

/-- Row `r` of the result is written by point `r / 5000`. -/
theorem region6_cover (i : S100000x16.Idx) :
    ∃ t : Fin cfg6.N, (cfg6.win 3).flush t = true ∧ i ∈ ((cfg6.win 3).blk t).view.set := by
  have hi0 : (i 0).val < 100000 := (i 0).isLt
  have hi1 : (i 1).val < 16 := (i 1).isLt
  have hN : grid6.N = 20 := N_6
  let t : Fin cfg6.N := ⟨(i 0).val / 5000, by show (i 0).val / 5000 < grid6.N; rw [hN]; omega⟩
  have ht : t.val = (i 0).val / 5000 := rfl
  obtain ⟨-, -, -, -, -, -, e0, e1⟩ := region6_idx t
  refine ⟨t, flush6_3 t, ?_⟩
  rw [region6_mem_blk]
  intro a
  match a with
  | ⟨0, _⟩ => show win6_3.index t (0 : Fin 2) * 5000 ≤ (i 0).val ∧ (i 0).val < win6_3.index t (0 : Fin 2) * 5000 + 5000; rw [e0, ht]; omega
  | ⟨1, _⟩ => show win6_3.index t (1 : Fin 2) * 16 ≤ (i 1).val ∧ (i 1).val < win6_3.index t (1 : Fin 2) * 16 + 16; rw [e1]; omega

end Blocks

/-- The result array after the region: the scaled product of the whole argument arrays. -/
theorem region6_value (V : (c : Dev nD) → (b : Ref sig .tc) → Buf (Elt Ideal) ((c : Thread nD τ).loc b)) (c : Dev nD) :
    (dat6 (F := Ideal) V c).arrAt 3 cfg6.N = mmScale_64_16 (V c main_v36) (V c main_arg8) (V c main_v15) :=
  (dat6 (F := Ideal) V c).arrAt_eq_of_cover 3 (mmScale_64_16 (V c main_v36) (V c main_arg8) (V c main_v15))
    (fun t _ => region6_flushed V c t) region6_cover

end Cert.GCN

end
-- ==== Proof.Region7.lean ====
/- Region 7: the last layer's summed rows scaled and the bias added. Every grid point writes one block of 5000 rows of the output array, the same function of the
   arguments' rows at those 5000 row numbers; the twenty blocks tile the array, so the array ends at that function of
   the whole argument arrays. -/
import proofs.«430215_j31516470018049_1_alg».proof.Proof.Spec
import proofs.«430215_j31516470018049_1_alg».proof.Proof.Gen.KernelIdeal.Frame
import Idealize.ShloMosaic.Lib.Pipeline.Value
import Idealize.ShloMosaic.Lib.ValueLayout

noncomputable section

namespace Cert.GCN

open Idealize.ShloMosaic Idealize.ShloMosaic.TcCoe Idealize.ShloMosaic.ValueIdx Idealize.SL.Sem
open Cert.KernelIdeal Cert.KernelIdeal.Gen

/-- The zero offsets of a whole-block load or store, as the constant function. -/
theorem region7_zero_off : (![0, 0] : Fin 2 → Nat) = fun _ => 0 := funext fun a => by fin_cases a <;> rfl

/-- A column `[a, 1]` broadcast to `[a, b]` reads, at `(p, q)`, the column's entry of row `p`. -/
theorem region7_col_bcast {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at entry `(p, q)` of its block: the row's entry times the column's entry of that row,
    plus the bias row's entry of that feature. -/
theorem region7_pay_apply (x0 : Vec Ideal S5000x16 .f32) (x1 : Vec Ideal S5000x1 .f32) (x2 : Vec Ideal S1x16 .f32)
    (p : Fin 5000) (q : Fin 16) :
    k7_pay1 (F := Ideal) x0 x1 x2 (ix2 p q)
      = x0 (ix2 p q) * x1 (ix2 p (0 : Fin 1)) + x2 (ix2 (0 : Fin 1) q) := by
  unfold k7_pay1
  rw [addf_apply, mulf_apply, shapeCast_self, shapeCast_self, shapeCast_self]
  rw [region7_col_bcast x1 broadcasts_S5000x1_S5000x16 p q, broadcastTo_1b_ab_apply x2 broadcasts_S1x16_S5000x16 p q]

/-- The body's result at entry `y` of its block is the layer's function of the whole arrays at entry `i`, once the three
    loaded blocks are known to be those arrays' rows: block `n` of the summed rows and of the column (row `n * 5000 + p` of
    the array is row `p` of the block), and the bias row whole. -/
theorem region7_point (A : FVec Ideal S100000x16 .f32) (cc : FVec Ideal S100000x1 .f32) (b : FVec Ideal S1x16 .f32)
    (x0 : Vec Ideal S5000x16 .f32) (x1 : Vec Ideal S5000x1 .f32) (x2 : Vec Ideal S1x16 .f32) (n : ℕ)
    (h0 : ∀ (y : S5000x16.Idx) (i : S100000x16.Idx), (i 0).val = n * 5000 + (y 0).val → (i 1).val = (y 1).val → x0 y = A i)
    (h1 : ∀ (y : S5000x1.Idx) (i : S100000x1.Idx), (i 0).val = n * 5000 + (y 0).val → x1 y = cc i)
    (h2 : ∀ y : S1x16.Idx, x2 y = b y)
    (y : S5000x16.Idx) (i : S100000x16.Idx) (hi0 : (i 0).val = n * 5000 + (y 0).val) (hi1 : (i 1).val = (y 1).val) :
    k7_pay1 (F := Ideal) x0 x1 x2 y = scaleBias_16 A cc b i := by
  obtain ⟨p, q, rfl⟩ : ∃ (p : Fin 5000) (q : Fin 16), y = ix2 p q := ⟨y 0, y 1, eq_ix2 y⟩
  obtain ⟨r, q', rfl⟩ : ∃ (r : Fin 100000) (q' : Fin 16), i = ix2 r q' := ⟨i 0, i 1, eq_ix2 i⟩
  obtain rfl : q = q' := (Fin.ext hi1).symm
  rw [region7_pay_apply, h0 (ix2 p q) (ix2 r q) hi0 rfl, h1 (ix2 p (0 : Fin 1)) (ix2 r (0 : Fin 1)) hi0, h2]
  rfl

/-- The printed index maps over the twenty grid points: the row windows sit at block `t`, the bias row's window at its
    one block. -/
theorem region7_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

section Blocks
variable (V : (c : Dev nD) → (b : Ref sig .tc) → Buf (Elt Ideal) ((c : Thread nD τ).loc b)) (c : Dev nD)

/-- Window 0's block at point `t` is rows `5000 t … 5000 t + 4999` of the summed rows. -/
theorem region7_read0 (t : Fin cfg7.N) (y : S5000x16.Idx) (i : S100000x16.Idx)
    (hi0 : (i 0).val = t.val * 5000 + (y 0).val) (hi1 : (i 1).val = (y 1).val) :
    (iblk7 V c 0 t : Vec Ideal S5000x16 .f32) y = (V c main_v41 : S100000x16.Idx → Elt Ideal .f32) i := by
  obtain ⟨e0, e1, -⟩ := region7_idx t
  unfold iblk7
  rw [View.read_apply]
  show V c main_v41 _ = V c main_v41 _
  congr 1
  funext a
  apply Fin.ext
  match a with
  | ⟨0, _⟩ => show win7_0.index t (0 : Fin 2) * 5000 + 1 * (y 0).val = (i 0).val; rw [e0, hi0]; omega
  | ⟨1, _⟩ => show win7_0.index t (1 : Fin 2) * 16 + 1 * (y 1).val = (i 1).val; rw [e1, hi1]; omega

/-- Window 1's block at point `t` is the same rows of the column. -/
theorem region7_read1 (t : Fin cfg7.N) (y : S5000x1.Idx) (i : S100000x1.Idx)
    (hi0 : (i 0).val = t.val * 5000 + (y 0).val) :
    (iblk7 V c 1 t : Vec Ideal S5000x1 .f32) y = (V c main_v15 : S100000x1.Idx → Elt Ideal .f32) i := by
  obtain ⟨-, -, e0, e1, -⟩ := region7_idx t
  unfold iblk7
  rw [View.read_apply]
  show V c main_v15 _ = V c main_v15 _
  congr 1
  funext a
  apply Fin.ext
  match a with
  | ⟨0, _⟩ => show win7_1.index t (0 : Fin 2) * 5000 + 1 * (y 0).val = (i 0).val; rw [e0, hi0]; omega
  | ⟨1, _⟩ =>
    show win7_1.index t (1 : Fin 2) * 1 + 1 * (y 1).val = (i 1).val
    have hy : (y 1).val < 1 := (y 1).isLt
    have hi : (i 1).val < 1 := (i 1).isLt
    rw [e1]; omega

/-- Window 2's block at every point is the bias row. -/
theorem region7_read2 (t : Fin cfg7.N) (y : S1x16.Idx) :
    (iblk7 V c 2 t : Vec Ideal S1x16 .f32) y = (V c main_v42 : S1x16.Idx → Elt Ideal .f32) y := by
  obtain ⟨-, -, -, -, e0, e1, -⟩ := region7_idx t
  unfold iblk7
  rw [View.read_apply]
  show V c main_v42 _ = V c main_v42 _
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 16 + 1 * (y 1).val = (y 1).val; rw [e1]; omega

/-- What point `t` writes back is block `t` of the layer's function of the whole arrays. -/
theorem region7_flushed (t : Fin cfg7.N) :
    (dat7 (F := Ideal) V c).flushed 3 t
      = ((cfg7.win 3).blk t).view.read (Elt Ideal) (scaleBias_16 (V c main_v41) (V c main_v15) (V c main_v42)) := by
  show (cfg7.win 3).cut (grid7.coords t) ((dat7 V c).after 3 t) = _
  rw [after7_3]
  unfold out7_3
  rw [View.canon_unit_zero region7_zero_off]
  simp only [View.ld_unit_zero (S := S5000x16) region7_zero_off, View.ld_unit_zero (S := S5000x1) region7_zero_off,
    View.ld_unit_zero (S := S1x16) region7_zero_off]
  obtain ⟨-, -, -, -, -, -, e0, e1⟩ := region7_idx t
  funext j
  show k7_pay1 (F := Ideal) (iblk7 V c 0 t) (iblk7 V c 1 t) (iblk7 V c 2 t) (win7_3.xinj (grid7.coords t) j)
    = scaleBias_16 (V c main_v41) (V c main_v15) (V c main_v42) (((cfg7.win 3).blk t).view.emb j)
  refine region7_point (V c main_v41) (V c main_v15) (V c main_v42) (iblk7 V c 0 t) (iblk7 V c 1 t) (iblk7 V c 2 t) t.val
    (region7_read0 V c t) (region7_read1 V c t) (region7_read2 V c t)
    (win7_3.xinj (grid7.coords t) j) (((cfg7.win 3).blk t).view.emb j) ?_ ?_
  · show win7_3.index t (0 : Fin 2) * 5000 + 1 * (j 0).val = t.val * 5000 + (j 0).val
    rw [e0]; omega
  · show win7_3.index t (1 : Fin 2) * 16 + 1 * (j 1).val = (j 1).val
    rw [e1]; omega

end Blocks

/-- An entry of the output array is in point `t`'s block iff each coordinate is in the block's range on its axis. -/
theorem region7_mem_blk (t : Fin cfg7.N) (i : S100000x16.Idx) :
    i ∈ ((cfg7.win 3).blk t).view.set
      ↔ ∀ a : Fin 2, win7_3.index t a * S5000x16.size a ≤ (i a).val
          ∧ (i a).val < win7_3.index t a * S5000x16.size a + S5000x16.size a := by
  show i ∈ ((View.whole main_v43).slice (win7_3.rect t)).set ↔ _
  rw [View.set_slice_whole, Rect.mem_set_unit]
  exact Iff.rfl

/-- Row `r` of the output array is written by point `r / 5000`: the twenty blocks tile the array. -/
theorem region7_cover (i : S100000x16.Idx) :
    ∃ t : Fin cfg7.N, (cfg7.win 3).flush t = true ∧ i ∈ ((cfg7.win 3).blk t).view.set := by
  have hi0 : (i 0).val < 100000 := (i 0).isLt
  have hi1 : (i 1).val < 16 := (i 1).isLt
  have hN : grid7.N = 20 := N_7
  have ht : (i 0).val / 5000 < cfg7.N := by show (i 0).val / 5000 < grid7.N; rw [hN]; omega
  obtain ⟨-, -, -, -, -, -, e0, e1⟩ := region7_idx ⟨(i 0).val / 5000, ht⟩
  refine ⟨⟨(i 0).val / 5000, ht⟩, flush7_3 _, ?_⟩
  rw [region7_mem_blk]
  intro a
  match a with
  | ⟨0, _⟩ =>
    show win7_3.index ⟨(i 0).val / 5000, ht⟩ (0 : Fin 2) * 5000 ≤ (i 0).val
      ∧ (i 0).val < win7_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win7_3.index ⟨(i 0).val / 5000, ht⟩ (1 : Fin 2) * 16 ≤ (i 1).val
      ∧ (i 1).val < win7_3.index ⟨(i 0).val / 5000, ht⟩ (1 : Fin 2) * 16 + 16
    rw [e1]; omega

theorem region7_value (V : (c : Dev nD) → (b : Ref sig .tc) → Buf (Elt Ideal) ((c : Thread nD τ).loc b)) (c : Dev nD) :
    (dat7 (F := Ideal) V c).arrAt 3 cfg7.N = scaleBias_16 (V c main_v41) (V c main_v15) (V c main_v42) :=
  (dat7 (F := Ideal) V c).arrAt_eq_of_cover 3 (scaleBias_16 (V c main_v41) (V c main_v15) (V c main_v42))
    (fun t _ => region7_flushed V c t) region7_cover

end Cert.GCN

end
-- ==== Proof.KLayer4.lean ====
/- Layer 4 of the kernel's program, from the buffers as layer 4 finds them to the buffer it leaves: the product
   region's output array, the gather of its rows and their sum into destination rows on the host, and the second
   region's output array, each read off the boundary contents of @main. -/
import proofs.«430215_j31516470018049_1_alg».proof.Proof.KBase
import proofs.«430215_j31516470018049_1_alg».proof.Proof.Region6
import proofs.«430215_j31516470018049_1_alg».proof.Proof.Region7
import Idealize.ShloMosaic.Lib.StableHlo.Run

noncomputable section

namespace Cert.GCN

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- Storing a value at a typed reference and reading it back is the identity (the two transports along the
    reference's type equation cancel). -/
private theorem ofBuf_toBuf {T : BufTy} (x : StableHlo.TRef sig T) (v : T.Contents (Elt Ideal)) :
    x.ofBuf (x.toBuf v) = v := by
  obtain ⟨r, h, h2, h3⟩ := x
  subst h
  rfl

/-- At a reference typed by its own buffer type the transport is the identity. -/
private theorem ofBuf_self (r : Ref sig .tc) (h2 : r.space ≠ .host) (h3 : r.isScoped = false) (v : r.ty.Contents (Elt Ideal)) :
    (StableHlo.TRef.of r rfl h2 h3).ofBuf v = v := rfl

private theorem toBuf_self (r : Ref sig .tc) (h2 : r.space ≠ .host) (h3 : r.isScoped = false) (v : r.ty.Contents (Elt Ideal)) :
    (StableHlo.TRef.of r rfl h2 h3).toBuf v = v := rfl

/-- The product region leaves its output array at the scaled product of the third layer's output (as the
    region finds it) with the last weight matrix, the rows scaled by the normaliser column. -/
theorem layer4_product :
    W16 (F := Ideal) m ρ c (Proc.devRef .tc main_v37)
      = mmScale_64_16 (W15 (F := Ideal) m ρ c (Proc.devRef .tc main_v36)) (arg8 m c) (dcol (arg1 m c)) := by
  refine (W16_arr (F := Ideal) m ρ c 3).trans ?_
  refine (region6_value (V15 (F := Ideal) m ρ) c).trans ?_
  show mmScale_64_16 (W15 (F := Ideal) m ρ c (Proc.devRef .tc main_v36)) (W15 (F := Ideal) m ρ c (Proc.devRef .tc main_arg8))
      (W15 (F := Ideal) m ρ c (Proc.devRef .tc main_v15)) = _
  rw [arg8_at15, dcol_at15]

/-- The host's gather: the rows of the product array that the edges' sources name, the fill pattern where a
    source names no node. The stretch's operations are, one for one, those of the three definitions `srcIdx2`,
    `takeMask` and `take16` over the source array. -/
theorem layer4_take :
    W17 (F := Ideal) m ρ c (Proc.devRef .tc main_v38)
      = take16 (W16 (F := Ideal) m ρ c (Proc.devRef .tc main_v37)) (arg1 m c) := by
  have hs := src_at16 m ρ c
  dsimp only [W17, hostOps7]
  after_results_simp
  simp only [ofBuf_toBuf]
  rw [toBuf_self main_v38, ofBuf_self main_v3, ofBuf_self main_v37, hs]
  generalize W16 (F := Ideal) m ρ c (Proc.devRef .tc main_v37) = hs16
  generalize arg1 m c = ei
  unfold take16 takeMask srcIdx2
  rfl

/-- The gathered rows summed into their destination rows, from an array of zeros. -/
theorem layer4_sum :
    W18 (F := Ideal) m ρ c (Proc.devRef .tc main_v41)
      = Host.scatterAdd scatter_S100000x16_S1700000x1_S1700000x16_1_0_0_1
          (broadcastInDim S100000x16 ![] bcast_S_S100000x16 (constant (F := Ideal) S_ .f32 0x00000000#32))
          (broadcastInDim S1700000x1 ![0] bcast_S1700000_S1700000x1_0 (dstV (arg1 m c)))
          (W17 (F := Ideal) m ρ c (Proc.devRef .tc main_v38)) := by
  have hd := dst_at17 m ρ c
  show StableHlo.after hostOps7_1 (W17 (F := Ideal) m ρ c) (Proc.devRef .tc main_v41) = _
  generalize W17 (F := Ideal) m ρ c = V at hd ⊢
  dsimp only [hostOps7_1]
  after_results
  rw [hd]

/-- The bias as a row. -/
theorem layer4_bias :
    W18 (F := Ideal) m ρ c (Proc.devRef .tc main_v42) = shapeCast S1x16 (arg9 m c) shapeCasts_S16_S1x16 := by
  have h9 := arg9_at17 m ρ c
  show StableHlo.after hostOps7_1 (W17 (F := Ideal) m ρ c) (Proc.devRef .tc main_v42) = _
  generalize W17 (F := Ideal) m ρ c = V at h9 ⊢
  dsimp only [hostOps7_1]
  after_results
  rw [h9]
  rfl

theorem kernel_layer4 :
    W19 (F := Ideal) m ρ c (Proc.devRef .tc main_v43) = kAgg16 (arg1 m c) (mmScale_64_16 (W15 (F := Ideal) m ρ c (Proc.devRef .tc main_v36)) (arg8 m c) (dcol (arg1 m c))) (arg9 m c) := by
  refine (W19_arr (F := Ideal) m ρ c 3).trans ?_
  refine (region7_value (V18 (F := Ideal) m ρ) c).trans ?_
  show scaleBias_16 (W18 (F := Ideal) m ρ c (Proc.devRef .tc main_v41)) (W18 (F := Ideal) m ρ c (Proc.devRef .tc main_v15))
      (W18 (F := Ideal) m ρ c (Proc.devRef .tc main_v42)) = _
  rw [layer4_sum, layer4_bias, dcol_at18, layer4_take, layer4_product]
  generalize mmScale_64_16 (W15 (F := Ideal) m ρ c (Proc.devRef .tc main_v36)) (arg8 m c) (dcol (arg1 m c)) = hs
  generalize arg9 m c = b
  generalize arg1 m c = ei
  unfold kAgg16
  rfl

end Cert.GCN

end
-- ==== Proof.MatMul.lean ====
/- The scaled product, entry by entry, is the reference's matrix product times the normaliser: the host's product of
   `H` and `W` at `(n, f)` is the sum over the one contracted axis of `H[n,k] · W[k,f]`. -/
import proofs.«430215_j31516470018049_1_alg».proof.Proof.Spec

noncomputable section

namespace Cert.GCN

open Idealize.ShloMosaic Idealize.ShloMosaic.TcCoe Idealize.ShloMosaic.ValueIdx Idealize.SL.Sem

section HostProduct
open Cert.ReferenceIdeal Cert.ReferenceIdeal.ReadP

/-- The host's 128 → 64 product at `(n, f)`: the contraction index runs over the one shared axis, so the sum is over
    `k < 128` of `H[n,k] · W[k,f]`. -/
theorem hostDot_128_64_apply (H : FVec Ideal S100000x128 .f32) (W : FVec Ideal S128x64 .f32) (i : S100000x64.Idx) :
    Host.dotGeneral (F := Ideal) dot_S100000x128_S128x64_S100000x64_1_0_0_1_n_n none H W i
      = ∑ k : Fin 128, H (ix2 (i 0) k) * W (ix2 k (i 1)) := by
  have hl : ∀ k : Fin 128, lidx_main_v30 i k = ix2 (i 0) k := fun k => by
    funext a
    match a with
    | ⟨0, _⟩ => rfl
    | ⟨1, _⟩ => rfl
  have hr : ∀ k : Fin 128, ridx_main_v30 i k = ix2 k (i 1) := fun k => by
    funext a
    match a with
    | ⟨0, _⟩ => rfl
    | ⟨1, _⟩ => rfl
  have e := val_main_v30_apply H W i
  simp only [hl, hr] at e
  exact e

/-- The 64 → 64 product at `(n, f)`, for any left operand. The contraction shape has one axis of extent 64; a
    contraction index is its one coordinate, and the operand indices have the output's row (column) on the free axis
    and that coordinate on the shared one. -/
theorem hostDot_64_64_apply (H : FVec Ideal S100000x64 .f32) (W : FVec Ideal S64x64 .f32) (i : S100000x64.Idx) :
    Host.dotGeneral (F := Ideal) dot_S100000x64_S64x64_S100000x64_1_0_0_1_n_n none H W i
      = ∑ k : Fin 64, H (ix2 (i 0) k) * W (ix2 k (i 1)) := by
  simp only [Host.dotGeneral]
  rw [Ideal.dotGeneral_apply,
    ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have hl : dot_S100000x64_S64x64_S100000x64_1_0_0_1_n_n.lhsIdx i
      ((contrEquiv1 dot_S100000x64_S64x64_S100000x64_1_0_0_1_n_n 64 rfl rfl).symm k) = ix2 (i 0) k := by
    funext a
    match a with
    | ⟨0, _⟩ => exact Fin.ext (lhs_main_v48_0 i _)
    | ⟨1, _⟩ => exact Fin.ext ((lhs_main_v48_1 i _).trans hk)
  have hr : dot_S100000x64_S64x64_S100000x64_1_0_0_1_n_n.rhsIdx i
      ((contrEquiv1 dot_S100000x64_S64x64_S100000x64_1_0_0_1_n_n 64 rfl rfl).symm k) = ix2 k (i 1) := by
    funext a
    match a with
    | ⟨0, _⟩ => exact Fin.ext ((rhs_main_v48_0 i _).trans hk)
    | ⟨1, _⟩ => exact Fin.ext (rhs_main_v48_1 i _)
  rw [hl, hr]
  rfl

/-- The 64 → 16 product at `(n, f)`, the same way. -/
theorem hostDot_64_16_apply (H : FVec Ideal S100000x64 .f32) (W : FVec Ideal S64x16 .f32) (i : S100000x16.Idx) :
    Host.dotGeneral (F := Ideal) dot_S100000x64_S64x16_S100000x16_1_0_0_1_n_n none H W i
      = ∑ k : Fin 64, H (ix2 (i 0) k) * W (ix2 k (i 1)) := by
  simp only [Host.dotGeneral]
  rw [Ideal.dotGeneral_apply,
    ← Equiv.sum_comp (contrEquiv1 dot_S100000x64_S64x16_S100000x16_1_0_0_1_n_n 64 rfl rfl).symm]
  refine Finset.sum_congr rfl fun k _ => ?_
  have hk := contrEquiv1_symm_val dot_S100000x64_S64x16_S100000x16_1_0_0_1_n_n 64 rfl rfl k
  have hl : dot_S100000x64_S64x16_S100000x16_1_0_0_1_n_n.lhsIdx i
      ((contrEquiv1 dot_S100000x64_S64x16_S100000x16_1_0_0_1_n_n 64 rfl rfl).symm k) = ix2 (i 0) k := by
    funext a
    match a with
    | ⟨0, _⟩ => exact Fin.ext (lhs_main_v84_0 i _)
    | ⟨1, _⟩ => exact Fin.ext ((lhs_main_v84_1 i _).trans hk)
  have hr : dot_S100000x64_S64x16_S100000x16_1_0_0_1_n_n.rhsIdx i
      ((contrEquiv1 dot_S100000x64_S64x16_S100000x16_1_0_0_1_n_n 64 rfl rfl).symm k) = ix2 k (i 1) := by
    funext a
    match a with
    | ⟨0, _⟩ => exact Fin.ext ((rhs_main_v84_0 i _).trans hk)
    | ⟨1, _⟩ => exact Fin.ext (rhs_main_v84_1 i _)
  rw [hl, hr]
  rfl

end HostProduct

theorem mmScale_128_64_eq (H : FVec Ideal Cert.KernelIdeal.S100000x128 .f32) (W : FVec Ideal Cert.KernelIdeal.S128x64 .f32) (cc : FVec Ideal Cert.KernelIdeal.S100000x1 .f32) :
    mmScale_128_64 H W cc = fun i => (Host.dotGeneral (F := Ideal) Cert.ReferenceIdeal.dot_S100000x128_S128x64_S100000x64_1_0_0_1_n_n none H W) i * cc (ix2 (i 0) 0) := by
  funext i
  exact congrArg (· * cc (ix2 (i 0) 0)) (hostDot_128_64_apply H W i).symm

theorem mmScale_64_64_eq (H : FVec Ideal Cert.KernelIdeal.S100000x64 .f32) (W : FVec Ideal Cert.KernelIdeal.S64x64 .f32) (cc : FVec Ideal Cert.KernelIdeal.S100000x1 .f32) :
    mmScale_64_64 H W cc = fun i => (Host.dotGeneral (F := Ideal) Cert.ReferenceIdeal.dot_S100000x64_S64x64_S100000x64_1_0_0_1_n_n none H W) i * cc (ix2 (i 0) 0) := by
  funext i
  exact congrArg (· * cc (ix2 (i 0) 0)) (hostDot_64_64_apply H W i).symm

theorem mmScale_64_16_eq (H : FVec Ideal Cert.KernelIdeal.S100000x64 .f32) (W : FVec Ideal Cert.KernelIdeal.S64x16 .f32) (cc : FVec Ideal Cert.KernelIdeal.S100000x1 .f32) :
    mmScale_64_16 H W cc = fun i => (Host.dotGeneral (F := Ideal) Cert.ReferenceIdeal.dot_S100000x64_S64x16_S100000x16_1_0_0_1_n_n none H W) i * cc (ix2 (i 0) 0) := by
  funext i
  exact congrArg (· * cc (ix2 (i 0) 0)) (hostDot_64_16_apply H W i).symm

end Cert.GCN

end
-- ==== Proof.Idx.lean ====
/- Which rows the gathers read. A start index that names a node passes the kernel's mask; and the row a two-axis gather
   reads for edge `e` is the element the one-axis gather reads for `e` from the same start indices (both clamp the
   same signed word against the same row count), the feature coordinate passing through unchanged. -/
import proofs.«430215_j31516470018049_1_alg».proof.Proof.Spec
import Idealize.ShloMosaic.Lib.Affine
import Idealize.ShloMosaic.PureOps.Reduce

noncomputable section

namespace Cert.GCN

open Idealize.ShloMosaic Idealize.ShloMosaic.TcCoe Idealize.ShloMosaic.ValueIdx Idealize.SL.Sem

namespace IdxAux

/-- A fold by `and` over one-bit words that starts at 1 and meets only 1s is 1. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- The kernel's start indices are the array the reference gathers the normaliser with: the same operations on the sources. -/
theorem srcIdx2_eq (ei : IVec Cert.KernelIdeal.S2x1600000 32) :
    srcIdx2 ei = Cert.ReferenceIdeal.ReadP.val_main_v20 (F := Ideal) ei := rfl

open Cert.ReferenceIdeal.ReadP in
/-- A start index is the source itself when the source names a node (the wrap-around of negative sources does not fire). -/
theorem srcIdx2_apply_of_inRange (ei : IVec Cert.KernelIdeal.S2x1600000 32) (h : SrcInRange ei) (i : Cert.KernelIdeal.S1700000x1.Idx) :
    srcIdx2 ei i = val_main_v3 (F := Ideal) ei (idx_main_v20 i) := by
  rw [srcIdx2_eq, val_main_v20_apply, val_main_v19_apply, val_main_v16_apply, val_main_v15_apply, val_main_c_apply]
  have hv := (h (idx_main_v20 i)).1
  have hc : IntOp.cmpi .slt (val_main_v3 (F := Ideal) ei (idx_main_v20 i)) 0#32 = 0#1 := by
    apply eq_zero_of_ne_one
    rw [IntOp.cmpi_slt]
    have h0 : (0#32 : BitVec 32).toInt = 0 := by decide
    rw [h0]
    exact not_lt.mpr hv
  rw [hc, select_zero]

/-- The 64-wide gather's row: the start index read signed at row `j 0` of the column, clamped to the last row of the operand. -/
theorem gather64_row_val (idx : IVec Cert.KernelIdeal.S1700000x1 32) (j : Cert.KernelIdeal.S1700000x64.Idx) :
    (Cert.KernelIdeal.gather_S100000x64_S1700000x1_S1700000x64_1_0_n_n_0_1_164.operandIdx j idx 0).val
      = min (idx (ix2 ⟨(j 0).val, (j 0).isLt⟩ 0)).toInt.toNat 99999 := by
  show Cert.KernelIdeal.gather_S100000x64_S1700000x1_S1700000x64_1_0_n_n_0_1_164.start j idx 0
      + Cert.KernelIdeal.gather_S100000x64_S1700000x1_S1700000x64_1_0_n_n_0_1_164.batchCoord j 0
      + Cert.KernelIdeal.gather_S100000x64_S1700000x1_S1700000x64_1_0_n_n_0_1_164.offCoord j 0 = _
  rw [GatherDims.batchCoord_eq_zero _ _ _ (by decide), GatherDims.offCoord_eq_zero _ _ _ (by decide), Nat.add_zero]
  unfold GatherDims.start
  rw [dif_pos (by decide)]
  show min (idx _).toInt.toNat 99999 = _
  congr 3
  congr 1
  funext b
  match b with
  | ⟨0, _⟩ =>
    unfold GatherDims.siIdx
    rw [dif_neg (by show ¬ (0 : Nat) = 1; decide)]
    unfold GatherDims.siCoord
    apply Fin.ext
    simp only [Fin.val_cast]
    rfl
  | ⟨1, _⟩ =>
    unfold GatherDims.siIdx
    rw [dif_pos (by show (1 : Nat) = 1; rfl)]
    apply Fin.ext
    rfl

/-- The 16-wide gather's row: the start index read signed at row `j 0` of the column, clamped to the last row of the operand. -/
theorem gather16_row_val (idx : IVec Cert.KernelIdeal.S1700000x1 32) (j : Cert.KernelIdeal.S1700000x16.Idx) :
    (Cert.KernelIdeal.gather_S100000x16_S1700000x1_S1700000x16_1_0_n_n_0_1_116.operandIdx j idx 0).val
      = min (idx (ix2 ⟨(j 0).val, (j 0).isLt⟩ 0)).toInt.toNat 99999 := by
  show Cert.KernelIdeal.gather_S100000x16_S1700000x1_S1700000x16_1_0_n_n_0_1_116.start j idx 0
      + Cert.KernelIdeal.gather_S100000x16_S1700000x1_S1700000x16_1_0_n_n_0_1_116.batchCoord j 0
      + Cert.KernelIdeal.gather_S100000x16_S1700000x1_S1700000x16_1_0_n_n_0_1_116.offCoord j 0 = _
  rw [GatherDims.batchCoord_eq_zero _ _ _ (by decide), GatherDims.offCoord_eq_zero _ _ _ (by decide), Nat.add_zero]
  unfold GatherDims.start
  rw [dif_pos (by decide)]
  show min (idx _).toInt.toNat 99999 = _
  congr 3
  congr 1
  funext b
  match b with
  | ⟨0, _⟩ =>
    unfold GatherDims.siIdx
    rw [dif_neg (by show ¬ (0 : Nat) = 1; decide)]
    unfold GatherDims.siCoord
    apply Fin.ext
    simp only [Fin.val_cast]
    rfl
  | ⟨1, _⟩ =>
    unfold GatherDims.siIdx
    rw [dif_pos (by show (1 : Nat) = 1; rfl)]
    apply Fin.ext
    rfl

/-- The one-axis gather's element: the same start index, read signed at row `j 0` and clamped to the last element. -/
theorem gather1_row_val (idx : IVec Cert.ReferenceIdeal.S1700000x1 32) (j : Cert.ReferenceIdeal.S1700000.Idx) :
    (Cert.ReferenceIdeal.gather_S100000_S1700000x1_S1700000_n_0_n_n_0_1_1.operandIdx j idx 0).val
      = min (idx (ix2 ⟨(j 0).val, (j 0).isLt⟩ 0)).toInt.toNat 99999 := by
  show Cert.ReferenceIdeal.gather_S100000_S1700000x1_S1700000_n_0_n_n_0_1_1.start j idx 0
      + Cert.ReferenceIdeal.gather_S100000_S1700000x1_S1700000_n_0_n_n_0_1_1.batchCoord j 0
      + Cert.ReferenceIdeal.gather_S100000_S1700000x1_S1700000_n_0_n_n_0_1_1.offCoord j 0 = _
  rw [GatherDims.batchCoord_eq_zero _ _ _ (by decide), GatherDims.offCoord_eq_zero _ _ _ (by decide), Nat.add_zero]
  unfold GatherDims.start
  rw [dif_pos (by decide)]
  show min (idx _).toInt.toNat 99999 = _
  congr 3
  congr 1
  funext b
  match b with
  | ⟨0, _⟩ =>
    unfold GatherDims.siIdx
    rw [dif_neg (by show ¬ (0 : Nat) = 1; decide)]
    unfold GatherDims.siCoord
    apply Fin.ext
    simp only [Fin.val_cast]
    rfl
  | ⟨1, _⟩ =>
    unfold GatherDims.siIdx
    rw [dif_pos (by show (1 : Nat) = 1; rfl)]
    apply Fin.ext
    rfl

end IdxAux

open IdxAux

open Cert.ReferenceIdeal.ReadP in
/-- With every source naming a node, the kernel's mask is set on every edge. -/
theorem takeMask_eq_one (ei : IVec Cert.KernelIdeal.S2x1600000 32) (h : SrcInRange ei) (e : Cert.KernelIdeal.S1700000.Idx) : takeMask ei e = 1#1 := by
  unfold takeMask
  rw [Host.reduce_eq_fold]
  refine fold_andi_one _ _ fun i _ => ?_
  show IntOp.andi (IntOp.cmpi .sge (srcIdx2 ei i) 0#32) (IntOp.cmpi .sle (srcIdx2 ei i) 99999#32) = 1#1
  rw [srcIdx2_apply_of_inRange ei h i]
  obtain ⟨h0, h1⟩ := h (idx_main_v20 i)
  rw [IntOp.andi_eq_one, IntOp.cmpi_sge, IntOp.cmpi_sle]
  have z0 : (0#32 : BitVec 32).toInt = 0 := by decide
  have z1 : (99999#32 : BitVec 32).toInt = 99999 := by decide
  rw [z0, z1]
  exact ⟨h0, by omega⟩

/-- The row the kernel's 64-wide gather reads for `j = (e, f)` is the element the reference's gather of the normaliser
    reads for `e`. -/
theorem gather64_row (ei : IVec Cert.KernelIdeal.S2x1600000 32) (j : Cert.KernelIdeal.S1700000x64.Idx) :
    (Cert.KernelIdeal.gather_S100000x64_S1700000x1_S1700000x64_1_0_n_n_0_1_164.operandIdx j (srcIdx2 ei) 0).val
      = (Cert.ReferenceIdeal.gather_S100000_S1700000x1_S1700000_n_0_n_n_0_1_1.operandIdx (ix1 (j 0)) (Cert.ReferenceIdeal.ReadP.val_main_v20 (F := Ideal) ei) 0).val := by
  rw [gather64_row_val, gather1_row_val, srcIdx2_eq]

/-- The same for the 16-wide gather. -/
theorem gather16_row (ei : IVec Cert.KernelIdeal.S2x1600000 32) (j : Cert.KernelIdeal.S1700000x16.Idx) :
    (Cert.KernelIdeal.gather_S100000x16_S1700000x1_S1700000x16_1_0_n_n_0_1_116.operandIdx j (srcIdx2 ei) 0).val
      = (Cert.ReferenceIdeal.gather_S100000_S1700000x1_S1700000_n_0_n_n_0_1_1.operandIdx (ix1 (j 0)) (Cert.ReferenceIdeal.ReadP.val_main_v20 (F := Ideal) ei) 0).val := by
  rw [gather16_row_val, gather1_row_val, srcIdx2_eq]

/-- The feature coordinate passes through the 64-wide gather. -/
theorem gather64_col (ei : IVec Cert.KernelIdeal.S2x1600000 32) (j : Cert.KernelIdeal.S1700000x64.Idx) :
    (Cert.KernelIdeal.gather_S100000x64_S1700000x1_S1700000x64_1_0_n_n_0_1_164.operandIdx j (srcIdx2 ei) 1).val = (j 1).val := by
  show Cert.KernelIdeal.gather_S100000x64_S1700000x1_S1700000x64_1_0_n_n_0_1_164.start j (srcIdx2 ei) 1
      + Cert.KernelIdeal.gather_S100000x64_S1700000x1_S1700000x64_1_0_n_n_0_1_164.batchCoord j 1
      + Cert.KernelIdeal.gather_S100000x64_S1700000x1_S1700000x64_1_0_n_n_0_1_164.offCoord j 1 = _
  rw [GatherDims.batchCoord_eq_zero _ _ _ (by decide), Nat.add_zero]
  unfold GatherDims.start GatherDims.offCoord
  rw [dif_neg (by decide), dif_pos (by decide), Nat.zero_add]
  rfl

/-- The feature coordinate passes through the 16-wide gather. -/
theorem gather16_col (ei : IVec Cert.KernelIdeal.S2x1600000 32) (j : Cert.KernelIdeal.S1700000x16.Idx) :
    (Cert.KernelIdeal.gather_S100000x16_S1700000x1_S1700000x16_1_0_n_n_0_1_116.operandIdx j (srcIdx2 ei) 1).val = (j 1).val := by
  show Cert.KernelIdeal.gather_S100000x16_S1700000x1_S1700000x16_1_0_n_n_0_1_116.start j (srcIdx2 ei) 1
      + Cert.KernelIdeal.gather_S100000x16_S1700000x1_S1700000x16_1_0_n_n_0_1_116.batchCoord j 1
      + Cert.KernelIdeal.gather_S100000x16_S1700000x1_S1700000x16_1_0_n_n_0_1_116.offCoord j 1 = _
  rw [GatherDims.batchCoord_eq_zero _ _ _ (by decide), Nat.add_zero]
  unfold GatherDims.start GatherDims.offCoord
  rw [dif_neg (by decide), dif_pos (by decide), Nat.zero_add]
  rfl

end Cert.GCN

end
-- ==== Proof.Landing.lean ====
/- Where the summed messages land. A message of edge `e` that lands on row `n` has `d e = n` as a signed word inside the
   row range: it is not negative, so the reference's wrap of negative indices leaves it alone, and it is below the
   row count, so the gather's clamp leaves it alone; the one-axis gather at the destinations therefore reads element `n`. -/
import proofs.«430215_j31516470018049_1_alg».proof.Proof.Spec

noncomputable section

namespace Cert.GCN

open Idealize.ShloMosaic Idealize.ShloMosaic.TcCoe Idealize.ShloMosaic.ValueIdx Idealize.SL.Sem

section Helpers
open Cert.ReferenceIdeal Cert.ReferenceIdeal.ReadP

/-- A signed word that is not negative is not below zero: the compare's bit is clear. -/
private theorem slt_zero_of_nonneg (a : BitVec 32) (h : 0 ≤ a.toInt) : IntOp.cmpi .slt a 0#32 = 0#1 := by
  unfold IntOp.cmpi
  show BitVec.ofBool (a.slt 0#32) = 0#1
  have hf : a.slt 0#32 = false := by
    unfold BitVec.slt
    rw [BitVec.toInt_zero]
    exact decide_eq_false (by omega)
  rw [hf]; rfl

/-- The one-axis gather at the wrapped destinations reads, for edge `e`, the element whose number is the wrapped
    destination word read signed and clamped into the row range. -/
private theorem gatherAt (ei : IVec Cert.KernelIdeal.S2x1600000 32) (e : Fin 1700000) :
    (gather_S100000_S1700000x1_S1700000_n_0_n_n_0_1_1.operandIdx (ix1 e) (val_main_v27 (F := Ideal) ei) 0).val
      = min (val_main_v26 (F := Ideal) ei (ix1 e)).toInt.toNat 99999 := by
  show gather_S100000_S1700000x1_S1700000_n_0_n_n_0_1_1.start (ix1 e) (val_main_v27 (F := Ideal) ei) 0
      + gather_S100000_S1700000x1_S1700000_n_0_n_n_0_1_1.batchCoord (ix1 e) 0
      + gather_S100000_S1700000x1_S1700000_n_0_n_n_0_1_1.offCoord (ix1 e) 0 = _
  rw [GatherDims.batchCoord_eq_zero _ _ _ (by decide), GatherDims.offCoord_eq_zero _ _ _ (by decide)]
  unfold GatherDims.start
  rw [dif_pos (show (0 : Fin S100000.rank) ∈ gather_S100000_S1700000x1_S1700000_n_0_n_n_0_1_1.startIndexMap by decide),
    val_main_v27_apply]
  have he : ∀ c, idx_main_v27 (gather_S100000_S1700000x1_S1700000_n_0_n_n_0_1_1.siIdx (ix1 e) c) = ix1 e := fun c => by
    funext a
    match a with
    | ⟨0, _⟩ => rfl
  rw [he]
  have hsz : S100000.size 0 - gather_S100000_S1700000x1_S1700000_n_0_n_n_0_1_1.sliceSizes 0 = 99999 := rfl
  rw [hsz]
  simp only [Nat.add_zero]

/-- A destination word that is not negative and is below the row count: the wrap of negative indices keeps it (its
    compare bit is clear) and the clamp into the row range keeps it. -/
private theorem wrapped_of_inRange (ei : IVec Cert.KernelIdeal.S2x1600000 32) (e : Fin 1700000)
    (h0 : 0 ≤ (val_main_v6 (F := Ideal) ei (ix1 e)).toInt) (h1 : (val_main_v6 (F := Ideal) ei (ix1 e)).toInt < 100000) :
    min (val_main_v26 (F := Ideal) ei (ix1 e)).toInt.toNat 99999 = (val_main_v6 (F := Ideal) ei (ix1 e)).toInt.toNat := by
  rw [val_main_v26_apply, val_main_v23_apply, val_main_v22_apply, val_main_c_4_apply, slt_zero_of_nonneg _ h0, select_zero]
  omega

/-- A 64-wide message of edge `j 0` that lands on row `i 0`: the scatter reads the destination word signed and
    unclamped and adds no window coordinate on the row axis, so the word is not negative, is below the row count,
    and is the row's number. -/
private theorem scatter64At (ei : IVec Cert.KernelIdeal.S2x1600000 32) (j : S1700000x64.Idx) (i : S100000x64.Idx)
    (h : scatter_S100000x64_S1700000x1_S1700000x64_1_0_0_1.resultIdx? j (val_main_v42 (F := Ideal) ei) = some i) :
    0 ≤ (val_main_v6 (F := Ideal) ei (ix1 (j 0))).toInt ∧ (val_main_v6 (F := Ideal) ei (ix1 (j 0))).toInt < 100000 ∧
      (i 0).val = (val_main_v6 (F := Ideal) ei (ix1 (j 0))).toInt.toNat := by
  have hw : scatter_S100000x64_S1700000x1_S1700000x64_1_0_0_1.window j 0 = 0 := by
    unfold ScatterDims.window
    rw [dif_neg (by decide)]
  have hs : scatter_S100000x64_S1700000x1_S1700000x64_1_0_0_1.start j (val_main_v42 (F := Ideal) ei) 0
      = (val_main_v6 (F := Ideal) ei (ix1 (j 0))).toInt := by
    unfold ScatterDims.start
    rw [dif_pos (show (0 : Fin S100000x64.rank) ∈ scatter_S100000x64_S1700000x1_S1700000x64_1_0_0_1.scatterDimsToOperandDims by decide),
      val_main_v42_apply]
    have he : ∀ c, idx_main_v42 (scatter_S100000x64_S1700000x1_S1700000x64_1_0_0_1.siIdx j c) = (ix1 (j 0) : S1700000.Idx) := fun c => by
      funext a
      match a with
      | ⟨0, _⟩ => rfl
    rw [he]
  unfold ScatterDims.resultIdx? at h
  split at h
  · next hh =>
    have hi := Option.some.inj h
    have h0 := hh 0
    have hsz : S100000x64.size 0 = 100000 := rfl
    rw [hs, hw, hsz] at h0
    refine ⟨by omega, by omega, ?_⟩
    rw [← hi]
    show (scatter_S100000x64_S1700000x1_S1700000x64_1_0_0_1.start j (val_main_v42 (F := Ideal) ei) 0
      + (scatter_S100000x64_S1700000x1_S1700000x64_1_0_0_1.window j 0 : Int)).toNat = _
    rw [hs, hw]
    simp only [Nat.cast_zero, Int.add_zero]
  · exact absurd h (by simp)

/-- A 16-wide message of edge `j 0` that lands on row `i 0`: the scatter reads the destination word signed and
    unclamped and adds no window coordinate on the row axis, so the word is not negative, is below the row count,
    and is the row's number. -/
private theorem scatter16At (ei : IVec Cert.KernelIdeal.S2x1600000 32) (j : S1700000x16.Idx) (i : S100000x16.Idx)
    (h : scatter_S100000x16_S1700000x1_S1700000x16_1_0_0_1.resultIdx? j (val_main_v96 (F := Ideal) ei) = some i) :
    0 ≤ (val_main_v6 (F := Ideal) ei (ix1 (j 0))).toInt ∧ (val_main_v6 (F := Ideal) ei (ix1 (j 0))).toInt < 100000 ∧
      (i 0).val = (val_main_v6 (F := Ideal) ei (ix1 (j 0))).toInt.toNat := by
  have hw : scatter_S100000x16_S1700000x1_S1700000x16_1_0_0_1.window j 0 = 0 := by
    unfold ScatterDims.window
    rw [dif_neg (by decide)]
  have hs : scatter_S100000x16_S1700000x1_S1700000x16_1_0_0_1.start j (val_main_v96 (F := Ideal) ei) 0
      = (val_main_v6 (F := Ideal) ei (ix1 (j 0))).toInt := by
    unfold ScatterDims.start
    rw [dif_pos (show (0 : Fin S100000x16.rank) ∈ scatter_S100000x16_S1700000x1_S1700000x16_1_0_0_1.scatterDimsToOperandDims by decide),
      val_main_v96_apply]
    have he : ∀ c, idx_main_v96 (scatter_S100000x16_S1700000x1_S1700000x16_1_0_0_1.siIdx j c) = (ix1 (j 0) : S1700000.Idx) := fun c => by
      funext a
      match a with
      | ⟨0, _⟩ => rfl
    rw [he]
  unfold ScatterDims.resultIdx? at h
  split at h
  · next hh =>
    have hi := Option.some.inj h
    have h0 := hh 0
    have hsz : S100000x16.size 0 = 100000 := rfl
    rw [hs, hw, hsz] at h0
    refine ⟨by omega, by omega, ?_⟩
    rw [← hi]
    show (scatter_S100000x16_S1700000x1_S1700000x16_1_0_0_1.start j (val_main_v96 (F := Ideal) ei) 0
      + (scatter_S100000x16_S1700000x1_S1700000x16_1_0_0_1.window j 0 : Int)).toNat = _
    rw [hs, hw]
    simp only [Nat.cast_zero, Int.add_zero]
  · exact absurd h (by simp)

end Helpers

/-- A 64-wide message that lands on row `i 0`: the reference's gather of the normaliser at the destinations reads element `i 0`. -/
theorem landing64 (ei : IVec Cert.KernelIdeal.S2x1600000 32) (j : Cert.KernelIdeal.S1700000x64.Idx) (i : Cert.KernelIdeal.S100000x64.Idx)
    (h : Cert.ReferenceIdeal.scatter_S100000x64_S1700000x1_S1700000x64_1_0_0_1.resultIdx? j (Cert.ReferenceIdeal.ReadP.val_main_v42 (F := Ideal) ei) = some i) :
    (Cert.ReferenceIdeal.gather_S100000_S1700000x1_S1700000_n_0_n_n_0_1_1.operandIdx (ix1 (j 0)) (Cert.ReferenceIdeal.ReadP.val_main_v27 (F := Ideal) ei) 0).val = (i 0).val := by
  obtain ⟨h0, h1, hi⟩ := scatter64At ei j i h
  exact ((gatherAt ei (j 0)).trans (wrapped_of_inRange ei (j 0) h0 h1)).trans hi.symm

/-- The same for a 16-wide message. -/
theorem landing16 (ei : IVec Cert.KernelIdeal.S2x1600000 32) (j : Cert.KernelIdeal.S1700000x16.Idx) (i : Cert.KernelIdeal.S100000x16.Idx)
    (h : Cert.ReferenceIdeal.scatter_S100000x16_S1700000x1_S1700000x16_1_0_0_1.resultIdx? j (Cert.ReferenceIdeal.ReadP.val_main_v96 (F := Ideal) ei) = some i) :
    (Cert.ReferenceIdeal.gather_S100000_S1700000x1_S1700000_n_0_n_n_0_1_1.operandIdx (ix1 (j 0)) (Cert.ReferenceIdeal.ReadP.val_main_v27 (F := Ideal) ei) 0).val = (i 0).val := by
  obtain ⟨h0, h1, hi⟩ := scatter16At ei j i h
  exact ((gatherAt ei (j 0)).trans (wrapped_of_inRange ei (j 0) h0 h1)).trans hi.symm

end Cert.GCN

end
-- ==== Proof.Dinv.lean ====
/- The normaliser is a nonnegative real. A node's degree is zero plus a sum of ones over the edges that land on it: a
   natural number; where it is positive the normaliser is the reciprocal of its square root, a positive real, and
   otherwise it is zero. -/
import proofs.«430215_j31516470018049_1_alg».proof.Proof.Spec

noncomputable section

namespace Cert.GCN

open Idealize.ShloMosaic Idealize.ShloMosaic.TcCoe Idealize.ShloMosaic.ValueIdx Idealize.SL.Sem

/-- For every extended real `d`: the reciprocal square root of `d` where `d > 0`, and `0` elsewhere, is a
    nonnegative extended real other than `⊤`. At `⊥` and at a real `r ≤ 0` the comparison fails and the value is
    `0`; at `⊤` it holds and the reciprocal square root of `⊤` is `0`; at a real `r > 0` it is the real
    `(√r)⁻¹ ≥ 0`. -/
private theorem sel_rsqrt (d : EReal) :
    (0 : EReal) ≤ Scalar.select (Ideal.cmp .ogt d 0) (Ideal.rsqrt d) (0 : EReal) ∧
      Scalar.select (Ideal.cmp .ogt d 0) (Ideal.rsqrt d) (0 : EReal) ≠ ⊤ := by
  induction d using EReal.rec with
  | bot =>
    have hc : Ideal.cmp .ogt (⊥ : EReal) 0 = 0#1 := by simp [Ideal.cmp]
    rw [hc, select_zero]
    exact ⟨le_refl _, EReal.zero_ne_top⟩
  | top =>
    have hc : Ideal.cmp .ogt (⊤ : EReal) 0 = 1#1 := by simp [Ideal.cmp]
    rw [hc, select_one, Ideal.rsqrt_top]
    exact ⟨le_refl _, EReal.zero_ne_top⟩
  | coe r =>
    by_cases h : 0 < r
    · have hc : Ideal.cmp .ogt (r : EReal) 0 = 1#1 := by simp [Ideal.cmp, h]
      rw [hc, select_one, Ideal.rsqrt_coe, if_neg (not_lt.mpr h.le), if_neg h.ne']
      exact ⟨EReal.coe_nonneg.mpr (inv_nonneg.mpr (Real.sqrt_nonneg r)), EReal.coe_ne_top _⟩
    · have hc : Ideal.cmp .ogt (r : EReal) 0 = 0#1 := by simp [Ideal.cmp, h]
      rw [hc, select_zero]
      exact ⟨le_refl _, EReal.zero_ne_top⟩

/-- The normaliser at a node is that select, of the node's degree whatever extended real the degree is. -/
private theorem dinv_eq (ei : IVec Cert.KernelIdeal.S2x1600000 32) (a : Cert.ReferenceIdeal.S100000.Idx) :
    Cert.ReferenceIdeal.ReadP.val_main_v14 (F := Ideal) ei a =
      Scalar.select (Ideal.cmp .ogt (Cert.ReferenceIdeal.ReadP.val_main_v10 (F := Ideal) ei a) 0)
        (Ideal.rsqrt (Cert.ReferenceIdeal.ReadP.val_main_v10 (F := Ideal) ei a)) (0 : EReal) := by
  have hz : (FloatOps.ofBits .f32 0x00000000#32 : Ideal .f32) = (0 : EReal) := Ideal.ofBits_zero_f32
  rw [Cert.ReferenceIdeal.ReadP.val_main_v14_apply, Cert.ReferenceIdeal.ReadP.val_main_v12_apply,
    Cert.ReferenceIdeal.ReadP.val_main_v13_apply, Cert.ReferenceIdeal.ReadP.val_main_v11_apply,
    Cert.ReferenceIdeal.ReadP.val_main_cst_1_apply, Cert.ReferenceIdeal.ReadP.val_main_call0_v1_apply,
    Cert.ReferenceIdeal.ReadP.val_main_call0_v0_apply, Cert.ReferenceIdeal.ReadP.val_main_cst_2_apply,
    Ideal.cmpf_def, Ideal.hostUnary_rsqrt_def, hz]

theorem dinv_nonneg (ei : IVec Cert.KernelIdeal.S2x1600000 32) (a : Cert.ReferenceIdeal.S100000.Idx) : (0 : EReal) ≤ Cert.ReferenceIdeal.ReadP.val_main_v14 (F := Ideal) ei a := by
  rw [dinv_eq]
  exact (sel_rsqrt _).1

theorem dinv_ne_top (ei : IVec Cert.KernelIdeal.S2x1600000 32) (a : Cert.ReferenceIdeal.S100000.Idx) : Cert.ReferenceIdeal.ReadP.val_main_v14 (F := Ideal) ei a ≠ (⊤ : EReal) := by
  rw [dinv_eq]
  exact (sel_rsqrt _).2

end Cert.GCN

end
-- ==== Proof.Agg.lean ====
/- One layer's aggregation, the kernel's way and the reference's, is one function of the product `M = H · W`. At
   node `n`, feature `f` the kernel has `(∑ e lands on n, M[s e, f] · c (s e)) · c n + b f` and the reference
   `(∑ e lands on n, M[s e, f] · (c (s e) · c (d e))) + b f`; on every edge of the sum `c (d e) = c n`, the product
   of extended reals is associative, and a nonnegative real factor moves across a finite sum. -/
import proofs.«430215_j31516470018049_1_alg».proof.Proof.Spec
import proofs.«430215_j31516470018049_1_alg».proof.Proof.Idx
import proofs.«430215_j31516470018049_1_alg».proof.Proof.Landing
import proofs.«430215_j31516470018049_1_alg».proof.Proof.Dinv
import Mathlib.Data.EReal.Operations

noncomputable section

namespace Cert.GCN

open Idealize.ShloMosaic Idealize.ShloMosaic.TcCoe Idealize.ShloMosaic.ValueIdx Idealize.SL.Sem

/-- A nonnegative real factor moves across a finite sum of extended reals (the product distributes over a sum of two
    when the factor is neither negative nor `⊤`; induction on the index set). -/
private theorem sum_mul_of_nonneg_of_ne_top {ι : Type} (s : Finset ι) (a : ι → EReal) {c : EReal} (h0 : 0 ≤ c) (ht : c ≠ ⊤) :
    (∑ j ∈ s, a j) * c = ∑ j ∈ s, a j * c := by
  classical
  induction s using Finset.induction_on with
  | empty => rw [Finset.sum_empty, Finset.sum_empty, zero_mul]
  | insert x s hx ih =>
    rw [Finset.sum_insert hx, Finset.sum_insert hx, EReal.right_distrib_of_nonneg_of_ne_top h0 ht, ih]

/-- The host's accumulating scatter at the ideal values, read at an index: the operand there plus the sum of the updates
    that land there. -/
private theorem scatterAdd_read {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The normaliser column read at row `a` is the normaliser at `a`. -/
private theorem dcol_read (ei : IVec Cert.KernelIdeal.S2x1600000 32) (a : Fin 100000) :
    dcol ei (ix2 a 0) = Cert.ReferenceIdeal.ReadP.val_main_v14 (F := Ideal) ei (ix1 a) := by
  unfold dcol
  exact shapeCast_apply _ _ _ _ (by
    rw [Shape.rowMajor_val_one, Shape.rowMajor_val_two]
    show a.val = a.val * 1 + 0
    omega)

/-- With every source naming a node the masked gather keeps the gathered row: the 64-wide take at `j` is `hs` at the
    gather's operand index. -/
private theorem take64_read (ei : IVec Cert.KernelIdeal.S2x1600000 32) (h : SrcInRange ei) (hs : FVec Ideal Cert.KernelIdeal.S100000x64 .f32)
    (j : Cert.KernelIdeal.S1700000x64.Idx) :
    take64 hs ei j = hs (Cert.KernelIdeal.gather_S100000x64_S1700000x1_S1700000x64_1_0_n_n_0_1_164.operandIdx j (srcIdx2 ei)) := by
  unfold take64
  rw [select_apply]
  have hm : broadcastInDim Cert.KernelIdeal.S1700000x64 ![0] Cert.KernelIdeal.Facts₀.bcast_S1700000_S1700000x64_0 (takeMask ei) j = 1#1 := by
    unfold broadcastInDim
    exact takeMask_eq_one ei h _
  rw [hm, select_one]
  rfl

/-- The kernel's message of edge entry `j`: the product's entry at the source row times the normaliser at the source. -/
private theorem kTerm64 (ei : IVec Cert.KernelIdeal.S2x1600000 32) (h : SrcInRange ei) (M : FVec Ideal Cert.KernelIdeal.S100000x64 .f32)
    (j : Cert.KernelIdeal.S1700000x64.Idx) :
    take64 (fun i => M i * dcol ei (ix2 (i 0) 0)) ei j
      = M (Cert.KernelIdeal.gather_S100000x64_S1700000x1_S1700000x64_1_0_n_n_0_1_164.operandIdx j (srcIdx2 ei))
        * Cert.ReferenceIdeal.ReadP.val_main_v14 (F := Ideal) ei
            (Cert.ReferenceIdeal.gather_S100000_S1700000x1_S1700000_n_0_n_n_0_1_1.operandIdx (ix1 (j 0)) (Cert.ReferenceIdeal.ReadP.val_main_v20 (F := Ideal) ei)) := by
  rw [take64_read ei h]
  refine congrArg (fun t => M (Cert.KernelIdeal.gather_S100000x64_S1700000x1_S1700000x64_1_0_n_n_0_1_164.operandIdx j (srcIdx2 ei)) * t) ?_
  refine (dcol_read ei _).trans (congrArg _ ?_)
  funext a
  match a with
  | ⟨0, _⟩ => exact Fin.ext (gather64_row ei j)

/-- The reference's message of edge entry `j`: the same entry of the product times the normaliser at the source times
    the normaliser at the destination. -/
private theorem rTerm64 (ei : IVec Cert.KernelIdeal.S2x1600000 32) (M : FVec Ideal Cert.KernelIdeal.S100000x64 .f32)
    (j : Cert.KernelIdeal.S1700000x64.Idx) :
    mulf (Host.gather Cert.ReferenceIdeal.gather_S100000x64_S1700000x1_S1700000x64_1_0_n_n_0_1_164 M (Cert.ReferenceIdeal.ReadP.val_main_v36 (F := Ideal) ei))
        (Cert.ReferenceIdeal.ReadP.val_main_v39 (F := Ideal) ei) j
      = M (Cert.KernelIdeal.gather_S100000x64_S1700000x1_S1700000x64_1_0_n_n_0_1_164.operandIdx j (srcIdx2 ei))
        * (Cert.ReferenceIdeal.ReadP.val_main_v14 (F := Ideal) ei
            (Cert.ReferenceIdeal.gather_S100000_S1700000x1_S1700000_n_0_n_n_0_1_1.operandIdx (ix1 (j 0)) (Cert.ReferenceIdeal.ReadP.val_main_v20 (F := Ideal) ei))
          * Cert.ReferenceIdeal.ReadP.val_main_v14 (F := Ideal) ei
            (Cert.ReferenceIdeal.gather_S100000_S1700000x1_S1700000_n_0_n_n_0_1_1.operandIdx (ix1 (j 0)) (Cert.ReferenceIdeal.ReadP.val_main_v27 (F := Ideal) ei))) := by
  rw [mulf_apply, Cert.ReferenceIdeal.ReadP.val_main_v39_apply, Cert.ReferenceIdeal.ReadP.val_main_v38_apply,
    Cert.ReferenceIdeal.ReadP.val_main_v29_apply]
  have he : Cert.ReferenceIdeal.ReadP.idx_main_v38 (Cert.ReferenceIdeal.ReadP.idx_main_v39 j) = ix1 (j 0) := by
    funext a
    match a with
    | ⟨0, _⟩ => rfl
  rw [he]
  rfl

theorem agg64 (ei : IVec Cert.KernelIdeal.S2x1600000 32) (h : SrcInRange ei) (M : FVec Ideal Cert.KernelIdeal.S100000x64 .f32) (b : FVec Ideal Cert.KernelIdeal.S64 .f32) :
    kAgg64 ei (fun i => M i * dcol ei (ix2 (i 0) 0)) b = rAgg64 ei M b := by
  funext i
  unfold kAgg64 scaleBiasRelu_64 rAgg64
  rw [maximumf_apply, addf_apply, scatterAdd_read, scatterAdd_read]
  -- the two initial arrays and the lower bound of the maximum are zero
  have hzK : ∀ hb, broadcastInDim Cert.KernelIdeal.S100000x64 ![] hb (constant (F := Ideal) Cert.KernelIdeal.S_ .f32 0x00000000#32) i = 0 :=
    fun _ => Ideal.ofBits_zero_f32
  have hzR : Cert.ReferenceIdeal.ReadP.val_main_v41 (F := Ideal) i = 0 := by
    rw [Cert.ReferenceIdeal.ReadP.val_main_v41_apply, Cert.ReferenceIdeal.ReadP.val_main_cst_8_apply]
    exact Ideal.ofBits_zero_f32
  have hz0 : Cert.ReferenceIdeal.ReadP.val_main_call1_v0 (F := Ideal) i = 0 := by
    rw [Cert.ReferenceIdeal.ReadP.val_main_call1_v0_apply, Cert.ReferenceIdeal.ReadP.val_main_call1_cst_apply]
    exact Ideal.ofBits_zero_f32
  -- both bias terms are the bias at the feature
  have hbK : ∀ hc, shapeCast Cert.KernelIdeal.S1x64 b hc (ix2 0 (i 1)) = b (ix1 (i 1)) :=
    fun hc => shapeCast_apply b hc _ _ (by
      rw [Shape.rowMajor_val_one, Shape.rowMajor_val_two]
      show (i 1).val = 0 * 64 + (i 1).val
      omega)
  have hbR : Cert.ReferenceIdeal.ReadP.val_main_v45 (F := Ideal) b i = b (ix1 (i 1)) := by
    rw [Cert.ReferenceIdeal.ReadP.val_main_v45_apply, Cert.ReferenceIdeal.ReadP.val_main_v44_apply]
    congr 1
    funext a
    match a with
    | ⟨0, _⟩ => rfl
  rw [hzK, hzR, hz0, hbK, hbR, zero_add, zero_add, dcol_read ei (i 0),
    sum_mul_of_nonneg_of_ne_top _ _ (dinv_nonneg ei (ix1 (i 0))) (dinv_ne_top ei (ix1 (i 0)))]
  refine congrArg (fun t => max (t + b (ix1 (i 1))) 0) ?_
  refine Finset.sum_congr rfl fun j hj => ?_
  rw [kTerm64 ei h, rTerm64, mul_assoc]
  -- an edge of this sum lands on row `i 0`: the normaliser at its destination is the one at `i 0`
  have hd : Cert.ReferenceIdeal.gather_S100000_S1700000x1_S1700000_n_0_n_n_0_1_1.operandIdx (ix1 (j 0)) (Cert.ReferenceIdeal.ReadP.val_main_v27 (F := Ideal) ei)
      = ix1 (i 0) := by
    funext a
    match a with
    | ⟨0, _⟩ => exact Fin.ext (landing64 ei j i (Finset.mem_filter.mp hj).2)
  rw [hd]
  rfl

/-- With every source naming a node the masked gather keeps the gathered row: the 16-wide take at `j` is `hs` at the
    gather's operand index. -/
private theorem take16_read (ei : IVec Cert.KernelIdeal.S2x1600000 32) (h : SrcInRange ei) (hs : FVec Ideal Cert.KernelIdeal.S100000x16 .f32)
    (j : Cert.KernelIdeal.S1700000x16.Idx) :
    take16 hs ei j = hs (Cert.KernelIdeal.gather_S100000x16_S1700000x1_S1700000x16_1_0_n_n_0_1_116.operandIdx j (srcIdx2 ei)) := by
  unfold take16
  rw [select_apply]
  have hm : broadcastInDim Cert.KernelIdeal.S1700000x16 ![0] Cert.KernelIdeal.Facts₀.bcast_S1700000_S1700000x16_0 (takeMask ei) j = 1#1 := by
    unfold broadcastInDim
    exact takeMask_eq_one ei h _
  rw [hm, select_one]
  rfl

/-- The kernel's message of edge entry `j`: the product's entry at the source row times the normaliser at the source. -/
private theorem kTerm16 (ei : IVec Cert.KernelIdeal.S2x1600000 32) (h : SrcInRange ei) (M : FVec Ideal Cert.KernelIdeal.S100000x16 .f32)
    (j : Cert.KernelIdeal.S1700000x16.Idx) :
    take16 (fun i => M i * dcol ei (ix2 (i 0) 0)) ei j
      = M (Cert.KernelIdeal.gather_S100000x16_S1700000x1_S1700000x16_1_0_n_n_0_1_116.operandIdx j (srcIdx2 ei))
        * Cert.ReferenceIdeal.ReadP.val_main_v14 (F := Ideal) ei
            (Cert.ReferenceIdeal.gather_S100000_S1700000x1_S1700000_n_0_n_n_0_1_1.operandIdx (ix1 (j 0)) (Cert.ReferenceIdeal.ReadP.val_main_v20 (F := Ideal) ei)) := by
  rw [take16_read ei h]
  refine congrArg (fun t => M (Cert.KernelIdeal.gather_S100000x16_S1700000x1_S1700000x16_1_0_n_n_0_1_116.operandIdx j (srcIdx2 ei)) * t) ?_
  refine (dcol_read ei _).trans (congrArg _ ?_)
  funext a
  match a with
  | ⟨0, _⟩ => exact Fin.ext (gather16_row ei j)

/-- The reference's message of edge entry `j`: the same entry of the product times the normaliser at the source times
    the normaliser at the destination. -/
private theorem rTerm16 (ei : IVec Cert.KernelIdeal.S2x1600000 32) (M : FVec Ideal Cert.KernelIdeal.S100000x16 .f32)
    (j : Cert.KernelIdeal.S1700000x16.Idx) :
    mulf (Host.gather Cert.ReferenceIdeal.gather_S100000x16_S1700000x1_S1700000x16_1_0_n_n_0_1_116 M (Cert.ReferenceIdeal.ReadP.val_main_v90 (F := Ideal) ei))
        (Cert.ReferenceIdeal.ReadP.val_main_v93 (F := Ideal) ei) j
      = M (Cert.KernelIdeal.gather_S100000x16_S1700000x1_S1700000x16_1_0_n_n_0_1_116.operandIdx j (srcIdx2 ei))
        * (Cert.ReferenceIdeal.ReadP.val_main_v14 (F := Ideal) ei
            (Cert.ReferenceIdeal.gather_S100000_S1700000x1_S1700000_n_0_n_n_0_1_1.operandIdx (ix1 (j 0)) (Cert.ReferenceIdeal.ReadP.val_main_v20 (F := Ideal) ei))
          * Cert.ReferenceIdeal.ReadP.val_main_v14 (F := Ideal) ei
            (Cert.ReferenceIdeal.gather_S100000_S1700000x1_S1700000_n_0_n_n_0_1_1.operandIdx (ix1 (j 0)) (Cert.ReferenceIdeal.ReadP.val_main_v27 (F := Ideal) ei))) := by
  rw [mulf_apply, Cert.ReferenceIdeal.ReadP.val_main_v93_apply, Cert.ReferenceIdeal.ReadP.val_main_v92_apply,
    Cert.ReferenceIdeal.ReadP.val_main_v29_apply]
  have he : Cert.ReferenceIdeal.ReadP.idx_main_v92 (Cert.ReferenceIdeal.ReadP.idx_main_v93 j) = ix1 (j 0) := by
    funext a
    match a with
    | ⟨0, _⟩ => rfl
  rw [he]
  rfl

theorem agg16 (ei : IVec Cert.KernelIdeal.S2x1600000 32) (h : SrcInRange ei) (M : FVec Ideal Cert.KernelIdeal.S100000x16 .f32) (b : FVec Ideal Cert.KernelIdeal.S16 .f32) :
    kAgg16 ei (fun i => M i * dcol ei (ix2 (i 0) 0)) b = rAgg16 ei M b := by
  funext i
  unfold kAgg16 scaleBias_16 rAgg16
  rw [addf_apply, scatterAdd_read, scatterAdd_read]
  -- the two initial arrays are zero
  have hzK : ∀ hb, broadcastInDim Cert.KernelIdeal.S100000x16 ![] hb (constant (F := Ideal) Cert.KernelIdeal.S_ .f32 0x00000000#32) i = 0 :=
    fun _ => Ideal.ofBits_zero_f32
  have hzR : Cert.ReferenceIdeal.ReadP.val_main_v95 (F := Ideal) i = 0 := by
    rw [Cert.ReferenceIdeal.ReadP.val_main_v95_apply, Cert.ReferenceIdeal.ReadP.val_main_cst_17_apply]
    exact Ideal.ofBits_zero_f32
  -- both bias terms are the bias at the feature
  have hbK : ∀ hc, shapeCast Cert.KernelIdeal.S1x16 b hc (ix2 0 (i 1)) = b (ix1 (i 1)) :=
    fun hc => shapeCast_apply b hc _ _ (by
      rw [Shape.rowMajor_val_one, Shape.rowMajor_val_two]
      show (i 1).val = 0 * 16 + (i 1).val
      omega)
  have hbR : Cert.ReferenceIdeal.ReadP.val_main_v99 (F := Ideal) b i = b (ix1 (i 1)) := by
    rw [Cert.ReferenceIdeal.ReadP.val_main_v99_apply, Cert.ReferenceIdeal.ReadP.val_main_v98_apply]
    congr 1
    funext a
    match a with
    | ⟨0, _⟩ => rfl
  rw [hzK, hzR, hbK, hbR, zero_add, zero_add, dcol_read ei (i 0),
    sum_mul_of_nonneg_of_ne_top _ _ (dinv_nonneg ei (ix1 (i 0))) (dinv_ne_top ei (ix1 (i 0)))]
  refine congrArg (fun t => t + b (ix1 (i 1))) ?_
  refine Finset.sum_congr rfl fun j hj => ?_
  rw [kTerm16 ei h, rTerm16, mul_assoc]
  -- an edge of this sum lands on row `i 0`: the normaliser at its destination is the one at `i 0`
  have hd : Cert.ReferenceIdeal.gather_S100000_S1700000x1_S1700000_n_0_n_n_0_1_1.operandIdx (ix1 (j 0)) (Cert.ReferenceIdeal.ReadP.val_main_v27 (F := Ideal) ei)
      = ix1 (i 0) := by
    funext a
    match a with
    | ⟨0, _⟩ => exact Fin.ext (landing16 ei j i (Finset.mem_filter.mp hj).2)
  rw [hd]
  rfl

end Cert.GCN

end
-- ==== Proof.RLayers.lean ====
/- The reference's four layers, each as the layer function of the Spec applied to the matrix product of the layer's
   input with its weights: the stages the reference's program runs through are that composition, operation for
   operation. -/
import proofs.«430215_j31516470018049_1_alg».proof.Proof.Spec

noncomputable section

namespace Cert.GCN

open Idealize.ShloMosaic Idealize.ShloMosaic.ValueIdx

variable (x0 : FVec Ideal Cert.ReferenceIdeal.S100000x128 .f32) (x1 : IVec Cert.ReferenceIdeal.S2x1600000 32) (x2 : FVec Ideal Cert.ReferenceIdeal.S128x64 .f32) (x3 : FVec Ideal Cert.ReferenceIdeal.S64 .f32)
    (x4 : FVec Ideal Cert.ReferenceIdeal.S64x64 .f32) (x5 : FVec Ideal Cert.ReferenceIdeal.S64 .f32) (x6 : FVec Ideal Cert.ReferenceIdeal.S64x64 .f32) (x7 : FVec Ideal Cert.ReferenceIdeal.S64 .f32)
    (x8 : FVec Ideal Cert.ReferenceIdeal.S64x16 .f32) (x9 : FVec Ideal Cert.ReferenceIdeal.S16 .f32)

theorem ref_layer1 :
    Cert.ReferenceIdeal.ReadP.val_main_v47 (F := Ideal) x0 x1 x2 x3
      = rAgg64 x1 (Host.dotGeneral (F := Ideal) (φ₁ := .f32) (φ₂ := .f32) Cert.ReferenceIdeal.dot_S100000x128_S128x64_S100000x64_1_0_0_1_n_n none x0 x2) x3 := rfl

theorem ref_layer2 :
    Cert.ReferenceIdeal.ReadP.val_main_v65 (F := Ideal) x0 x1 x2 x3 x4 x5
      = rAgg64 x1 (Host.dotGeneral (F := Ideal) (φ₁ := .f32) (φ₂ := .f32) Cert.ReferenceIdeal.dot_S100000x64_S64x64_S100000x64_1_0_0_1_n_n none (Cert.ReferenceIdeal.ReadP.val_main_v47 (F := Ideal) x0 x1 x2 x3 : FVec Ideal Cert.ReferenceIdeal.S100000x64 .f32) x4) x5 := rfl

theorem ref_layer3 :
    Cert.ReferenceIdeal.ReadP.val_main_v83 (F := Ideal) x0 x1 x2 x3 x4 x5 x6 x7
      = rAgg64 x1 (Host.dotGeneral (F := Ideal) (φ₁ := .f32) (φ₂ := .f32) Cert.ReferenceIdeal.dot_S100000x64_S64x64_S100000x64_1_0_0_1_n_n none (Cert.ReferenceIdeal.ReadP.val_main_v65 (F := Ideal) x0 x1 x2 x3 x4 x5 : FVec Ideal Cert.ReferenceIdeal.S100000x64 .f32) x6) x7 := rfl

theorem ref_layer4 :
    Cert.ReferenceIdeal.ReadP.val_main_v100 (F := Ideal) x0 x1 x2 x3 x4 x5 x6 x7 x8 x9
      = rAgg16 x1 (Host.dotGeneral (F := Ideal) (φ₁ := .f32) (φ₂ := .f32) Cert.ReferenceIdeal.dot_S100000x64_S64x16_S100000x16_1_0_0_1_n_n none (Cert.ReferenceIdeal.ReadP.val_main_v83 (F := Ideal) x0 x1 x2 x3 x4 x5 x6 x7 : FVec Ideal Cert.ReferenceIdeal.S100000x64 .f32) x8) x9 := rfl

end Cert.GCN

end
-- ==== Proof.Layers.lean ====
/- Layer by layer, the buffer the kernel's program leaves holds the reference's stage. Each kernel layer is the kernel's
   aggregation of the scaled product of its input with its weights; the scaled product is the host's matrix product
   times the normaliser entry by entry; under the range hypothesis the kernel's aggregation of that is the
   reference's aggregation of the product; and the reference's stage is that aggregation of the product of ITS input,
   which by the previous layer is the kernel's input. -/
import proofs.«430215_j31516470018049_1_alg».proof.Proof.KLayer1
import proofs.«430215_j31516470018049_1_alg».proof.Proof.KLayer2
import proofs.«430215_j31516470018049_1_alg».proof.Proof.KLayer3
import proofs.«430215_j31516470018049_1_alg».proof.Proof.KLayer4
import proofs.«430215_j31516470018049_1_alg».proof.Proof.MatMul
import proofs.«430215_j31516470018049_1_alg».proof.Proof.Agg
import proofs.«430215_j31516470018049_1_alg».proof.Proof.RLayers

noncomputable section

namespace Cert.GCN

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- After the first layer. -/
theorem layer1_eq (hs : SrcInRange (arg1 m c)) :
    W7 (F := Ideal) m ρ c (Proc.devRef .tc main_v22)
      = Cert.ReferenceIdeal.ReadP.val_main_v47 (F := Ideal) (arg0 m c) (arg1 m c) (arg2 m c) (arg3 m c) :=
  (kernel_layer1 m ρ c).trans
    ((congrArg (fun X => kAgg64 (arg1 m c) X (arg3 m c)) (mmScale_128_64_eq _ _ _)).trans
      ((agg64 _ hs _ _).trans (ref_layer1 _ _ _ _).symm))

/-- After the second layer. -/
theorem layer2_eq (hs : SrcInRange (arg1 m c)) :
    W11 (F := Ideal) m ρ c (Proc.devRef .tc main_v29)
      = Cert.ReferenceIdeal.ReadP.val_main_v65 (F := Ideal) (arg0 m c) (arg1 m c) (arg2 m c) (arg3 m c) (arg4 m c) (arg5 m c) :=
  (kernel_layer2 m ρ c).trans
    ((congrArg (fun X => kAgg64 (arg1 m c) (mmScale_64_64 X (arg4 m c) (dcol (arg1 m c))) (arg5 m c)) (layer1_eq m ρ c hs)).trans
      ((congrArg (fun X => kAgg64 (arg1 m c) X (arg5 m c)) (mmScale_64_64_eq _ _ _)).trans
        ((agg64 _ hs _ _).trans (ref_layer2 _ _ _ _ _ _).symm)))

/-- After the third layer. -/
theorem layer3_eq (hs : SrcInRange (arg1 m c)) :
    W15 (F := Ideal) m ρ c (Proc.devRef .tc main_v36)
      = Cert.ReferenceIdeal.ReadP.val_main_v83 (F := Ideal) (arg0 m c) (arg1 m c) (arg2 m c) (arg3 m c) (arg4 m c) (arg5 m c) (arg6 m c) (arg7 m c) :=
  (kernel_layer3 m ρ c).trans
    ((congrArg (fun X => kAgg64 (arg1 m c) (mmScale_64_64 X (arg6 m c) (dcol (arg1 m c))) (arg7 m c)) (layer2_eq m ρ c hs)).trans
      ((congrArg (fun X => kAgg64 (arg1 m c) X (arg7 m c)) (mmScale_64_64_eq _ _ _)).trans
        ((agg64 _ hs _ _).trans (ref_layer3 _ _ _ _ _ _ _ _).symm)))

/-- After the last layer: the kernel's result buffer holds the reference's result. -/
theorem layer4_eq (hs : SrcInRange (arg1 m c)) :
    W19 (F := Ideal) m ρ c (Proc.devRef .tc main_v43)
      = Cert.ReferenceIdeal.ReadP.val_main_v100 (F := Ideal) (arg0 m c) (arg1 m c) (arg2 m c) (arg3 m c) (arg4 m c) (arg5 m c) (arg6 m c) (arg7 m c) (arg8 m c) (arg9 m c) :=
  (kernel_layer4 m ρ c).trans
    ((congrArg (fun X => kAgg16 (arg1 m c) (mmScale_64_16 X (arg8 m c) (dcol (arg1 m c))) (arg9 m c)) (layer3_eq m ρ c hs)).trans
      ((congrArg (fun X => kAgg16 (arg1 m c) X (arg9 m c)) (mmScale_64_16_eq _ _ _)).trans
        ((agg16 _ hs _ _).trans (ref_layer4 _ _ _ _ _ _ _ _ _ _).symm)))

end Cert.GCN

end
-- ==== Proof.PreSrc.lean ====
/- Under the precondition every source names a node: the first 1,600,000 sources are row 0 of `edge_index`, which the
   precondition's last conjunct bounds word by word (`0 ≤ · < 100000`, signed), and the last 100,000 are the node
   numbers themselves. -/
import proofs.«430215_j31516470018049_1_alg».proof.Proof.Spec
import proofs.«430215_j31516470018049_1_alg».proof.Proof.Gen.Pre_finite_inputs
import proofs.«430215_j31516470018049_1_alg».proof.Defs
import Idealize.ShloMosaic.Lib.StableHlo.Predicate
import Idealize.ShloMosaic.Lib.ReduceAll

noncomputable section

namespace Cert.GCN

open Idealize.ShloMosaic Idealize.ShloMosaic.TcCoe Idealize.ShloMosaic.ValueIdx Idealize.SL.Sem

open Cert.ReferenceIdeal.ReadP in
/-- The precondition's last conjunct, read element by element: it is the conjunction over all 1,600,000 positions of
    `0 ≤ w` and `w < 100000` (both signed) for the word `w` of row 0 of `edge_index` at that position. The whole
    precondition being 1 makes this conjunct 1, a conjunction over an array that is 1 is 1 at every position, and a
    signed comparison word that is 1 says the comparison of the signed values. The row the precondition compares is
    the same slice and reshape of the same argument as the reference's second stage. -/
private theorem row0_of_pre (m : (ℓ : Loc Cert.KernelIdeal.nD Cert.KernelIdeal.τ Cert.KernelIdeal.sig) → Buf (Elt Ideal) ℓ) (h : Cert.Pre_KernelIdeal m) (c : Dev Cert.KernelIdeal.nD)
    (i : Cert.ReferenceIdeal.S1600000.Idx) :
    0 ≤ BitVec.toInt (val_main_v2 (F := Ideal) (m ((c.tc : Thread Cert.KernelIdeal.nD Cert.KernelIdeal.τ).loc Cert.KernelIdeal.main_arg1)) i)
    ∧ BitVec.toInt (val_main_v2 (F := Ideal) (m ((c.tc : Thread Cert.KernelIdeal.nD Cert.KernelIdeal.τ).loc Cert.KernelIdeal.main_arg1)) i) < 100000 := by
  have h0 := congrFun (h c) ValueIdx.ix0
  dsimp only [Cert.Pre_finite_inputs.fn, Cert.Pre_finite_inputs.fn_part1, Cert.Pre_finite_inputs.fn_part2, Cert.Pre_finite_inputs.fn_part3] at h0
  -- the last conjunct of the chain
  have h1 := (IntOp.andi_eq_one.1 h0).2
  haveI : Subsingleton Cert.Pre_finite_inputs.S_.Idx := ⟨fun a b => funext fun d => d.elim0⟩
  -- at position `i`
  have h2 := Host.reduce_andi_all _ _ _ _ ValueIdx.ix0 h1 i
  obtain ⟨h3, h4⟩ := IntOp.andi_eq_one.1 h2
  -- the two bounds are the constants 0 and 100000 laid along the row
  exact ⟨IntOp.cmpi_sge.1 h3, IntOp.cmpi_slt.1 h4⟩

theorem srcInRange_of_pre (m : (ℓ : Loc Cert.KernelIdeal.nD Cert.KernelIdeal.τ Cert.KernelIdeal.sig) → Buf (Elt Ideal) ℓ) (h : Cert.Pre_KernelIdeal m) (c : Dev Cert.KernelIdeal.nD) :
    SrcInRange (m ((c.tc : Thread Cert.KernelIdeal.nD Cert.KernelIdeal.τ).loc Cert.KernelIdeal.main_arg1)) := by
  intro e
  have he : (e 0).val < 1700000 := (e 0).isLt
  by_cases hlt : (e 0).val < 1600000
  · -- an edge of the list: the source is row 0 of `edge_index` at the same position
    have hv : Cert.ReferenceIdeal.ReadP.val_main_v3 (F := Ideal) (m ((c.tc : Thread Cert.KernelIdeal.nD Cert.KernelIdeal.τ).loc Cert.KernelIdeal.main_arg1)) e
        = Cert.ReferenceIdeal.ReadP.val_main_v2 (F := Ideal) (m ((c.tc : Thread Cert.KernelIdeal.nD Cert.KernelIdeal.τ).loc Cert.KernelIdeal.main_arg1)) (ix1 ⟨(e 0).val, hlt⟩) :=
      concatenate_pair_apply_left (t := Cert.ReferenceIdeal.S1700000) (s₁ := Cert.ReferenceIdeal.S1600000) (s₂ := Cert.ReferenceIdeal.S100000) 0 _ _ _ e rfl (ix1 ⟨(e 0).val, hlt⟩) (fun b => match b with | ⟨0, _⟩ => rfl)
    rw [hv]
    exact row0_of_pre m h c _
  · -- an appended self loop: the source is the node number `e − 1600000`, below 100000
    have hk : (e 0).val - 1600000 < 100000 := by omega
    have hv : Cert.ReferenceIdeal.ReadP.val_main_v3 (F := Ideal) (m ((c.tc : Thread Cert.KernelIdeal.nD Cert.KernelIdeal.τ).loc Cert.KernelIdeal.main_arg1)) e
        = Cert.ReferenceIdeal.ReadP.val_main_v0 (F := Ideal) (ix1 ⟨(e 0).val - 1600000, hk⟩) :=
      concatenate_pair_apply_right (t := Cert.ReferenceIdeal.S1700000) (s₁ := Cert.ReferenceIdeal.S1600000) (s₂ := Cert.ReferenceIdeal.S100000) 0 _ _ _ e rfl rfl (ix1 ⟨(e 0).val - 1600000, hk⟩)
        (fun b hb => absurd (match b with | ⟨0, _⟩ => rfl) hb)
        (by show (e 0).val - 1600000 + 1600000 = (e 0).val; omega)
    rw [hv, Cert.ReferenceIdeal.ReadP.val_main_v0_apply]
    show 0 ≤ (BitVec.ofNat 32 ((e 0).val - 1600000)).toInt ∧ (BitVec.ofNat 32 ((e 0).val - 1600000)).toInt < 100000
    rw [StableHlo.Predicate.toInt_ofNat_small _ (by omega)]
    omega

end Cert.GCN

end
-- ==== Proof.lean ====
/- A four-layer graph convolution with symmetric normalisation, kernel against reference, over the extended reals.

   Each layer takes node features `H`, forms `H · W`, and at every node `n` sums over the edges `e` into `n` (every node
   has a self loop) the source's row weighted by `c (s e) · c n`, `c = deg^(-1/2)`, then adds a bias; the first three
   layers end in `max · 0`. The reference weights each message by `c (s e) · c (d e)` before the sum. The kernel scales the
   rows of `H · W` by `c` in its first region, gathers and sums on the host, and scales the sums by `c` again, adds the
   bias and takes the maximum in its second region. The two agree because on an edge into `n` the destination's
   normaliser IS `c n`, the product of extended reals is associative, and a nonnegative real factor moves across a finite
   sum; `c n` is a nonnegative real since a degree is a count. The format changes in the kernel's product are the identity
   on the extended reals, and its matrix unit's product into a zero accumulator is the host's product.

   The kernel's gather fills rows whose source index names no node with a pattern the extended reals read as `-∞`, where
   the reference's gather clamps; the statement therefore carries the evident domain of `edge_index`'s first row (every
   source names a node), under which the fill is never used. Destinations need no such condition: both programs drop a
   message whose destination names no node. Finiteness of the float inputs is not used.

   The three frames: the kernel's two are the generated frames; the reference's is its run with the result dropped.
   The kernel's run with its result buffer named is the launch over @main's segments called once more; the buffer's
   contents are read back through @main's boundaries, region by region and stretch by stretch. -/
import proofs.«430215_j31516470018049_1_alg».proof.Defs
import proofs.«430215_j31516470018049_1_alg».proof.Proof.Gen.Kernel
import proofs.«430215_j31516470018049_1_alg».proof.Proof.Gen.Kernel.Frame
import proofs.«430215_j31516470018049_1_alg».proof.Proof.Gen.KernelIdeal
import proofs.«430215_j31516470018049_1_alg».proof.Proof.Gen.KernelIdeal.Frame
import proofs.«430215_j31516470018049_1_alg».proof.Proof.Gen.ReferenceIdeal
import proofs.«430215_j31516470018049_1_alg».proof.Proof.Gen.Pre_finite_inputs
import proofs.«430215_j31516470018049_1_alg».proof.Proof.RefRun
import proofs.«430215_j31516470018049_1_alg».proof.Proof.RefRead
import proofs.«430215_j31516470018049_1_alg».proof.Proof.KRun
import proofs.«430215_j31516470018049_1_alg».proof.Proof.Layers
import proofs.«430215_j31516470018049_1_alg».proof.Proof.PreSrc
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- From memories that agree on the arguments both programs end, the kernel's result buffer at the last boundary's
    contents and the reference's at its last stage; under the precondition the two are one array. -/
theorem algebraic : Cert.algebraic_KernelIdeal_ReferenceIdeal := by
  intro m ρ m' ρ' hpre hagree
  refine ⟨fun c => Cert.KernelIdeal.Gen.W19 (F := Ideal) m ρ c (Proc.devRef .tc Cert.KernelIdeal.main_v43),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v100_eq]
  obtain ⟨h0, h1, h2, h3, h4, h5, h6, h7, h8, h9⟩ := hagree c
  rw [h0, h1, h2, h3, h4, h5, h6, h7, h8, h9]
  exact (Cert.GCN.layer4_eq m ρ c (Cert.GCN.srcInRange_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
